-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x10 : Shape := ⟨2, ![50000, 10]⟩
abbrev S2x800000 : Shape := ⟨2, ![2, 800000]⟩
abbrev S800000 : Shape := ⟨1, ![800000]⟩
abbrev S4096 : Shape := ⟨1, ![4096]⟩
abbrev S10x64 : Shape := ⟨2, ![10, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S50000x10 : S_.BroadcastsInDim S50000x10 (![] : Fin 0 → Fin S50000x10.rank)
  reducesTo_S50000x10_S_d0_1 : S50000x10.ReducesTo [0, 1] S_
  h_S_ : 0 < S_.numel
  bcast_S_S800000 : S_.BroadcastsInDim S800000 (![] : Fin 0 → Fin S800000.rank)
  reducesTo_S800000_S_d0 : S800000.ReducesTo [0] S_
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg3 : IVec S4096 32) (main_v48 : IVec S_ 1) (main_v50 : IVec S4096 1) : IVec S_ 1 :=
  let main_c_19 : IVec S_ 32 := constantI S_ 32 50000#32
  let main_v51 : IVec S4096 32 := broadcastInDim S4096 ![] bcast_S_S4096 main_c_19
  let main_v52 : IVec S4096 1 := cmpi .slt main_arg3 main_v51
  let main_v53 : IVec S4096 1 := andi main_v50 main_v52
  let main_c_20 : IVec S_ 1 := constantI S_ 1 1#1
  let main_v54 : IVec S_ 1 := (fun x v => Host.reduce IntOp.andi x v reducesTo_S4096_S_d0 h_S_) main_v53 main_c_20
  let main_v55 : IVec S_ 1 := andi main_v48 main_v54
  main_v55

def fn_part2 {F : FTy → Type} [FloatOps F] (main_arg3 : IVec S4096 32) (main_arg9 : FVec F S64 .f32) (main_arg10 : FVec F S64x128 .f32) (main_arg11 : FVec F S128 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S4096 32 := broadcastInDim S4096 ![] bcast_S_S4096 main_c_18
  let main_v50 : IVec S4096 1 := cmpi .sge main_arg3 main_v49
  fn_part3 (F := F) main_arg3 main_v48 main_v50

def fn_part1 {F : FTy → Type} [FloatOps F] (main_arg3 : IVec S4096 32) (main_arg6 : FVec F S64x64 .f32) (main_arg7 : FVec F S64 .f32) (main_arg8 : FVec F S64x64 .f32) (main_arg9 : FVec F S64 .f32) (main_arg10 : FVec F S64x128 .f32) (main_arg11 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg3 main_arg9 main_arg10 main_arg11 main_v33

def fn {F : FTy → Type} [FloatOps F] (main_arg0 : FVec F S50000x10 .f32) (main_arg1 : IVec S2x800000 32) (main_arg2 : FVec F S800000 .f32) (main_arg3 : IVec S4096 32) (main_arg4 : FVec F S10x64 .f32) (main_arg5 : FVec F S64 .f32) (main_arg6 : FVec F S64x64 .f32) (main_arg7 : FVec F S64 .f32) (main_arg8 : FVec F S64x64 .f32) (main_arg9 : FVec F S64 .f32) (main_arg10 : FVec F S64x128 .f32) (main_arg11 : FVec F S128 .f32) : IVec S_ 1 :=
  let main_v0 : FVec F S50000x10 .f32 := Host.absf main_arg0
  let main_cst : FVec F S_ .f32 := constant S_ .f32 0x7F800000#32
  let main_v1 : FVec F S50000x10 .f32 := broadcastInDim S50000x10 ![] bcast_S_S50000x10 main_cst
  let main_v2 : IVec S50000x10 1 := cmpf .olt main_v0 main_v1
  let main_c : IVec S_ 1 := constantI S_ 1 1#1
  let main_v3 : IVec S_ 1 := (fun x v => Host.reduce IntOp.andi x v reducesTo_S50000x10_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S10x64 .f32 := Host.absf main_arg4
  let main_cst_2 : FVec F S_ .f32 := constant S_ .f32 0x7F800000#32
  let main_v10 : FVec F S10x64 .f32 := broadcastInDim S10x64 ![] bcast_S_S10x64 main_cst_2
  let main_v11 : IVec S10x64 1 := cmpf .olt main_v9 main_v10
  let main_c_3 : IVec S_ 1 := constantI S_ 1 1#1
  let main_v12 : IVec S_ 1 := (fun x v => Host.reduce IntOp.andi x v reducesTo_S10x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg3 main_arg6 main_arg7 main_arg8 main_arg9 main_arg10 main_arg11 main_v13 main_v16
-- ==== Kernel.lean ====
abbrev S50000x10 : Shape := ⟨2, ![50000, 10]⟩
abbrev S2x800000 : Shape := ⟨2, ![2, 800000]⟩
abbrev S800000 : Shape := ⟨1, ![800000]⟩
abbrev S4096 : Shape := ⟨1, ![4096]⟩
abbrev S10x64 : Shape := ⟨2, ![10, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x64 : Shape := ⟨2, ![1, 64]⟩
abbrev S50000x64 : Shape := ⟨2, ![50000, 64]⟩
abbrev S5000x10 : Shape := ⟨2, ![5000, 10]⟩
abbrev S5000x64 : Shape := ⟨2, ![5000, 64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x128 : Shape := ⟨2, ![1, 128]⟩
abbrev S50000x128 : Shape := ⟨2, ![50000, 128]⟩
abbrev S5000x128 : Shape := ⟨2, ![5000, 128]⟩
abbrev S4096x1x128 : Shape := ⟨3, ![4096, 1, 128]⟩
abbrev S16x1x128 : Shape := ⟨3, ![16, 1, 128]⟩
abbrev S1 : Shape := ⟨1, ![1]⟩
abbrev S1x1x128 : Shape := ⟨3, ![1, 1, 128]⟩
abbrev S4096x128 : Shape := ⟨2, ![4096, 128]⟩

abbrev nBuf : Space → Nat
  | .hbm => 118
  | .vmem => 27
  | .smem => 1
  | _ => 0

abbrev bufTy : (tb : Table) → Fin (tcTables nBuf tb) → BufTy
  | .hbm, ⟨0, _⟩ => ⟨S50000x10, .f32⟩
  | .hbm, ⟨1, _⟩ => ⟨S2x800000, .i32⟩
  | .hbm, ⟨2, _⟩ => ⟨S800000, .f32⟩
  | .hbm, ⟨3, _⟩ => ⟨S10x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S1x64, .f32⟩
  | .hbm, ⟨12, _⟩ => ⟨S50000x64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000, .i32⟩
  | .hbm, ⟨18, _⟩ => ⟨S850000, .i32⟩
  | .hbm, ⟨19, _⟩ => ⟨S850000, .i32⟩
  | .hbm, ⟨20, _⟩ => ⟨S_, .f32⟩
  | .hbm, ⟨21, _⟩ => ⟨S50000, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000, .f32⟩
  | .hbm, ⟨61, _⟩ => ⟨S850000, .f32⟩
  | .hbm, ⟨62, _⟩ => ⟨S_, .f32⟩
  | .hbm, ⟨63, _⟩ => ⟨S64, .f32⟩
  | .hbm, ⟨64, _⟩ => ⟨S1x64, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000x64, .f32⟩
  | .hbm, ⟨87, _⟩ => ⟨S50000x64, .f32⟩
  | .hbm, ⟨88, _⟩ => ⟨S_, .f32⟩
  | .hbm, ⟨89, _⟩ => ⟨S64, .f32⟩
  | .hbm, ⟨90, _⟩ => ⟨S1x64, .f32⟩
  | .hbm, ⟨91, _⟩ => ⟨S50000x64, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x64, .f32⟩
  | .hbm, ⟨101, _⟩ => ⟨S850000x1, .f32⟩
  | .hbm, ⟨102, _⟩ => ⟨S850000x64, .f32⟩
  | .hbm, ⟨103, _⟩ => ⟨S850000x64, .f32⟩
  | .hbm, ⟨104, _⟩ => ⟨S_, .f32⟩
  | .hbm, ⟨105, _⟩ => ⟨S50000x64, .f32⟩
  | .hbm, ⟨106, _⟩ => ⟨S850000x1, .i32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S50000x64, .f32⟩
  | .hbm, ⟨113, _⟩ => ⟨S50000x64, .f32⟩
  | .hbm, ⟨114, _⟩ => ⟨S1x128, .f32⟩
  | .hbm, ⟨115, _⟩ => ⟨S50000x128, .f32⟩
  | .hbm, ⟨116, _⟩ => ⟨S4096x1x128, .f32⟩
  | .hbm, ⟨117, _⟩ => ⟨S4096x128, .f32⟩
  | .local _ .vmem, ⟨0, _⟩ => ⟨S5000x10, .f32⟩
  | .local _ .vmem, ⟨1, _⟩ => ⟨S5000x10, .f32⟩
  | .local _ .vmem, ⟨2, _⟩ => ⟨S10x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S16x1x128, .f32⟩
  | .local _ .vmem, ⟨25, _⟩ => ⟨S16x1x128, .f32⟩
  | .local _ .vmem, ⟨26, _⟩ => ⟨S128, .f32⟩
  | .local _ .smem, ⟨0, _⟩ => ⟨S4096, .i32⟩
  | _, _ => ⟨S50000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call2_cst : Ref sig .tc := ⟨.hbm, 85, rfl⟩
abbrev main_call2_v0 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call3_cst : Ref sig .tc := ⟨.hbm, 111, rfl⟩
abbrev main_call3_v0 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![256], ![false]⟩

abbrev pre4 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k4_off2 (v3 : BitVec 32) : Fin 2 → Nat :=
  let c0_i32_0 : BitVec 32 := 0#32
  ![v3.toNat, 0]

def k4_chk1 (v3 : BitVec 32) : Prop :=
  (∀ a, (k4_off2 v3) a + S1x128.size a ≤ S50000x128.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x128.size a ≤ S50000x128.size a := fun v3 k4_hw1 => k4_hw1

def k4_off3 (i : grid4.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v12 : BitVec 32 := Scalar.addi v0 c1_i32
  let v13 : Index := Scalar.indexCast v12
  ![v13.toNat]
def k4_off4 (v14 : BitVec 32) : Fin 2 → Nat :=
  let c0_i32_5 : BitVec 32 := 0#32
  ![v14.toNat, 0]

def k4_chk2 (v14 : BitVec 32) : Prop :=
  (∀ a, (k4_off4 v14) a + S1x128.size a ≤ S50000x128.size a)
instance k4_chk2.dec : ∀ (v14 : BitVec 32), Decidable (k4_chk2 v14) := fun v14 => decidable_of_iff' _ (Iff.of_eq (k4_chk2.eq_1 v14))
theorem k4_off4_inb : ∀ (v14 : BitVec 32) (k4_hw2 : k4_chk2 v14), ∀ a, (k4_off4 v14) a + S1x128.size a ≤ S50000x128.size a := fun v14 k4_hw2 => k4_hw2

def k4_off5 (i : grid4.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v23 : BitVec 32 := Scalar.addi v0 c2_i32
  let v24 : Index := Scalar.indexCast v23
  ![v24.toNat]
def k4_off6 (v25 : BitVec 32) : Fin 2 → Nat :=
  let c0_i32_10 : BitVec 32 := 0#32
  ![v25.toNat, 0]

def k4_chk3 (v25 : BitVec 32) : Prop :=
  (∀ a, (k4_off6 v25) a + S1x128.size a ≤ S50000x128.size a)
instance k4_chk3.dec : ∀ (v25 : BitVec 32), Decidable (k4_chk3 v25) := fun v25 => decidable_of_iff' _ (Iff.of_eq (k4_chk3.eq_1 v25))
theorem k4_off6_inb : ∀ (v25 : BitVec 32) (k4_hw3 : k4_chk3 v25), ∀ a, (k4_off6 v25) a + S1x128.size a ≤ S50000x128.size a := fun v25 k4_hw3 => k4_hw3

def k4_off7 (i : grid4.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v34 : BitVec 32 := Scalar.addi v0 c3_i32
  let v35 : Index := Scalar.indexCast v34
  ![v35.toNat]
def k4_off8 (v36 : BitVec 32) : Fin 2 → Nat :=
  let c0_i32_15 : BitVec 32 := 0#32
  ![v36.toNat, 0]

def k4_chk4 (v36 : BitVec 32) : Prop :=
  (∀ a, (k4_off8 v36) a + S1x128.size a ≤ S50000x128.size a)
instance k4_chk4.dec : ∀ (v36 : BitVec 32), Decidable (k4_chk4 v36) := fun v36 => decidable_of_iff' _ (Iff.of_eq (k4_chk4.eq_1 v36))
theorem k4_off8_inb : ∀ (v36 : BitVec 32) (k4_hw4 : k4_chk4 v36), ∀ a, (k4_off8 v36) a + S1x128.size a ≤ S50000x128.size a := fun v36 k4_hw4 => k4_hw4

def k4_off9 (i : grid4.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v45 : BitVec 32 := Scalar.addi v0 c4_i32
  let v46 : Index := Scalar.indexCast v45
  ![v46.toNat]
def k4_off10 (v47 : BitVec 32) : Fin 2 → Nat :=
  let c0_i32_20 : BitVec 32 := 0#32
  ![v47.toNat, 0]

def k4_chk5 (v47 : BitVec 32) : Prop :=
  (∀ a, (k4_off10 v47) a + S1x128.size a ≤ S50000x128.size a)
instance k4_chk5.dec : ∀ (v47 : BitVec 32), Decidable (k4_chk5 v47) := fun v47 => decidable_of_iff' _ (Iff.of_eq (k4_chk5.eq_1 v47))
theorem k4_off10_inb : ∀ (v47 : BitVec 32) (k4_hw5 : k4_chk5 v47), ∀ a, (k4_off10 v47) a + S1x128.size a ≤ S50000x128.size a := fun v47 k4_hw5 => k4_hw5

def k4_off11 (i : grid4.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v56 : BitVec 32 := Scalar.addi v0 c5_i32
  let v57 : Index := Scalar.indexCast v56
  ![v57.toNat]
def k4_off12 (v58 : BitVec 32) : Fin 2 → Nat :=
  let c0_i32_25 : BitVec 32 := 0#32
  ![v58.toNat, 0]

def k4_chk6 (v58 : BitVec 32) : Prop :=
  (∀ a, (k4_off12 v58) a + S1x128.size a ≤ S50000x128.size a)
instance k4_chk6.dec : ∀ (v58 : BitVec 32), Decidable (k4_chk6 v58) := fun v58 => decidable_of_iff' _ (Iff.of_eq (k4_chk6.eq_1 v58))
theorem k4_off12_inb : ∀ (v58 : BitVec 32) (k4_hw6 : k4_chk6 v58), ∀ a, (k4_off12 v58) a + S1x128.size a ≤ S50000x128.size a := fun v58 k4_hw6 => k4_hw6

def k4_off13 (i : grid4.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v67 : BitVec 32 := Scalar.addi v0 c6_i32
  let v68 : Index := Scalar.indexCast v67
  ![v68.toNat]
def k4_off14 (v69 : BitVec 32) : Fin 2 → Nat :=
  let c0_i32_30 : BitVec 32 := 0#32
  ![v69.toNat, 0]

def k4_chk7 (v69 : BitVec 32) : Prop :=
  (∀ a, (k4_off14 v69) a + S1x128.size a ≤ S50000x128.size a)
instance k4_chk7.dec : ∀ (v69 : BitVec 32), Decidable (k4_chk7 v69) := fun v69 => decidable_of_iff' _ (Iff.of_eq (k4_chk7.eq_1 v69))
theorem k4_off14_inb : ∀ (v69 : BitVec 32) (k4_hw7 : k4_chk7 v69), ∀ a, (k4_off14 v69) a + S1x128.size a ≤ S50000x128.size a := fun v69 k4_hw7 => k4_hw7

def k4_off15 (i : grid4.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v78 : BitVec 32 := Scalar.addi v0 c7_i32
  let v79 : Index := Scalar.indexCast v78
  ![v79.toNat]
def k4_off16 (v80 : BitVec 32) : Fin 2 → Nat :=
  let c0_i32_35 : BitVec 32 := 0#32
  ![v80.toNat, 0]

def k4_chk8 (v80 : BitVec 32) : Prop :=
  (∀ a, (k4_off16 v80) a + S1x128.size a ≤ S50000x128.size a)
instance k4_chk8.dec : ∀ (v80 : BitVec 32), Decidable (k4_chk8 v80) := fun v80 => decidable_of_iff' _ (Iff.of_eq (k4_chk8.eq_1 v80))
theorem k4_off16_inb : ∀ (v80 : BitVec 32) (k4_hw8 : k4_chk8 v80), ∀ a, (k4_off16 v80) a + S1x128.size a ≤ S50000x128.size a := fun v80 k4_hw8 => k4_hw8

def k4_off17 (i : grid4.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v89 : BitVec 32 := Scalar.addi v0 c8_i32
  let v90 : Index := Scalar.indexCast v89
  ![v90.toNat]
def k4_off18 (v91 : BitVec 32) : Fin 2 → Nat :=
  let c0_i32_40 : BitVec 32 := 0#32
  ![v91.toNat, 0]

def k4_chk9 (v91 : BitVec 32) : Prop :=
  (∀ a, (k4_off18 v91) a + S1x128.size a ≤ S50000x128.size a)
instance k4_chk9.dec : ∀ (v91 : BitVec 32), Decidable (k4_chk9 v91) := fun v91 => decidable_of_iff' _ (Iff.of_eq (k4_chk9.eq_1 v91))
theorem k4_off18_inb : ∀ (v91 : BitVec 32) (k4_hw9 : k4_chk9 v91), ∀ a, (k4_off18 v91) a + S1x128.size a ≤ S50000x128.size a := fun v91 k4_hw9 => k4_hw9

def k4_off19 (i : grid4.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v100 : BitVec 32 := Scalar.addi v0 c9_i32
  let v101 : Index := Scalar.indexCast v100
  ![v101.toNat]
def k4_off20 (v102 : BitVec 32) : Fin 2 → Nat :=
  let c0_i32_45 : BitVec 32 := 0#32
  ![v102.toNat, 0]

def k4_chk10 (v102 : BitVec 32) : Prop :=
  (∀ a, (k4_off20 v102) a + S1x128.size a ≤ S50000x128.size a)
instance k4_chk10.dec : ∀ (v102 : BitVec 32), Decidable (k4_chk10 v102) := fun v102 => decidable_of_iff' _ (Iff.of_eq (k4_chk10.eq_1 v102))
theorem k4_off20_inb : ∀ (v102 : BitVec 32) (k4_hw10 : k4_chk10 v102), ∀ a, (k4_off20 v102) a + S1x128.size a ≤ S50000x128.size a := fun v102 k4_hw10 => k4_hw10

def k4_off21 (i : grid4.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v111 : BitVec 32 := Scalar.addi v0 c10_i32
  let v112 : Index := Scalar.indexCast v111
  ![v112.toNat]
def k4_off22 (v113 : BitVec 32) : Fin 2 → Nat :=
  let c0_i32_50 : BitVec 32 := 0#32
  ![v113.toNat, 0]

def k4_chk11 (v113 : BitVec 32) : Prop :=
  (∀ a, (k4_off22 v113) a + S1x128.size a ≤ S50000x128.size a)
instance k4_chk11.dec : ∀ (v113 : BitVec 32), Decidable (k4_chk11 v113) := fun v113 => decidable_of_iff' _ (Iff.of_eq (k4_chk11.eq_1 v113))
theorem k4_off22_inb : ∀ (v113 : BitVec 32) (k4_hw11 : k4_chk11 v113), ∀ a, (k4_off22 v113) a + S1x128.size a ≤ S50000x128.size a := fun v113 k4_hw11 => k4_hw11

def k4_off23 (i : grid4.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v122 : BitVec 32 := Scalar.addi v0 c11_i32
  let v123 : Index := Scalar.indexCast v122
  ![v123.toNat]
def k4_off24 (v124 : BitVec 32) : Fin 2 → Nat :=
  let c0_i32_55 : BitVec 32 := 0#32
  ![v124.toNat, 0]

def k4_chk12 (v124 : BitVec 32) : Prop :=
  (∀ a, (k4_off24 v124) a + S1x128.size a ≤ S50000x128.size a)
instance k4_chk12.dec : ∀ (v124 : BitVec 32), Decidable (k4_chk12 v124) := fun v124 => decidable_of_iff' _ (Iff.of_eq (k4_chk12.eq_1 v124))
theorem k4_off24_inb : ∀ (v124 : BitVec 32) (k4_hw12 : k4_chk12 v124), ∀ a, (k4_off24 v124) a + S1x128.size a ≤ S50000x128.size a := fun v124 k4_hw12 => k4_hw12

def k4_off25 (i : grid4.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v133 : BitVec 32 := Scalar.addi v0 c12_i32
  let v134 : Index := Scalar.indexCast v133
  ![v134.toNat]
def k4_off26 (v135 : BitVec 32) : Fin 2 → Nat :=
  let c0_i32_60 : BitVec 32 := 0#32
  ![v135.toNat, 0]

def k4_chk13 (v135 : BitVec 32) : Prop :=
  (∀ a, (k4_off26 v135) a + S1x128.size a ≤ S50000x128.size a)
instance k4_chk13.dec : ∀ (v135 : BitVec 32), Decidable (k4_chk13 v135) := fun v135 => decidable_of_iff' _ (Iff.of_eq (k4_chk13.eq_1 v135))
theorem k4_off26_inb : ∀ (v135 : BitVec 32) (k4_hw13 : k4_chk13 v135), ∀ a, (k4_off26 v135) a + S1x128.size a ≤ S50000x128.size a := fun v135 k4_hw13 => k4_hw13

def k4_off27 (i : grid4.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v144 : BitVec 32 := Scalar.addi v0 c13_i32
  let v145 : Index := Scalar.indexCast v144
  ![v145.toNat]
def k4_off28 (v146 : BitVec 32) : Fin 2 → Nat :=
  let c0_i32_65 : BitVec 32 := 0#32
  ![v146.toNat, 0]

def k4_chk14 (v146 : BitVec 32) : Prop :=
  (∀ a, (k4_off28 v146) a + S1x128.size a ≤ S50000x128.size a)
instance k4_chk14.dec : ∀ (v146 : BitVec 32), Decidable (k4_chk14 v146) := fun v146 => decidable_of_iff' _ (Iff.of_eq (k4_chk14.eq_1 v146))
theorem k4_off28_inb : ∀ (v146 : BitVec 32) (k4_hw14 : k4_chk14 v146), ∀ a, (k4_off28 v146) a + S1x128.size a ≤ S50000x128.size a := fun v146 k4_hw14 => k4_hw14

def k4_off29 (i : grid4.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v155 : BitVec 32 := Scalar.addi v0 c14_i32
  let v156 : Index := Scalar.indexCast v155
  ![v156.toNat]
def k4_off30 (v157 : BitVec 32) : Fin 2 → Nat :=
  let c0_i32_70 : BitVec 32 := 0#32
  ![v157.toNat, 0]

def k4_chk15 (v157 : BitVec 32) : Prop :=
  (∀ a, (k4_off30 v157) a + S1x128.size a ≤ S50000x128.size a)
instance k4_chk15.dec : ∀ (v157 : BitVec 32), Decidable (k4_chk15 v157) := fun v157 => decidable_of_iff' _ (Iff.of_eq (k4_chk15.eq_1 v157))
theorem k4_off30_inb : ∀ (v157 : BitVec 32) (k4_hw15 : k4_chk15 v157), ∀ a, (k4_off30 v157) a + S1x128.size a ≤ S50000x128.size a := fun v157 k4_hw15 => k4_hw15

def k4_off31 (i : grid4.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v166 : BitVec 32 := Scalar.addi v0 c15_i32
  let v167 : Index := Scalar.indexCast v166
  ![v167.toNat]
def k4_off32 (v168 : BitVec 32) : Fin 2 → Nat :=
  let c0_i32_75 : BitVec 32 := 0#32
  ![v168.toNat, 0]

def k4_chk16 (v168 : BitVec 32) : Prop :=
  (∀ a, (k4_off32 v168) a + S1x128.size a ≤ S50000x128.size a)
instance k4_chk16.dec : ∀ (v168 : BitVec 32), Decidable (k4_chk16 v168) := fun v168 => decidable_of_iff' _ (Iff.of_eq (k4_chk16.eq_1 v168))
theorem k4_off32_inb : ∀ (v168 : BitVec 32) (k4_hw16 : k4_chk16 v168), ∀ a, (k4_off32 v168) a + S1x128.size a ≤ S50000x128.size a := fun v168 k4_hw16 => k4_hw16

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S16x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

class Facts₀ : Prop where
  shapeCasts_S64_S1x64 : S64.ShapeCasts S1x64
  inb_S5000x10_S5000x10_0_0 : ∀ a, (![0, 0] : Fin 2 → Nat) a + S5000x10.size a ≤ S5000x10.size a
  h_S5000x10 : 0 < S5000x10.numel
  bitsLt_bf16_f32 : FTy.bits .bf16 < FTy.bits .f32
  inb_S10x64_S10x64_0_0 : ∀ a, (![0, 0] : Fin 2 → Nat) a + S10x64.size a ≤ S10x64.size a
  h_S10x64 : 0 < S10x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S_S64 : S_.BroadcastsInDim S64 (![] : Fin 0 → Fin S64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  numel1_S1 : S1.numel = 1
  squeezes_S1x128_S128 : S1x128.Squeezes S128
  inb_S128_S128_0 : ∀ a, (![0] : Fin 1 → Nat) a + S128.size a ≤ S128.size a
  h_S128 : 0 < S128.numel
  inb_S16x1x128_S1x1x128_0_0_0 : ∀ a, (![0, 0, 0] : Fin 3 → Nat) a + S1x1x128.size a ≤ S16x1x128.size a
  h_S1x1x128 : 0 < S1x1x128.numel
  shapeCasts_S1x1x128_S128 : S1x1x128.ShapeCasts S128
  shapeCasts_S128_S1x1x128 : S128.ShapeCasts S1x1x128
  inb_S16x1x128_S1x1x128_1_0_0 : ∀ a, (![1, 0, 0] : Fin 3 → Nat) a + S1x1x128.size a ≤ S16x1x128.size a
  inb_S16x1x128_S1x1x128_2_0_0 : ∀ a, (![2, 0, 0] : Fin 3 → Nat) a + S1x1x128.size a ≤ S16x1x128.size a
  inb_S16x1x128_S1x1x128_3_0_0 : ∀ a, (![3, 0, 0] : Fin 3 → Nat) a + S1x1x128.size a ≤ S16x1x128.size a
  inb_S16x1x128_S1x1x128_4_0_0 : ∀ a, (![4, 0, 0] : Fin 3 → Nat) a + S1x1x128.size a ≤ S16x1x128.size a
  inb_S16x1x128_S1x1x128_5_0_0 : ∀ a, (![5, 0, 0] : Fin 3 → Nat) a + S1x1x128.size a ≤ S16x1x128.size a
  inb_S16x1x128_S1x1x128_6_0_0 : ∀ a, (![6, 0, 0] : Fin 3 → Nat) a + S1x1x128.size a ≤ S16x1x128.size a
  inb_S16x1x128_S1x1x128_7_0_0 : ∀ a, (![7, 0, 0] : Fin 3 → Nat) a + S1x1x128.size a ≤ S16x1x128.size a
  inb_S16x1x128_S1x1x128_8_0_0 : ∀ a, (![8, 0, 0] : Fin 3 → Nat) a + S1x1x128.size a ≤ S16x1x128.size a
  inb_S16x1x128_S1x1x128_9_0_0 : ∀ a, (![9, 0, 0] : Fin 3 → Nat) a + S1x1x128.size a ≤ S16x1x128.size a
  inb_S16x1x128_S1x1x128_10_0_0 : ∀ a, (![10, 0, 0] : Fin 3 → Nat) a + S1x1x128.size a ≤ S16x1x128.size a
  inb_S16x1x128_S1x1x128_11_0_0 : ∀ a, (![11, 0, 0] : Fin 3 → Nat) a + S1x1x128.size a ≤ S16x1x128.size a
  inb_S16x1x128_S1x1x128_12_0_0 : ∀ a, (![12, 0, 0] : Fin 3 → Nat) a + S1x1x128.size a ≤ S16x1x128.size a
  inb_S16x1x128_S1x1x128_13_0_0 : ∀ a, (![13, 0, 0] : Fin 3 → Nat) a + S1x1x128.size a ≤ S16x1x128.size a
  inb_S16x1x128_S1x1x128_14_0_0 : ∀ a, (![14, 0, 0] : Fin 3 → Nat) a + S1x1x128.size a ≤ S16x1x128.size a
  inb_S16x1x128_S1x1x128_15_0_0 : ∀ a, (![15, 0, 0] : Fin 3 → Nat) a + S1x1x128.size a ≤ S16x1x128.size a
  shapeCasts_S4096x1x128_S4096x128 : S4096x1x128.ShapeCasts S4096x128
  dot_S5000x10_S10x64_S5000x64_1_0_0_1_n_n_wf : DotDims.WF S5000x10 S10x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  hcc4_scratch1 : 26 + S_.numel ≤ 27
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S50000x10.size a
  hwx0_0 : ∀ i : grid0.Coords, EltTy.bits .f32 = 32 ∨ (Rect.block (s := S50000x10) S5000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x64.size a ≤ S10x64.size a
  hwx0_1 : ∀ i : grid0.Coords, EltTy.bits .f32 = 32 ∨ (Rect.block (s := S10x64) S10x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  k4_off1_inb : ∀ i : grid4.Coords, ∀ a, (k4_off1 i) a + S1.size a ≤ S4096.size a
  k4_off3_inb : ∀ i : grid4.Coords, ∀ a, (k4_off3 i) a + S1.size a ≤ S4096.size a
  k4_off5_inb : ∀ i : grid4.Coords, ∀ a, (k4_off5 i) a + S1.size a ≤ S4096.size a
  k4_off7_inb : ∀ i : grid4.Coords, ∀ a, (k4_off7 i) a + S1.size a ≤ S4096.size a
  k4_off9_inb : ∀ i : grid4.Coords, ∀ a, (k4_off9 i) a + S1.size a ≤ S4096.size a
  k4_off11_inb : ∀ i : grid4.Coords, ∀ a, (k4_off11 i) a + S1.size a ≤ S4096.size a
  k4_off13_inb : ∀ i : grid4.Coords, ∀ a, (k4_off13 i) a + S1.size a ≤ S4096.size a
  k4_off15_inb : ∀ i : grid4.Coords, ∀ a, (k4_off15 i) a + S1.size a ≤ S4096.size a
  k4_off17_inb : ∀ i : grid4.Coords, ∀ a, (k4_off17 i) a + S1.size a ≤ S4096.size a
  k4_off19_inb : ∀ i : grid4.Coords, ∀ a, (k4_off19 i) a + S1.size a ≤ S4096.size a
  k4_off21_inb : ∀ i : grid4.Coords, ∀ a, (k4_off21 i) a + S1.size a ≤ S4096.size a
  k4_off23_inb : ∀ i : grid4.Coords, ∀ a, (k4_off23 i) a + S1.size a ≤ S4096.size a
  k4_off25_inb : ∀ i : grid4.Coords, ∀ a, (k4_off25 i) a + S1.size a ≤ S4096.size a
  k4_off27_inb : ∀ i : grid4.Coords, ∀ a, (k4_off27 i) a + S1.size a ≤ S4096.size a
  k4_off29_inb : ∀ i : grid4.Coords, ∀ a, (k4_off29 i) a + S1.size a ≤ S4096.size a
  k4_off31_inb : ∀ i : grid4.Coords, ∀ a, (k4_off31 i) a + S1.size a ≤ S4096.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S16x1x128.size a ≤ S4096x1x128.size a
  hwx4_0 : ∀ i : grid4.Coords, EltTy.bits .f32 = 32 ∨ (Rect.block (s := S4096x1x128) S16x1x128.size (cc4_transform_1 i) (hinb4_0 i)).WholeWords (EltTy.packing .f32)

variable [Facts₀]

abbrev cc4_scratch1 : DmaSems sig S_ := SemArray.consecutive 26 S_ hcc4_scratch1
def dot_S5000x10_S10x64_S5000x64_1_0_0_1_n_n : DotDims S5000x10 S10x64 S5000x64 where
  lhsContracting := [1]
  rhsContracting := [0]
  lhsNonContracting := [0]
  rhsNonContracting := [1]
  lhsBatch := []
  rhsBatch := []
  wf := dot_S5000x10_S10x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S10x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev spec4_0 : Pipeline.WinSpec sig grid4.rank :=
  Pipeline.WinSpec.ofSpec (Memref.whole main_v79) S16x1x128.size reads4_0 true false 2 stage4_0 sem4_0 nbuf4_0 hstage4_0

abbrev spec4 : Fin 1 → Pipeline.WinSpec sig grid4.rank := fun | 0 => spec4_0 | ⟨_ + 1, h⟩ => absurd h (Nat.not_lt.2 (Nat.le_add_left _ _))
theorem hcount4 : ∀ w, grid4.bufCount (spec4 w).reads (spec4 w).sync = (spec4 w).nbuf := fun | 0 => nbuf4_0 | ⟨_ + 1, h⟩ => absurd h (Nat.not_lt.2 (Nat.le_add_left _ _))
abbrev ix4 (pf : pre4.Contents (Elt F)) : (w : Fin 1) → grid4.Coords → Fin (spec4 w).shape.rank → Nat := fun | 0 => cc4_transform_1 | ⟨_ + 1, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | ⟨_ + 1, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | ⟨_ + 1, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | ⟨_ + 1, h⟩ => absurd h (Nat.not_lt.2 (Nat.le_add_left _ _))

class Facts : Prop extends Facts₀ where
  harr4 : ∀ w, (spec4 w).arr.IsWhole

variable [Facts]
-- ==== ReferenceIdeal.lean ====
abbrev S50000x10 : Shape := ⟨2, ![50000, 10]⟩
abbrev S2x800000 : Shape := ⟨2, ![2, 800000]⟩
abbrev S800000 : Shape := ⟨1, ![800000]⟩
abbrev S4096 : Shape := ⟨1, ![4096]⟩
abbrev S10x64 : Shape := ⟨2, ![10, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S50000x64 : Shape := ⟨2, ![50000, 64]⟩
abbrev S1x64 : Shape := ⟨2, ![1, 64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x128 : Shape := ⟨2, ![50000, 128]⟩
abbrev S1x128 : Shape := ⟨2, ![1, 128]⟩
abbrev S4096x1 : Shape := ⟨2, ![4096, 1]⟩
abbrev S4096x128 : Shape := ⟨2, ![4096, 128]⟩

abbrev nBuf : Space → Nat
  | .hbm => 173
  | .vmem => 0
  | .smem => 0
  | _ => 0

abbrev hbmTy0_0 (i : Nat) : BufTy := match i % 128 with
  | 0 => ⟨S50000x10, .f32⟩
  | 1 => ⟨S2x800000, .i32⟩
  | 2 => ⟨S800000, .f32⟩
  | 3 => ⟨S4096, .i32⟩
  | 4 => ⟨S10x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x128, .f32⟩
  | 11 => ⟨S128, .f32⟩
  | 12 => ⟨S50000x64, .f32⟩
  | 13 => ⟨S1x64, .f32⟩
  | 14 => ⟨S50000x64, .f32⟩
  | 15 => ⟨S50000x64, .f32⟩
  | 16 => ⟨S1x800000, .i32⟩
  | 17 => ⟨S800000, .i32⟩
  | 18 => ⟨S1x800000, .i32⟩
  | 19 => ⟨S800000, .i32⟩
  | 20 => ⟨S50000, .i32⟩
  | 21 => ⟨S850000, .i32⟩
  | 22 => ⟨S850000, .i32⟩
  | 23 => ⟨S_, .f32⟩
  | 24 => ⟨S50000, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .i1⟩
  | 36 => ⟨S_, .f32⟩
  | 37 => ⟨S_, .f32⟩
  | 38 => ⟨S50000, .f32⟩
  | 39 => ⟨S50000, .f32⟩
  | 40 => ⟨S50000, .f32⟩
  | 41 => ⟨S_, .f32⟩
  | 42 => ⟨S_, .f32⟩
  | 43 => ⟨S50000, .f32⟩
  | 44 => ⟨S50000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S850000, .f32⟩
  | 65 => ⟨S50000x64, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x64, .f32⟩
  | 75 => ⟨S850000x1, .f32⟩
  | 76 => ⟨S850000x64, .f32⟩
  | 77 => ⟨S850000x64, .f32⟩
  | 78 => ⟨S_, .f32⟩
  | 79 => ⟨S50000x64, .f32⟩
  | 80 => ⟨S850000x1, .i32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S1x800000, .i32⟩
  | 89 => ⟨S800000, .i32⟩
  | 90 => ⟨S1x800000, .i32⟩
  | 91 => ⟨S800000, .i32⟩
  | 92 => ⟨S50000, .i32⟩
  | 93 => ⟨S850000, .i32⟩
  | 94 => ⟨S850000, .i32⟩
  | 95 => ⟨S_, .f32⟩
  | 96 => ⟨S50000, .f32⟩
  | 97 => ⟨S850000, .f32⟩
  | 98 => ⟨S_, .f32⟩
  | 99 => ⟨S50000, .f32⟩
  | 100 => ⟨S850000x1, .i32⟩
  | 101 => ⟨S50000, .f32⟩
  | 102 => ⟨S_, .f32⟩
  | 103 => ⟨S50000, .f32⟩
  | 104 => ⟨S50000, .i1⟩
  | 105 => ⟨S_, .f32⟩
  | 106 => ⟨S50000, .f32⟩
  | 107 => ⟨S50000, .i1⟩
  | 108 => ⟨S_, .f32⟩
  | 109 => ⟨S_, .f32⟩
  | 110 => ⟨S50000, .f32⟩
  | 111 => ⟨S50000, .f32⟩
  | 112 => ⟨S50000, .f32⟩
  | 113 => ⟨S_, .f32⟩
  | 114 => ⟨S_, .f32⟩
  | 115 => ⟨S50000, .f32⟩
  | 116 => ⟨S50000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S850000, .f32⟩
  | 127 => ⟨S_, .i32⟩
  | _ => ⟨S50000x10, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S850000, .f32⟩
  | 9 => ⟨S50000x64, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x64, .f32⟩
  | 19 => ⟨S850000x1, .f32⟩
  | 20 => ⟨S850000x64, .f32⟩
  | 21 => ⟨S850000x64, .f32⟩
  | 22 => ⟨S_, .f32⟩
  | 23 => ⟨S50000x64, .f32⟩
  | 24 => ⟨S850000x1, .i32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x128, .f32⟩
  | 33 => ⟨S1x128, .f32⟩
  | 34 => ⟨S50000x128, .f32⟩
  | 35 => ⟨S50000x128, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096x128, .f32⟩
  | _ => ⟨S50000x10, .f32⟩

abbrev hbmTy (i : Nat) : BufTy := match i / 128 with
  | 0 => hbmTy0_0 i
  | 1 => hbmTy0_1 i
  | _ => ⟨S50000x10, .f32⟩

abbrev bufTy : (tb : Table) → Fin (tcTables nBuf tb) → BufTy
  | .hbm, ⟨i, _⟩ => hbmTy i
  | _, _ => ⟨S50000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call2_cst : Ref sig .tc := ⟨.hbm, 85, rfl⟩
abbrev main_call2_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_call3_v0 : Ref sig .tc := ⟨.hbm, 109, rfl⟩
abbrev main_call3_v1 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_call4_v0 : Ref sig .tc := ⟨.hbm, 114, rfl⟩
abbrev main_call4_v1 : Ref sig .tc := ⟨.hbm, 115, rfl⟩
abbrev main_v75 : Ref sig .tc := ⟨.hbm, 116, rfl⟩
abbrev main_c_17 : Ref sig .tc := ⟨.hbm, 117, rfl⟩
abbrev main_v76 : Ref sig .tc := ⟨.hbm, 118, rfl⟩
abbrev main_v77 : Ref sig .tc := ⟨.hbm, 119, rfl⟩
abbrev main_c_18 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_19 : Ref sig .tc := ⟨.hbm, 127, rfl⟩
abbrev main_v84 : Ref sig .tc := ⟨.hbm, 128, rfl⟩
abbrev main_v85 : Ref sig .tc := ⟨.hbm, 129, rfl⟩
abbrev main_c_20 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_c_21 : Ref sig .tc := ⟨.hbm, 138, rfl⟩
abbrev main_v93 : Ref sig .tc := ⟨.hbm, 139, rfl⟩
abbrev main_v94 : Ref sig .tc := ⟨.hbm, 140, rfl⟩
abbrev main_c_22 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_23 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_call5_cst : Ref sig .tc := ⟨.hbm, 157, rfl⟩
abbrev main_call5_v0 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_c_24 : Ref sig .tc := ⟨.hbm, 164, rfl⟩
abbrev main_v114 : Ref sig .tc := ⟨.hbm, 165, rfl⟩
abbrev main_v115 : Ref sig .tc := ⟨.hbm, 166, rfl⟩
abbrev main_c_25 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S4096 : S_.BroadcastsInDim S4096 (![] : Fin 0 → Fin S4096.rank)
  bcast_S4096_S4096x1_0 : S4096.BroadcastsInDim S4096x1 (![0] : Fin 1 → Fin S4096x1.rank)
  dot_S50000x10_S10x64_S50000x64_1_0_0_1_n_n_wf : DotDims.WF S50000x10 S10x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S4096x1_S4096x128_1_0_n_n_0_1_1128_wf : GatherDims.WF S50000x128 S4096x1 S4096x128 [1] [0] [] [0] [] 1 ![1, 128]

variable [Facts₀]

def dot_S50000x10_S10x64_S50000x64_1_0_0_1_n_n : DotDims S50000x10 S10x64 S50000x64 where
  lhsContracting := [1]
  rhsContracting := [0]
  lhsNonContracting := [0]
  rhsNonContracting := [1]
  lhsBatch := []
  rhsBatch := []
  wf := dot_S50000x10_S10x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf

class Facts : Prop extends Facts₀ where

variable [Facts]
-- ==== Proof.K.Dense0.lean ====
/- Region 0 of the program's @main — the dense kernel `cc0__dense_kernel` (the x block S5000x10 and the whole
   weights S10x64, both rounded to bf16, multiplied into zero; the bias row S1x64 broadcast over the rows and
   added; the S5000x64 block stored) — at a PARAMETER `V`, the core's buffer contents when the region is entered:
   each window's block at a point, what the body leaves in the output window's buffer, the body's triple, the
   pipeline's proof data over the invariant `ΦA` at the user algebra `UD`, and its body obligation. -/
import proofs.«418828_j78855599555023_1_alg».proof.Proof.Gen.Kernel.Launch
import proofs.«418828_j78855599555023_1_alg».proof.Proof.Gen.Kernel.Skeleton
import proofs.«418828_j78855599555023_1_alg».proof.Proof.Gen.Kernel.Points
import Idealize.ShloMosaic.Lib.Pipeline.FrameBody
import Idealize.ShloMosaic.Lib.Tactic

-- membership in a rectangle of extents in the thousands: the structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current staging buffer holds its block at every point (it is fetched at every point; the
    window is uncut and never idle), for any proof data whose array is `V`'s and whose body leaves the block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds the whole weight array at every point: fetched at the first point, and at a later
    point its block index has not moved, so the buffer still holds the same block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window holds the whole bias row at every point, by the same argument. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S5000x10 := Rect.unit (s := S5000x10) ![0, 0] S5000x10.size inb_S5000x10_S5000x10_0_0
abbrev r0_w : Rect S10x64 := Rect.unit (s := S10x64) ![0, 0] S10x64.size inb_S10x64_S10x64_0_0
abbrev r0_b : Rect S1x64 := Rect.unit (s := S1x64) ![0, 0] S1x64.size inb_S1x64_S1x64_0_0
abbrev r0_out : Rect S5000x64 := Rect.unit (s := S5000x64) ![0, 0] S5000x64.size inb_S5000x64_S5000x64_0_0

/-! ## What the body leaves in the output window's buffer -/

/-- The output window's staging buffer after the body, from the input windows' blocks: its one store, of
    `bf16(x) · bf16(W) + 0` plus the bias row broadcast down the rows, over the whole buffer. -/
def out0_3 (x0 : Vec F S5000x10 .f32) (x1 : Vec F S10x64 .f32) (x2 : Vec F S1x64 .f32) : Vec F S5000x64 .f32 :=
  View.canon [⟨r0_out, k0_pay1 (View.ld x0 r0_x) (View.ld x1 r0_w) (View.ld x2 r0_b)⟩]

/-- The one store is the whole buffer, so it covers it (checked by evaluation). -/
theorem cover0_3 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

/-! ## The body's triple -/

set_option maxHeartbeats 1000000 in
/-- The kernel body on whole staging memrefs, the three inputs' at read contents `x0 x1 x2` and the output's at
    anything, runs to the continuation holding the inputs' as they were and the output's at `out0_3` of them: three
    loads of whole buffers, a load of the output buffer whose value is unused, and the store. -/
theorem sound_kernel0 (c : Dev nD) (E : Set ℕ) (i : grid0.Coords)
    (arg1 : Memref sig .tc .vmem S5000x10 .f32) (harg1 : arg1.IsWhole) (arg2 : Memref sig .tc .vmem S10x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x10 .f32) (x1 : Vec F S10x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region's pipeline on core `c`: the arrays as the region finds them (`V`); after the body
    at point `t` each input's buffer at its block and the output's at `out0_3` of the input blocks; the invariant
    `ΦA` (the scoped rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Dense1.lean ====
/- Region 1 of the program's @main — the dense kernel `cc1__dense_kernel` (the x block S5000x64 and the whole
   weights S64x64, both rounded to bf16, multiplied into zero; the bias row S1x64 broadcast over the rows and
   added; the S5000x64 block stored) — at a PARAMETER `V`, the core's buffer contents when the region is entered:
   each window's block at a point, what the body leaves in the output window's buffer, the body's triple, the
   pipeline's proof data over the invariant `ΦA` at the user algebra `UD`, and its body obligation. -/
import proofs.«418828_j78855599555023_1_alg».proof.Proof.Gen.Kernel.Launch
import proofs.«418828_j78855599555023_1_alg».proof.Proof.Gen.Kernel.Skeleton
import proofs.«418828_j78855599555023_1_alg».proof.Proof.Gen.Kernel.Points
import Idealize.ShloMosaic.Lib.Pipeline.FrameBody
import Idealize.ShloMosaic.Lib.Tactic

-- membership in a rectangle of extents in the thousands: the structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's current staging buffer holds its block at every point (it is fetched at every point; the
    window is uncut and never idle), for any proof data whose array is `V`'s and whose body leaves the block. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window holds the whole weight array at every point: fetched at the first point, and at a later
    point its block index has not moved, so the buffer still holds the same block. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window holds the whole bias row at every point, by the same argument. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_x : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_out : Rect S5000x64 := Rect.unit (s := S5000x64) ![0, 0] S5000x64.size inb_S5000x64_S5000x64_0_0

/-! ## What the body leaves in the output window's buffer -/

/-- The output window's staging buffer after the body, from the input windows' blocks: its one store, of
    `bf16(x) · bf16(W) + 0` plus the bias row broadcast down the rows, over the whole buffer. -/
def out1_3 (x0 : Vec F S5000x64 .f32) (x1 : Vec F S64x64 .f32) (x2 : Vec F S1x64 .f32) : Vec F S5000x64 .f32 :=
  View.canon [⟨r1_out, k1_pay1 (View.ld x0 r1_x) (View.ld x1 r1_w) (View.ld x2 r1_b)⟩]

/-- The one store is the whole buffer, so it covers it (checked by evaluation). -/
theorem cover1_3 (p0 : Vec F S5000x64 .f32) (y : S5000x64.Idx) :
    ∃ pc ∈ ([⟨r1_out, p0⟩] : List (View.Piece (Elt F) S5000x64 .f32)), y ∈ pc.1.set :=
  View.cover_of_tiled [⟨r1_out, p0⟩] S5000x64.size (by rfl) y

/-! ## The body's triple -/

set_option maxHeartbeats 1000000 in
/-- The kernel body on whole staging memrefs, the three inputs' at read contents `x0 x1 x2` and the output's at
    anything, runs to the continuation holding the inputs' as they were and the output's at `out1_3` of them: three
    loads of whole buffers, a load of the output buffer whose value is unused, and the store. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region's pipeline on core `c`: the arrays as the region finds them (`V`); after the body
    at point `t` each input's buffer at its block and the output's at `out1_3` of the input blocks; the invariant
    `ΦA` (the scoped rest and the generator register, untouched); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Dense2.lean ====
/- Region 2 of the program's @main — the dense kernel `cc2__dense_kernel` (the x block S5000x64 and the whole
   weights S64x64, both rounded to bf16, multiplied into zero; the bias row S1x64 broadcast over the rows and
   added; the S5000x64 block stored) — at a PARAMETER `V`, the core's buffer contents when the region is entered:
   each window's block at a point, what the body leaves in the output window's buffer, the body's triple, the
   pipeline's proof data over the invariant `ΦA` at the user algebra `UD`, and its body obligation. -/
import proofs.«418828_j78855599555023_1_alg».proof.Proof.Gen.Kernel.Launch
import proofs.«418828_j78855599555023_1_alg».proof.Proof.Gen.Kernel.Skeleton
import proofs.«418828_j78855599555023_1_alg».proof.Proof.Gen.Kernel.Points
import Idealize.ShloMosaic.Lib.Pipeline.FrameBody
import Idealize.ShloMosaic.Lib.Tactic

-- membership in a rectangle of extents in the thousands: the structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region2
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x window's current staging buffer holds its block at every point (it is fetched at every point; the
    window is uncut and never idle), for any proof data whose array is `V`'s and whose body leaves the block. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' window holds the whole weight array at every point: fetched at the first point, and at a later
    point its block index has not moved, so the buffer still holds the same block. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window holds the whole bias row at every point, by the same argument. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_x : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_out : Rect S5000x64 := Rect.unit (s := S5000x64) ![0, 0] S5000x64.size inb_S5000x64_S5000x64_0_0

/-! ## What the body leaves in the output window's buffer -/

/-- The output window's staging buffer after the body, from the input windows' blocks: its one store, of
    `bf16(x) · bf16(W) + 0` plus the bias row broadcast down the rows, over the whole buffer. -/
def out2_3 (x0 : Vec F S5000x64 .f32) (x1 : Vec F S64x64 .f32) (x2 : Vec F S1x64 .f32) : Vec F S5000x64 .f32 :=
  View.canon [⟨r2_out, k2_pay1 (View.ld x0 r2_x) (View.ld x1 r2_w) (View.ld x2 r2_b)⟩]

/-- The one store is the whole buffer, so it covers it (checked by evaluation). -/
theorem cover2_3 (p0 : Vec F S5000x64 .f32) (y : S5000x64.Idx) :
    ∃ pc ∈ ([⟨r2_out, p0⟩] : List (View.Piece (Elt F) S5000x64 .f32)), y ∈ pc.1.set :=
  View.cover_of_tiled [⟨r2_out, p0⟩] S5000x64.size (by rfl) y

/-! ## The body's triple -/

set_option maxHeartbeats 1000000 in
/-- The kernel body on whole staging memrefs, the three inputs' at read contents `x0 x1 x2` and the output's at
    anything, runs to the continuation holding the inputs' as they were and the output's at `out2_3` of them: three
    loads of whole buffers, a load of the output buffer whose value is unused, and the store. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this region's pipeline on core `c`: the arrays as the region finds them (`V`); after the body
    at point `t` each input's buffer at its block and the output's at `out2_3` of the input blocks; the invariant
    `ΦA` (the scoped rest and the generator register, untouched); nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Dense3.lean ====
/- Region 3 of the program's @main — the dense kernel `cc3__dense_kernel` (the x block S5000x64 and the whole
   weights S64x128, both rounded to bf16, multiplied into zero; the bias row S1x128 broadcast over the rows and
   added; the S5000x128 block stored) — at a PARAMETER `V`, the core's buffer contents when the region is entered:
   each window's block at a point, what the body leaves in the output window's buffer, the body's triple, the
   pipeline's proof data over the invariant `ΦA` at the user algebra `UD`, and its body obligation. -/
import proofs.«418828_j78855599555023_1_alg».proof.Proof.Gen.Kernel.Launch
import proofs.«418828_j78855599555023_1_alg».proof.Proof.Gen.Kernel.Skeleton
import proofs.«418828_j78855599555023_1_alg».proof.Proof.Gen.Kernel.Points
import Idealize.ShloMosaic.Lib.Pipeline.FrameBody
import Idealize.ShloMosaic.Lib.Tactic

-- membership in a rectangle of extents in the thousands: the structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region3
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The x window's current staging buffer holds its block at every point (it is fetched at every point; the
    window is uncut and never idle), for any proof data whose array is `V`'s and whose body leaves the block. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' window holds the whole weight array at every point: fetched at the first point, and at a later
    point its block index has not moved, so the buffer still holds the same block. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias window holds the whole bias row at every point, by the same argument. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_x : Rect S5000x64 := Rect.unit (s := S5000x64) ![0, 0] S5000x64.size inb_S5000x64_S5000x64_0_0
abbrev r3_w : Rect S64x128 := Rect.unit (s := S64x128) ![0, 0] S64x128.size inb_S64x128_S64x128_0_0
abbrev r3_b : Rect S1x128 := Rect.unit (s := S1x128) ![0, 0] S1x128.size inb_S1x128_S1x128_0_0
abbrev r3_out : Rect S5000x128 := Rect.unit (s := S5000x128) ![0, 0] S5000x128.size inb_S5000x128_S5000x128_0_0

/-! ## What the body leaves in the output window's buffer -/

/-- The output window's staging buffer after the body, from the input windows' blocks: its one store, of
    `bf16(x) · bf16(W) + 0` plus the bias row broadcast down the rows, over the whole buffer. -/
def out3_3 (x0 : Vec F S5000x64 .f32) (x1 : Vec F S64x128 .f32) (x2 : Vec F S1x128 .f32) : Vec F S5000x128 .f32 :=
  View.canon [⟨r3_out, k3_pay1 (View.ld x0 r3_x) (View.ld x1 r3_w) (View.ld x2 r3_b)⟩]

/-- The one store is the whole buffer, so it covers it (checked by evaluation). -/
theorem cover3_3 (p0 : Vec F S5000x128 .f32) (y : S5000x128.Idx) :
    ∃ pc ∈ ([⟨r3_out, p0⟩] : List (View.Piece (Elt F) S5000x128 .f32)), y ∈ pc.1.set :=
  View.cover_of_tiled [⟨r3_out, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out3_3` of them: three
    loads of whole buffers, a load of the output buffer whose value is unused, and the store. -/
theorem sound_kernel3 (c : Dev nD) (E : Set ℕ) (i : grid3.Coords)
    (arg1 : Memref sig .tc .vmem S5000x64 .f32) (harg1 : arg1.IsWhole) (arg2 : Memref sig .tc .vmem S64x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this region's pipeline on core `c`: the arrays as the region finds them (`V`); after the body
    at point `t` each input's buffer at its block and the output's at `out3_3` of the input blocks; the invariant
    `ΦA` (the scoped rest and the generator register, untouched); nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Gather4.lean ====
import proofs.«418828_j78855599555023_1_alg».proof.Proof.Gen.Kernel.Launch
import proofs.«418828_j78855599555023_1_alg».proof.Proof.Gen.Kernel.Skeleton
import proofs.«418828_j78855599555023_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region4
variable (V : (c : Dev nD) → (b : Ref sig .tc) → Buf (Elt F) ((c : Thread nD τ).loc b))
variable (tb : pre4.Contents (Elt F))

/-- Every word of the index table is a row number of the 50000-row array. -/
def TblInRange (tb : pre4.Contents (Elt F)) : Prop :=
  ∀ j : S4096.Idx, (tb 0 j : BitVec 32).toNat < 50000

/-- The table's contents as admissible contents of the pipeline (its side condition is trivial: the index map reads no word). -/
abbrev adm4 (tb : pre4.Contents (Elt F)) : (pcfg4 (F := F)).Adm := ⟨tb, trivial⟩

/-- The output window's current staging memref at point `t`, and its wholeness. -/
abbrev ms4_0 (t : Fin (cfg4 (adm4 tb)).N) : Memref sig .tc .vmem S16x1x128 .f32 := spec4_0.stage ((cfg4 (adm4 tb)).slots t 0)
abbrev hs4_0 (t : Fin (cfg4 (adm4 tb)).N) : (ms4_0 tb t).IsWhole := hstage4_0 (((cfg4 (adm4 tb)).slots t 0).cast nbuf4_0)

/-- The table, the array left in HBM and the scratch row as the body is handed them: whole buffers. -/
abbrev tbM4_0 : Memref sig .tc .smem S4096 .i32 := Memref.whole main_arg3
abbrev htbM4_0 : tbM4_0.IsWhole := Memref.isWhole_whole _
abbrev hbM4_0 : Memref sig .tc .hbm S50000x128 .f32 := Memref.whole main_v78
abbrev scM4_0 : Memref sig .tc .vmem S128 .f32 := Memref.whole cc4_scratch0

/-- The kernel body at point `t`, on what the pipeline calls it with. -/
abbrev bodyAt4 (t : Fin (cfg4 (adm4 tb)).N) : Prog (TpuEff nD τ sig (Elt F) Λ₀ .tc) PUnit :=
  cc4__gather_kernel (grid4.coords t) (Memref.whole main_arg3) (Memref.isWhole_whole _) (Memref.whole main_v78) (Memref.isWhole_whole _)
    (spec4_0.stage ((cfg4 (adm4 tb)).slots t 0)) (hstage4_0 (((cfg4 (adm4 tb)).slots t 0).cast nbuf4_0)) (Memref.whole cc4_scratch0) (Memref.isWhole_whole _) cc4_scratch1

/-- A memref's buffer on core `c`: its contents type, and it held whole at `f`. -/
abbrev HbBuf4 (c : Dev nD) {sp : Space} {S : Shape} {e : EltTy} (M : Memref sig .tc sp S e) : Type := Buf (Elt F) (M.view.loc (c : Thread nD τ))
abbrev hbPt4 (c : Dev nD) {sp : Space} {S : Shape} {e : EltTy} (M : Memref sig .tc sp S e) (f : HbBuf4 (F := F) c M) : sProp 𝕄 :=
  M.view.loc (c : Thread nD τ) ↦{fullShare} f

/-- The body's own DMA cell. -/
abbrev osem4 : Fin 1 → SemLoc sig := fun j => (![SemLoc.dma 26] : Fin 1 → SemLoc sig) j
theorem ownSemFacts4 : Pipeline.OwnSemFacts spec4 osem4 := by decide
theorem ownSems04_eq (c : Dev nD) :
    (Pipeline.ownSems0 (Ix := Unit) (Name := ℕ) (U := Pipeline.UD sig nD τ) (Lvl := ℕ) (Val := Elt F) (τ := τ) osem4 c : sProp 𝕄)
      = iprop(semVal ((c : Thread nD τ), SemLoc.dma 26) 0) := by
  rw [Pipeline.ownSems0_eq_of_list c osem4 [0] (by decide) (by decide)]; rfl

/-- The array the body copies rows of: unscoped, no window's array, no table. -/
def H4 : Finset (Ref sig .tc) := {main_v78}
theorem H4_sub : H4 ⊆ Pipeline.restRefsP sig pre4 spec4 := by decide
theorem hbmPts4_eq (c : Dev nD) :
    (bigSep H4 (fun b => ((c : Thread nD τ).loc b) ↦{fullShare} V c b) : sProp 𝕄) = iprop(hbPt4 c hbM4_0 (V c main_v78)) := by
  rw [BI.bigSep_eq_bigSepL_of_eq [main_v78] (by decide) (by decide)]; rfl

/-- The table held whole. -/
theorem prefHeld4_eq (c : Dev nD) :
    (Pipeline.prefHeld (Ix := Unit) (Name := ℕ) (U := Pipeline.UD sig nD τ) (Lvl := ℕ) pre4 c (fun _ => fullShare) tb : sProp 𝕄)
      = iprop(hbPt4 c tbM4_0 (tb 0)) := by
  unfold Pipeline.prefHeld
  rw [show (Finset.univ : Finset (Fin 1)) = {(0 : Fin 1)} from by decide, bigSep_singleton]
  rfl

/-- The region's invariant. -/
def Phi4 (c : Dev nD) : sProp 𝕄 :=
  iprop(Pipeline.ΦD osem4 spec4 H4 V c
    ∗ Pipeline.prefHeld (Ix := Unit) (Name := ℕ) (U := Pipeline.UD sig nD τ) (Lvl := ℕ) pre4 c (fun _ => fullShare) tb)

theorem Phi4_eq (c : Dev nD) :
    (Phi4 V tb c : sProp 𝕄)
      = iprop(iprop(iprop((∃ d, owns (c : Thread nD τ) scM4_0 fullShare d) ∗ Pipeline.scopedRestBut (Ix := Unit) (Name := ℕ) (U := Pipeline.UD sig nD τ) (Lvl := ℕ) (Val := Elt F) spec4 c [cc4_scratch0])
          ∗ (∃ r, prngReg c r) ∗ iprop(semVal ((c : Thread nD τ), SemLoc.dma 26) 0) ∗ iprop(hbPt4 c hbM4_0 (V c main_v78)))
        ∗ iprop(hbPt4 c tbM4_0 (tb 0))) := by
  unfold Phi4
  rw [Pipeline.ΦD_eq, scopedRest4_split, ownSems04_eq, hbmPts4_eq, prefHeld4_eq]; simp only [scM4_0, owns_whole]; try rfl

/-- The table's word at the offsets `off`: what a scalar load of the body reads. -/
abbrev wd4 (c : Dev nD) (xt : HbBuf4 (F := F) c tbM4_0) (off : Fin 1 → Nat) (h : ∀ a, off a + S1.size a ≤ S4096.size a) : Elt F .i32 :=
  tbM4_0.view.readAt (Elt F) (Rect.unit (s := S4096) off S1.size h).toLoadRect xt (Shape.Idx.first (numel1_S1.symm ▸ Nat.one_pos))

/-- A word below 50000 is the number of a row of the 50000x128 array: the row's rectangle is inside it. -/
theorem rowInb_of_lt {w : BitVec 32} (h : w.toNat < 50000) : ∀ a, (![w.toNat, 0] : Fin 2 → Nat) a + S1x128.size a ≤ S50000x128.size a := by
  intro a
  match a with
  | ⟨0, _⟩ => show w.toNat + 1 ≤ 50000; omega
  | ⟨1, _⟩ => show 0 + 128 ≤ 128; omega
theorem chk1_of_lt {w : BitVec 32} (h : w.toNat < 50000) : k4_chk1 w := rowInb_of_lt h
theorem chk2_of_lt {w : BitVec 32} (h : w.toNat < 50000) : k4_chk2 w := rowInb_of_lt h
theorem chk3_of_lt {w : BitVec 32} (h : w.toNat < 50000) : k4_chk3 w := rowInb_of_lt h
theorem chk4_of_lt {w : BitVec 32} (h : w.toNat < 50000) : k4_chk4 w := rowInb_of_lt h
theorem chk5_of_lt {w : BitVec 32} (h : w.toNat < 50000) : k4_chk5 w := rowInb_of_lt h
theorem chk6_of_lt {w : BitVec 32} (h : w.toNat < 50000) : k4_chk6 w := rowInb_of_lt h
theorem chk7_of_lt {w : BitVec 32} (h : w.toNat < 50000) : k4_chk7 w := rowInb_of_lt h
theorem chk8_of_lt {w : BitVec 32} (h : w.toNat < 50000) : k4_chk8 w := rowInb_of_lt h
theorem chk9_of_lt {w : BitVec 32} (h : w.toNat < 50000) : k4_chk9 w := rowInb_of_lt h
theorem chk10_of_lt {w : BitVec 32} (h : w.toNat < 50000) : k4_chk10 w := rowInb_of_lt h
theorem chk11_of_lt {w : BitVec 32} (h : w.toNat < 50000) : k4_chk11 w := rowInb_of_lt h
theorem chk12_of_lt {w : BitVec 32} (h : w.toNat < 50000) : k4_chk12 w := rowInb_of_lt h
theorem chk13_of_lt {w : BitVec 32} (h : w.toNat < 50000) : k4_chk13 w := rowInb_of_lt h
theorem chk14_of_lt {w : BitVec 32} (h : w.toNat < 50000) : k4_chk14 w := rowInb_of_lt h
theorem chk15_of_lt {w : BitVec 32} (h : w.toNat < 50000) : k4_chk15 w := rowInb_of_lt h
theorem chk16_of_lt {w : BitVec 32} (h : w.toNat < 50000) : k4_chk16 w := rowInb_of_lt h

set_option maxHeartbeats 4000000 in
/-- What the body's 16 stores leave in the output's staging memref, as pieces, WITH the proof that the body runs:
    on a whole staging memref at anything, the scratch row at anything, the table and the array whole at their
    contents (every word of the table a row number), the DMA cell at zero and the core's waits. -/
noncomputable def kernelRun4 (c : Dev nD) (i : grid4.Coords) (arg3 : Memref sig .tc .vmem S16x1x128 .f32) (harg3 : arg3.IsWhole)
    (arg4 : Memref sig .tc .vmem S128 .f32) (harg4 : arg4.IsWhole)
    (xt : HbBuf4 (F := F) c tbM4_0) (fh : HbBuf4 (F := F) c hbM4_0)
    (hT : ∀ (off : Fin 1 → Nat) (h : ∀ a, off a + S1.size a ≤ S4096.size a), (wd4 c xt off h : BitVec 32).toNat < 50000) :
    { L : List (View.Piece (Elt F) S16x1x128 .f32) //
      ∀ (W : Waits sig Unit) (K : PUnit → sProp 𝕄),
        iprop((∃ d, owns (c : Thread nD τ) arg3 fullShare d) ∗ (∃ d, owns (c : Thread nD τ) arg4 fullShare d) ∗ semVal ((c : Thread nD τ), SemLoc.dma 26) 0
            ∗ hbPt4 c hbM4_0 fh ∗ hbPt4 c tbM4_0 xt ∗ owes (c : Thread nD τ) 0 W
            ∗ (iprop((∃ f, arg3.view.loc (c : Thread nD τ) ↦[arg3.view.set]{fullShare} arg3.view.writes (Elt F) f L) ∗ (∃ d, owns (c : Thread nD τ) arg4 fullShare d)
                ∗ semVal ((c : Thread nD τ), SemLoc.dma 26) 0 ∗ hbPt4 c hbM4_0 fh ∗ hbPt4 c tbM4_0 xt ∗ (∃ W', owes (c : Thread nD τ) 0 W')) -∗ K ⟨⟩))
          ⊢ wp frame (wpE (defs₀ (F := F)) Variants.none c none) Set.univ
              (cc4__gather_kernel i (Memref.whole main_arg3) (Memref.isWhole_whole _) (Memref.whole main_v78) (Memref.isWhole_whole _) arg3 harg3 arg4 harg4 cc4_scratch1) K } := by
  refine ⟨?_, fun W K => ?run⟩
  case run =>
    simp only [cc4__gather_kernel_eq_skeleton]; unfold cc4__gather_kernel_skel
    simp only [k4_part6_eq_skeleton]
    unfold owns
    iintro ⟨⟨%d1, %f1, -, H1⟩, ⟨%ds0, %fs0, -, HS0⟩, Hq0, Hh0, HT0, HW, Hk⟩
    sl_exec (disch := first | sl_exact (chk1_of_lt (hT (k4_off1 i) (k4_off1_inb i))) | sl_exact (chk2_of_lt (hT (k4_off3 i) (k4_off3_inb i))) | sl_exact (chk3_of_lt (hT (k4_off5 i) (k4_off5_inb i))) | sl_exact (chk4_of_lt (hT (k4_off7 i) (k4_off7_inb i))) | sl_exact (chk5_of_lt (hT (k4_off9 i) (k4_off9_inb i))) | sl_exact (chk6_of_lt (hT (k4_off11 i) (k4_off11_inb i))) | sl_exact (chk7_of_lt (hT (k4_off13 i) (k4_off13_inb i))) | sl_exact (chk8_of_lt (hT (k4_off15 i) (k4_off15_inb i))) | sl_exact (chk9_of_lt (hT (k4_off17 i) (k4_off17_inb i))) | sl_exact (chk10_of_lt (hT (k4_off19 i) (k4_off19_inb i))) | sl_exact (chk11_of_lt (hT (k4_off21 i) (k4_off21_inb i))) | sl_exact (chk12_of_lt (hT (k4_off23 i) (k4_off23_inb i))) | sl_exact (chk13_of_lt (hT (k4_off25 i) (k4_off25_inb i))) | sl_exact (chk14_of_lt (hT (k4_off27 i) (k4_off27_inb i))) | sl_exact (chk15_of_lt (hT (k4_off29 i) (k4_off29_inb i))) | sl_exact (chk16_of_lt (hT (k4_off31 i) (k4_off31_inb i))))
    sl_step
    iapply Hk
    isplitl [H1]; · iexists _; iexact H1
    isplitl [HS0]
    · iexists _, _; isplitr; swap; · iexact HS0
      ipureintro; rfl
    isplitl [Hq0]; · iexact Hq0
    isplitl [Hh0]; · iexact Hh0
    isplitl [HT0]; · iexact HT0
    iexists _; iexact HW

/-- One staging buffer of the output window, through which its contents are stated (the choice does not matter). -/
abbrev VO4_0 : View sig .tc .vmem S16x1x128 .f32 := (Memref.whole cc4_stg0_0 : Memref sig .tc .vmem S16x1x128 .f32).view

/-- The run's 16 pieces are the 16 rows of the block: they tile it, so they cover it. -/
theorem cover4 (c : Dev nD) (i : grid4.Coords) (arg3 : Memref sig .tc .vmem S16x1x128 .f32) (harg3 : arg3.IsWhole)
    (arg4 : Memref sig .tc .vmem S128 .f32) (harg4 : arg4.IsWhole)
    (xt : HbBuf4 (F := F) c tbM4_0) (fh : HbBuf4 (F := F) c hbM4_0)
    (hT : ∀ (off : Fin 1 → Nat) (h : ∀ a, off a + S1.size a ≤ S4096.size a), (wd4 c xt off h : BitVec 32).toNat < 50000) (y : S16x1x128.Idx) :
    ∃ pc ∈ (kernelRun4 c i arg3 harg3 arg4 harg4 xt fh hT).1, y ∈ pc.1.set :=
  View.cover_of_tiledL (kernelRun4 c i arg3 harg3 arg4 harg4 xt fh hT).1 S1x1x128.size (by sl_kernel_rfl) y

/-- What the run leaves in the output's staging buffer: its pieces read back over junk. -/
def out4 (c : Dev nD) (i : grid4.Coords) (arg3 : Memref sig .tc .vmem S16x1x128 .f32) (harg3 : arg3.IsWhole)
    (arg4 : Memref sig .tc .vmem S128 .f32) (harg4 : arg4.IsWhole)
    (xt : HbBuf4 (F := F) c tbM4_0) (fh : HbBuf4 (F := F) c hbM4_0)
    (hT : ∀ (off : Fin 1 → Nat) (h : ∀ a, off a + S1.size a ≤ S4096.size a), (wd4 c xt off h : BitVec 32).toNat < 50000) : Vec F S16x1x128 .f32 :=
  VO4_0.read (Elt F) (VO4_0.writes (Elt F) VO4_0.junk (kernelRun4 c i arg3 harg3 arg4 harg4 xt fh hT).1)

/-- Every word the body loads is a row number, the table's words being so. -/
theorem wd4_lt_of {tb : pre4.Contents (Elt F)} (hT : TblInRange tb) (c : Dev nD) (off : Fin 1 → Nat) (h : ∀ a, off a + S1.size a ≤ S4096.size a) :
    (wd4 c (tb 0) off h : BitVec 32).toNat < 50000 := hT _

/-- What the output's staging buffer holds after the body at point `t`. -/
def outsAt4 (hT : TblInRange tb) (c : Dev nD) (t : Fin (cfg4 (adm4 tb)).N) : Vec F S16x1x128 .f32 :=
  out4 c (grid4.coords t) (ms4_0 tb t) (hs4_0 tb t) scM4_0 (Memref.isWhole_whole _) (tb 0) (V c main_v78) (wd4_lt_of hT c)

/-- The proof data of the pipeline on core `c`: the array as the region finds it; after the body at point `t` the
    output's buffer at `outsAt4`; the invariant `Phi4`; nothing owed; full shares. -/
def dat4 (hT : TblInRange tb) (c : Dev nD) : Dat τ (Elt F) Unit ℕ (Pipeline.UD sig nD τ) ℕ (cfg4 (adm4 tb)) c where
  A w := V c (Pipeline.arrRef spec4 w)
  after w t := match w with
    | ⟨0, _⟩ => outsAt4 V tb hT c t
  Φ _ := Phi4 V tb c
  q _ := fullShare
  owed _ := 0

theorem A_eq4 (hT : TblInRange tb) (c : Dev nD) (w : Fin (cfg4 (adm4 tb)).W) : (dat4 V tb hT c).A w = V c (Pipeline.arrRef spec4 w) := by
  dsimp only [dat4]

theorem after4_0 (hT : TblInRange tb) (c : Dev nD) (t : Fin (cfg4 (adm4 tb)).N) : (dat4 V tb hT c).after 0 t = outsAt4 V tb hT c t := by
  dsimp only [dat4]; try rfl

/-- What the body is called with at point `t`, -/
def bodyPre4 (hT : TblInRange tb) (c : Dev nD) (t : Fin (cfg4 (adm4 tb)).N) : sProp 𝕄 :=
  iprop((dat4 V tb hT c).Φ t.castSucc ∗ (dat4 V tb hT c).owesAt () t.castSucc
    ∗ (∃ d, owns (c : Thread nD τ) (ms4_0 tb t) fullShare ((dat4 V tb hT c).before 0 t d)))

/-- and what it returns. -/
def bodyPost4 (hT : TblInRange tb) (c : Dev nD) (t : Fin (cfg4 (adm4 tb)).N) : sProp 𝕄 :=
  iprop((dat4 V tb hT c).Φ t.succ ∗ (dat4 V tb hT c).owesAt () t.succ
    ∗ owns (c : Thread nD τ) (ms4_0 tb t) fullShare ((dat4 V tb hT c).after 0 t))

set_option maxHeartbeats 1000000 in
/-- The body at any point: the invariant hands the run the scratch row, the DMA cell at zero, the array and the table, and
    takes them back as they were; the core's waits go in at whatever the points before recorded and come back with this point's. -/
theorem sound_body4 (hT : TblInRange tb) (c : Dev nD) (t : Fin (cfg4 (adm4 tb)).N) :
    bodyPre4 V tb hT c t ⊢ wp frame (wpE (defs₀ (F := F)) Variants.none c none) Set.univ (bodyAt4 tb t) (fun _ => bodyPost4 V tb hT c t) := by
  unfold bodyPre4 bodyPost4 bodyAt4
  rw [show (dat4 V tb hT c).Φ t.succ = (dat4 V tb hT c).Φ t.castSucc from rfl, after4_0]
  rw [show (dat4 V tb hT c).Φ t.castSucc = Phi4 V tb c from rfl, Phi4_eq]
  unfold Dat.owesAt Pipeline.owesWithin
  rw [show (dat4 V tb hT c).owed t.castSucc = 0 from rfl, show (dat4 V tb hT c).owed t.succ = 0 from rfl]
  unfold outsAt4
  unfold out4
  iintro ⟨⟨⟨⟨HS0, HR⟩, Hg, Hq0, Hh0⟩, HT0⟩, ⟨%W, -, HW⟩, ⟨%d0, H0⟩⟩
  iapply ((kernelRun4 c (grid4.coords t) _ _ _ _ (tb 0) (V c main_v78) (wd4_lt_of hT c)).2 W _)
  isplitl [H0]; · iexists _; iexact H0
  isplitl [HS0]; · iexact HS0
  isplitl [Hq0]; · iexact Hq0
  isplitl [Hh0]; · iexact Hh0
  isplitl [HT0]; · iexact HT0
  isplitl [HW]; · iexact HW
  iintro ⟨⟨%e0, H0⟩, HS0, Hq0, Hh0, HT0, ⟨%W', HW'⟩⟩
  isplitl [HR HS0 Hg Hq0 Hh0 HT0]
  · isplitl [HR HS0 Hg Hq0 Hh0]
    · isplitl [HS0 HR]
      · isplitl [HS0]; · iexact HS0
        iexact HR
      isplitl [Hg]; · iexact Hg
      isplitl [Hq0]; · iexact Hq0
      iexact Hh0
    iexact HT0
  isplitl [HW']
  · iexists W'; isplitr; · ipureintro; exact fun _ _ => Or.inl trivial
    iexact HW'
  unfold owns; iexists _; isplitr
  swap; · iexact H0
  ipureintro; exact View.read_writes_of_cover _ _ _ _ _ (cover4 c _ _ _ _ _ _ _ _)

/-- The library's body obligation, at every point. -/
theorem body_obligation4 (hT : TblInRange tb) (c : Dev nD) : BodyObligation (dat4 (F := F) V tb hT c) (defs₀ (F := F)) Variants.none () Set.univ := fun t => by
  rw [bigSep_W4, bigSep_W4]
  exact sound_body4 V tb hT c t

end Region4
end Cert.Kernel.Hand
end
-- ==== Proof.K.RunCond.lean ====
/-
  The program's run from the five kernel regions' records, with every buffer named at the end. Between two items of
  the host program a core holds every unscoped buffer at a valuation: the launch memory, then each stretch of host
  operations applied, each region's output array replaced by what the region leaves. Given, per region, a record
  entered from the valuation before it and left at the one after it, every weakly fair execution terminates and the final
  memory holds every unscoped buffer at the last valuation: the arguments (which no item writes) as launched, and the
  result buffer at the last stretch's value.
-/
import proofs.«418828_j78855599555023_1_alg».proof.Proof.Gen.Kernel.Regions

set_option maxRecDepth 1096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

set_option backward.isDefEq.respectTransparency.types false in
/-- The run, given the regions' records: termination, and every unscoped buffer at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 5) → (pcfgs (F := F) p).Adm)
    (pdats : (p : Fin 5) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V16 m outs c) ∗ E 4 c) ⊢ R4.pre c)
    (hpost4 : ∀ c : Dev nD, R4.post c ⊢ iprop(StableHlo.held (c : Thread nD τ) (Pipeline.ucRefs τ sig) (V17 m outs c) ∗ E 5 c)) :
    θ_run defs (onTc (τ := τ) (main (F := F))) ⟨m, fun _ => 0, ρ⟩ (fun r => ∀ c : Dev nD,
      ∀ b ∈ Pipeline.ucRefs τ sig, r.2.mem (((c : Thread nD τ)).1, b) = V18 m outs c b) := by
  refine Pipeline.θ_run_regions_kit_dev (pcfgs (F := F)) a pdats ι (cellOf_inj a) EP defs₀ 𝒱₀ L lv m ρ main
    (segs m outs 𝒱₀ L lv E ι a pdats R0 R1 R2 R3 R4)
    (fun c Q => by
      rewrite [main_chain c, Seg.run_eq_chain,
        show (segs m outs 𝒱₀ L lv E ι a pdats R0 R1 R2 R3 R4 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          Prog.lift (.customCall (Pipeline.entry 4) ()),
          StableHlo.seq hostOps5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, hpre0 c, hpost0 c, .rfl, .rfl, .rfl, .rfl, hpre1 c, hpost1 c, .rfl, .rfl, hpre2 c, hpost2 c, .rfl, .rfl, hpre3 c, (hpost3 c).trans (hpre4 c), hpost4 c, sep_mono .rfl (hE5 c)⟩)
    (hinit := ?_) (QY := fun c s => ∀ b ∈ Pipeline.ucRefs τ sig, s.mem (((c : Thread nD τ)).1, b) = V18 m outs c b)
    (hfin := fun c s' => ?_) (hQ := fun _ h => h)
  · -- the launch: the unscoped buffers at the launch memory; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V18 m outs c) s')
    isplitl [Hh] <;> iassumption

end Cert.Kernel.Hand

end
-- ==== Proof.K.Regs.lean ====
/-
  The program's run, assembled. Between two items of the host program a core holds every unscoped buffer at a
  valuation; what each kernel region leaves in its output array is named here, stage by stage (a region's proof
  data live at the valuation it is entered from, which reads only what the regions before it left), and each region
  is given as a record entered from the valuation before it and left at the one after it. The five records and the
  launch's resources then give the run: every weakly fair execution terminates with every unscoped buffer at the
  last valuation.
-/
import proofs.«418828_j78855599555023_1_alg».proof.Proof.K.Dense0
import proofs.«418828_j78855599555023_1_alg».proof.Proof.K.Dense1
import proofs.«418828_j78855599555023_1_alg».proof.Proof.K.Dense2
import proofs.«418828_j78855599555023_1_alg».proof.Proof.K.Dense3
import proofs.«418828_j78855599555023_1_alg».proof.Proof.K.Gather4
import proofs.«418828_j78855599555023_1_alg».proof.Proof.K.RunCond
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## What the regions leave, stage by stage -/

/-- A core's TensorCore buffers, one contents per reference. -/
abbrev TcVal (c : Dev nD) : Type := (r : Ref sig .tc) → Buf (Elt F) ((c : Thread nD τ).loc r)

/-- Contents per reference and core as the unknowns the valuations are written over (the same at every item). -/
abbrev stg (u : (c : Dev nD) → TcVal (F := F) c) : Outs (F := F) := fun _ r c => u c r

/-- Stage 0: the launch memory. -/
def u0 (c : Dev nD) : TcVal (F := F) c := fun r => m ((c : Thread nD τ).loc r)

/-- Region 0 is entered from the valuation after the first host stretch, which reads no region's output. -/
abbrev Ve1 : (c : Dev nD) → TcVal (F := F) c := fun c b => V1 m c b
/-- What region 0 leaves in its output array: the write-backs of its ten blocks folded into the array. -/
def o2 (c : Dev nD) : Buf (Elt F) ((c : Thread nD τ).loc main_v1) := (dat0 (Ve1 m) c).arrAt 3 cfg0.N
/-- Stage 1: region 0's output named. -/
def u1 (c : Dev nD) : TcVal (F := F) c := Function.update (u0 m c) main_v1 (o2 m c)

/-- Region 1 is entered from a valuation that reads region 0's output only. -/
abbrev Ve7 : (c : Dev nD) → TcVal (F := F) c := fun c b => V7 m (stg (u1 m)) c b
def o8 (c : Dev nD) : Buf (Elt F) ((c : Thread nD τ).loc main_v39) := (dat1 (Ve7 m) c).arrAt 3 cfg1.N
/-- Stage 2: region 1's output named. -/
def u2 (c : Dev nD) : TcVal (F := F) c := Function.update (u1 m c) main_v39 (o8 m c)

/-- Region 2 is entered from a valuation that reads the outputs of regions 0 and 1 only. -/
abbrev Ve11 : (c : Dev nD) → TcVal (F := F) c := fun c b => V11 m (stg (u2 m)) c b
def o12 (c : Dev nD) : Buf (Elt F) ((c : Thread nD τ).loc main_v59) := (dat2 (Ve11 m) c).arrAt 3 cfg2.N
/-- Stage 3: region 2's output named. -/
def u3 (c : Dev nD) : TcVal (F := F) c := Function.update (u2 m c) main_v59 (o12 m c)

/-- Region 3 is entered from a valuation that reads the outputs of regions 0, 1 and 2 only. -/
abbrev Ve15 : (c : Dev nD) → TcVal (F := F) c := fun c b => V15 m (stg (u3 m)) c b
def o16 (c : Dev nD) : Buf (Elt F) ((c : Thread nD τ).loc main_v78) := (dat3 (Ve15 m) c).arrAt 3 cfg3.N
/-- Stage 4: region 3's output named. -/
def u4 (c : Dev nD) : TcVal (F := F) c := Function.update (u3 m c) main_v78 (o16 m c)

/-- Region 4 is entered from the valuation region 3 is left at. -/
abbrev Ve16 : (c : Dev nD) → TcVal (F := F) c := fun c b => V16 m (stg (u4 m)) c b

/-- The index table's words, read off the launch memory (the program runs on one device: device 0's). -/
def tbl : pre4.Contents (Elt F) := fun k => m (((0 : Dev nD) : Thread nD τ).loc (pre4.ref k))

/-- Stage 5, the last: region 4's output named (the array it copies rows of it leaves as it found it). -/
def o17 (hT : TblInRange (tbl m)) (c : Dev nD) : Buf (Elt F) ((c : Thread nD τ).loc main_v79) :=
  (dat4 (Ve16 m) (tbl m) hT c).arrAt 0 (cfg4 (adm4 (tbl m))).N
def u5 (hT : TblInRange (tbl m)) (c : Dev nD) : TcVal (F := F) c := Function.update (u4 m c) main_v79 (o17 m hT c)

/-- What the regions leave: the unknowns of the valuations, named. -/
def outs (hT : TblInRange (tbl m)) : Outs (F := F) := stg (u5 m hT)

/-! ## The valuations read one output each -/

theorem V2_congr (o o' : Outs (F := F)) (c : Dev nD) (h : o 2 main_v1 c = o' 2 main_v1 c) : V2 m o c = V2 m o' c :=
  congrArg (fun x => Function.update (V1 m c) main_v1 x) h
theorem V7_congr (o o' : Outs (F := F)) (c : Dev nD) (h : o 2 main_v1 c = o' 2 main_v1 c) : V7 m o c = V7 m o' c :=
  congrArg (fun W => StableHlo.after hostOps1_4 (StableHlo.after hostOps1_3 (StableHlo.after hostOps1_2 (StableHlo.after hostOps1_1 (StableHlo.after hostOps1 W))))) (V2_congr m o o' c h)
theorem V8_congr (o o' : Outs (F := F)) (c : Dev nD) (h : o 2 main_v1 c = o' 2 main_v1 c) (h8 : o 8 main_v39 c = o' 8 main_v39 c) :
    V8 m o c = V8 m o' c := by
  show Function.update (V7 m o c) main_v39 (o 8 main_v39 c) = Function.update (V7 m o' c) main_v39 (o' 8 main_v39 c)
  rw [V7_congr m o o' c h, h8]
theorem V11_congr (o o' : Outs (F := F)) (c : Dev nD) (h : o 2 main_v1 c = o' 2 main_v1 c) (h8 : o 8 main_v39 c = o' 8 main_v39 c) :
    V11 m o c = V11 m o' c :=
  congrArg (fun W => StableHlo.after hostOps2_2 (StableHlo.after hostOps2_1 (StableHlo.after hostOps2 W))) (V8_congr m o o' c h h8)
theorem V12_congr (o o' : Outs (F := F)) (c : Dev nD) (h : o 2 main_v1 c = o' 2 main_v1 c) (h8 : o 8 main_v39 c = o' 8 main_v39 c)
    (h12 : o 12 main_v59 c = o' 12 main_v59 c) : V12 m o c = V12 m o' c := by
  show Function.update (V11 m o c) main_v59 (o 12 main_v59 c) = Function.update (V11 m o' c) main_v59 (o' 12 main_v59 c)
  rw [V11_congr m o o' c h h8, h12]
theorem V15_congr (o o' : Outs (F := F)) (c : Dev nD) (h : o 2 main_v1 c = o' 2 main_v1 c) (h8 : o 8 main_v39 c = o' 8 main_v39 c)
    (h12 : o 12 main_v59 c = o' 12 main_v59 c) : V15 m o c = V15 m o' c :=
  congrArg (fun W => StableHlo.after hostOps3_2 (StableHlo.after hostOps3_1 (StableHlo.after hostOps3 W))) (V12_congr m o o' c h h8 h12)
theorem V16_congr (o o' : Outs (F := F)) (c : Dev nD) (h : o 2 main_v1 c = o' 2 main_v1 c) (h8 : o 8 main_v39 c = o' 8 main_v39 c)
    (h12 : o 12 main_v59 c = o' 12 main_v59 c) (h16 : o 16 main_v78 c = o' 16 main_v78 c) : V16 m o c = V16 m o' c := by
  show Function.update (V15 m o c) main_v78 (o 16 main_v78 c) = Function.update (V15 m o' c) main_v78 (o' 16 main_v78 c)
  rw [V15_congr m o o' c h h8 h12, h16]

/-! ## The stages agree where an earlier one is read -/

section Stages
variable (hT : TblInRange (tbl m)) (c : Dev nD)

theorem u1_v1 : u1 m c main_v1 = o2 m c := by unfold u1; exact Function.update_self ..
theorem u2_v1 : u2 m c main_v1 = o2 m c := by
  unfold u2; rw [Function.update_of_ne (by decide)]; exact u1_v1 m c
theorem u3_v1 : u3 m c main_v1 = o2 m c := by
  unfold u3; rw [Function.update_of_ne (by decide)]; exact u2_v1 m c
theorem u4_v1 : u4 m c main_v1 = o2 m c := by
  unfold u4; rw [Function.update_of_ne (by decide)]; exact u3_v1 m c
theorem u5_v1 : u5 m hT c main_v1 = o2 m c := by
  unfold u5; rw [Function.update_of_ne (by decide)]; exact u4_v1 m c

theorem u2_v39 : u2 m c main_v39 = o8 m c := by unfold u2; exact Function.update_self ..
theorem u3_v39 : u3 m c main_v39 = o8 m c := by
  unfold u3; rw [Function.update_of_ne (by decide)]; exact u2_v39 m c
theorem u4_v39 : u4 m c main_v39 = o8 m c := by
  unfold u4; rw [Function.update_of_ne (by decide)]; exact u3_v39 m c
theorem u5_v39 : u5 m hT c main_v39 = o8 m c := by
  unfold u5; rw [Function.update_of_ne (by decide)]; exact u4_v39 m c

theorem u3_v59 : u3 m c main_v59 = o12 m c := by unfold u3; exact Function.update_self ..
theorem u4_v59 : u4 m c main_v59 = o12 m c := by
  unfold u4; rw [Function.update_of_ne (by decide)]; exact u3_v59 m c
theorem u5_v59 : u5 m hT c main_v59 = o12 m c := by
  unfold u5; rw [Function.update_of_ne (by decide)]; exact u4_v59 m c

theorem u4_v78 : u4 m c main_v78 = o16 m c := by unfold u4; exact Function.update_self ..
theorem u5_v78 : u5 m hT c main_v78 = o16 m c := by
  unfold u5; rw [Function.update_of_ne (by decide)]; exact u4_v78 m c

theorem u5_v79 : u5 m hT c main_v79 = o17 m hT c := by unfold u5; exact Function.update_self ..

end Stages

/-! ## The valuations at the named contents are the stages' -/

section Agree
variable (hT : TblInRange (tbl m)) (c : Dev nD)

theorem V7_outs : V7 m (outs m hT) c = V7 m (stg (u1 m)) c :=
  V7_congr m _ _ c ((u5_v1 m hT c).trans (u1_v1 m c).symm)
theorem V11_outs : V11 m (outs m hT) c = V11 m (stg (u2 m)) c :=
  V11_congr m _ _ c ((u5_v1 m hT c).trans (u2_v1 m c).symm) ((u5_v39 m hT c).trans (u2_v39 m c).symm)
theorem V15_outs : V15 m (outs m hT) c = V15 m (stg (u3 m)) c :=
  V15_congr m _ _ c ((u5_v1 m hT c).trans (u3_v1 m c).symm) ((u5_v39 m hT c).trans (u3_v39 m c).symm)
    ((u5_v59 m hT c).trans (u3_v59 m c).symm)
theorem V16_outs : V16 m (outs m hT) c = V16 m (stg (u4 m)) c :=
  V16_congr m _ _ c ((u5_v1 m hT c).trans (u4_v1 m c).symm) ((u5_v39 m hT c).trans (u4_v39 m c).symm)
    ((u5_v59 m hT c).trans (u4_v59 m c).symm) ((u5_v78 m hT c).trans (u4_v78 m c).symm)

end Agree

/-- The valuations at the named contents, as families over the cores, are the stages'. -/
theorem Ve7_outs (hT : TblInRange (tbl m)) : (fun (c : Dev nD) (b : Ref sig .tc) => V7 m (outs m hT) c b) = Ve7 m :=
  funext fun c => funext fun b => congrFun (V7_outs m hT c) b
theorem Ve11_outs (hT : TblInRange (tbl m)) : (fun (c : Dev nD) (b : Ref sig .tc) => V11 m (outs m hT) c b) = Ve11 m :=
  funext fun c => funext fun b => congrFun (V11_outs m hT c) b
theorem Ve15_outs (hT : TblInRange (tbl m)) : (fun (c : Dev nD) (b : Ref sig .tc) => V15 m (outs m hT) c b) = Ve15 m :=
  funext fun c => funext fun b => congrFun (V15_outs m hT c) b
theorem Ve16_outs (hT : TblInRange (tbl m)) : (fun (c : Dev nD) (b : Ref sig .tc) => V16 m (outs m hT) c b) = Ve16 m :=
  funext fun c => funext fun b => congrFun (V16_outs m hT c) b

/-! ## What each region leaves, at the named contents -/

section Exports
variable (hT : TblInRange (tbl m)) (c : Dev nD)

/-- Region 0 leaves in its output array its pipeline's folded write-backs, from the valuation it is entered from. -/
theorem outs_2 : outs m hT 2 main_v1 c = (dat0 (fun c b => V1 m c b) c).arrAt 3 cfg0.N := u5_v1 m hT c
/-- Region 1, likewise, from the valuation at the named contents. -/
theorem outs_8 : outs m hT 8 main_v39 c = (dat1 (fun c b => V7 m (outs m hT) c b) c).arrAt 3 cfg1.N := by
  rw [Ve7_outs m hT]; exact u5_v39 m hT c
theorem outs_12 : outs m hT 12 main_v59 c = (dat2 (fun c b => V11 m (outs m hT) c b) c).arrAt 3 cfg2.N := by
  rw [Ve11_outs m hT]; exact u5_v59 m hT c
theorem outs_16 : outs m hT 16 main_v78 c = (dat3 (fun c b => V15 m (outs m hT) c b) c).arrAt 3 cfg3.N := by
  rw [Ve15_outs m hT]; exact u5_v78 m hT c
/-- Region 4 leaves its output array at its pipeline's folded write-backs, -/
theorem outs_17 : outs m hT 17 main_v79 c
    = (dat4 (fun c b => V16 m (outs m hT) c b) (tbl m) hT c).arrAt 0 (cfg4 (adm4 (tbl m))).N := by
  rw [Ve16_outs m hT]; exact u5_v79 m hT c
/-- and the array it copies rows of as it found it. -/
theorem outs_17' : outs m hT 17 main_v78 c = V16 m (outs m hT) c main_v78 := by
  show outs m hT 17 main_v78 c = Function.update (V15 m (outs m hT) c) (Proc.devRef .tc main_v78) (outs m hT 16 main_v78 c) (Proc.devRef .tc main_v78)
  rw [Function.update_self]; rfl

end Exports

/-! ## The index table at region 4's entry -/

/-- No item before region 4 writes the index table: at its entry the table holds the launch memory's words. -/
theorem V16_tbl (o : Outs (F := F)) (c : Dev nD) (k : Fin pre4.K) : V16 m o c (pre4.ref k) = tbl m k := by
  obtain rfl : c = 0 := Subsingleton.elim _ _
  match k with
  | ⟨0, _⟩ =>
    exact (V16_of m o 0 main_arg3 (by decide)).trans <| (V15_of m o 0 main_arg3 (by decide)).trans <| (V14_of m o 0 main_arg3 (by decide)).trans <|
      (V13_of m o 0 main_arg3 (by decide)).trans <| (V12_of m o 0 main_arg3 (by decide)).trans <| (V11_of m o 0 main_arg3 (by decide)).trans <|
      (V10_of m o 0 main_arg3 (by decide)).trans <| (V9_of m o 0 main_arg3 (by decide)).trans <| (V8_of m o 0 main_arg3 (by decide)).trans <|
      (V7_of m o 0 main_arg3 (by decide)).trans <| (V6_of m o 0 main_arg3 (by decide)).trans <| (V5_of m o 0 main_arg3 (by decide)).trans <|
      (V4_of m o 0 main_arg3 (by decide)).trans <| (V3_of m o 0 main_arg3 (by decide)).trans <| (V2_of m o 0 main_arg3 (by decide)).trans <|
      (V1_of m 0 main_arg3 (by decide)).trans rfl

/-! ## The tables' contents, the proof data, the levels -/

/-- The prefetched tables' admissible contents: regions 0 to 3 have none; region 4's index table as launched. -/
abbrev adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => cfg3.toPCfg_adm
  | ⟨4, _⟩ => adm4 (tbl m)
  | ⟨_ + 5, h⟩ => absurd h (Nat.not_lt.2 (Nat.le_add_left _ _))

/-- Every pipeline's proof data, each at the valuation its region is entered from. -/
def pdats (hT : TblInRange (tbl m)) : (p : Fin 5) → (c : Dev nD) → Dat τ (Elt F) Unit ℕ (Pipeline.UD sig nD τ) ℕ (Pipeline.pin (pcfgs (F := F)) (adm m) p) c
  | ⟨0, _⟩ => fun c => dat0 (Ve1 m) c
  | ⟨1, _⟩ => fun c => dat1 (Ve7 m) c
  | ⟨2, _⟩ => fun c => dat2 (Ve11 m) c
  | ⟨3, _⟩ => fun c => dat3 (Ve15 m) c
  | ⟨4, _⟩ => fun c => dat4 (Ve16 m) (tbl m) hT c
  | ⟨_ + 5, h⟩ => absurd h (Nat.not_lt.2 (Nat.le_add_left _ _))

/-- No core owes another anything: no level is assigned. -/
abbrev Lz : GSem nD τ sig → Finset Unit := fun _ => ∅
abbrev lvz : GSem nD τ sig → Unit → ℕ := fun _ _ => 0
/-- What rides beside the buffers through every item: the core's generator register at some state and its dues, at nothing. -/
abbrev Rr (c : Dev nD) : sProp 𝕄 := iprop((∃ r, prngReg c r) ∗ ∃ W, owes (c : Thread nD τ) (0 : CellTallies nD τ sig Unit) W)

/-! ## The regions as records -/

/-! ### Region 0 -/

section R0
variable (hT : TblInRange (tbl m)) (c : Dev nD)

/-- The exit valuation at the region's output array: what the region leaves. -/
theorem V2_at_out (o : Outs (F := F)) : V2 m o c main_v1 = o 2 main_v1 c := Function.update_self ..
/-- The exit valuation off the output array: the valuation the proof data live at. -/
theorem V2_in (r : Ref sig .tc) (h : r ∉ ([main_v1] : List (Ref sig .tc))) : V2 m (outs m hT) c r = Ve1 m c r :=
  (V2_of m (outs m hT) c r h)
/-- Each window's array at the exit valuation: an input (main_arg0, main_arg4, main_v0) as entered, the output
    (main_v1) at the pipeline's folded write-backs. -/
theorem hF0 : ∀ w : Fin cfg0.W, (dat0 (Ve1 m) c).arrAt w cfg0.N = V2 m (outs m hT) c (Pipeline.arrRef spec0 w)
  | ⟨0, _⟩ => ((dat0 (Ve1 m) c).arrAt_in 0 rfl _).trans ((A_eq0 (Ve1 m) c 0).trans (V2_in m hT c _ (by decide)).symm)
  | ⟨1, _⟩ => ((dat0 (Ve1 m) c).arrAt_in 1 rfl _).trans ((A_eq0 (Ve1 m) c 1).trans (V2_in m hT c _ (by decide)).symm)
  | ⟨2, _⟩ => ((dat0 (Ve1 m) c).arrAt_in 2 rfl _).trans ((A_eq0 (Ve1 m) c 2).trans (V2_in m hT c _ (by decide)).symm)
  | ⟨3, _⟩ => (u5_v1 m hT c).symm.trans (V2_at_out m c (outs m hT)).symm
/-- Every buffer that is no window's array is as entered. -/
theorem hrest0 (b : Ref sig .tc) (hb : b ∉ Finset.univ.image (Pipeline.arrRef spec0)) : V2 m (outs m hT) c b = Ve1 m c b :=
  V2_in m hT c b fun h => hb (Finset.mem_image.mpr ⟨3, Finset.mem_univ _, (List.mem_singleton.mp h).symm⟩)

end R0

-- unifying a library lemma stated over the pinned family with the printed configuration unfolds plain definitions in a
-- metavariable's type
set_option backward.isDefEq.respectTransparency.types false in
/-- REGION 0: the first dense layer, entered from the valuation after the first host stretch and left at that valuation with its output array replaced. Its arrays are split out of the unscoped buffers at entry and put back at the exit
    valuation (the inputs as entered, the output at what the region leaves, every other buffer untouched); the generator
    register passes through the invariant; nothing is owed; the kernel has no semaphore of its own. -/
def reg0 (hT : TblInRange (tbl m)) : Pipeline.RegionSeg (pcfgs (F := F)) (adm m) (pdats m hT) () defs₀ Variants.none Lz lvz 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Ve1 m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m hT) c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (Ve1 m c)
  hentry c := by
    rw [Pipeline.ownSems0_none]
    have hsplit := Pipeline.arrays_of_unscopedBufs (p := 0) (pcfgs (F := F)) (adm m) (pdats m hT) (launch0 (F := F)).win (launch0 (F := F)).arr_whole c
      ((pdats m hT 0 c).share_full fun _ => rfl) (Ve1 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hT 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hT) ((pdats m hT 0 c).share_full fun _ => rfl)
      (Ve1 m c) (fun b => V2 m (outs m hT) c b) ((pdats m hT 0 c).arrAt · cfg0.N) (hF0 m hT c) (hrest0 m hT c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

section R1
variable (hT : TblInRange (tbl m)) (c : Dev nD)

/-- The exit valuation at the region's output array: what the region leaves. -/
theorem V8_at_out (o : Outs (F := F)) : V8 m o c main_v39 = o 8 main_v39 c := Function.update_self ..
/-- The exit valuation off the output array: the valuation the proof data live at. -/
theorem V8_in (r : Ref sig .tc) (h : r ∉ ([main_v39] : List (Ref sig .tc))) : V8 m (outs m hT) c r = Ve7 m c r :=
  (V8_of m (outs m hT) c r h).trans (congrFun (V7_outs m hT c) _)
/-- Each window's array at the exit valuation: an input (main_v1, main_arg6, main_v38) as entered, the output
    (main_v39) at the pipeline's folded write-backs. -/
theorem hF1 : ∀ w : Fin cfg1.W, (dat1 (Ve7 m) c).arrAt w cfg1.N = V8 m (outs m hT) c (Pipeline.arrRef spec1 w)
  | ⟨0, _⟩ => ((dat1 (Ve7 m) c).arrAt_in 0 rfl _).trans ((A_eq1 (Ve7 m) c 0).trans (V8_in m hT c _ (by decide)).symm)
  | ⟨1, _⟩ => ((dat1 (Ve7 m) c).arrAt_in 1 rfl _).trans ((A_eq1 (Ve7 m) c 1).trans (V8_in m hT c _ (by decide)).symm)
  | ⟨2, _⟩ => ((dat1 (Ve7 m) c).arrAt_in 2 rfl _).trans ((A_eq1 (Ve7 m) c 2).trans (V8_in m hT c _ (by decide)).symm)
  | ⟨3, _⟩ => (u5_v39 m hT c).symm.trans (V8_at_out m c (outs m hT)).symm
/-- Every buffer that is no window's array is as entered. -/
theorem hrest1 (b : Ref sig .tc) (hb : b ∉ Finset.univ.image (Pipeline.arrRef spec1)) : V8 m (outs m hT) c b = Ve7 m c b :=
  V8_in m hT c b fun h => hb (Finset.mem_image.mpr ⟨3, Finset.mem_univ _, (List.mem_singleton.mp h).symm⟩)

end R1

-- unifying a library lemma stated over the pinned family with the printed configuration unfolds plain definitions in a
-- metavariable's type
set_option backward.isDefEq.respectTransparency.types false in
/-- REGION 1: the second dense layer, entered from the valuation after the host stretches that follow region 0 and left at that valuation with its output array replaced. Its arrays are split out of the unscoped buffers at entry and put back at the exit
    valuation (the inputs as entered, the output at what the region leaves, every other buffer untouched); the generator
    register passes through the invariant; nothing is owed; the kernel has no semaphore of its own. -/
def reg1 (hT : TblInRange (tbl m)) : Pipeline.RegionSeg (pcfgs (F := F)) (adm m) (pdats m hT) () defs₀ Variants.none Lz lvz 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Ve7 m) c).loose
  hwaits := Pipeline.hwaits_of_owed_zero _ _ _ _ Lz lvz 1 fun _ _ => rfl
  pre c := iprop(StableHlo.held (c : Thread nD τ) (Pipeline.ucRefs τ sig) (V7 m (outs m hT) c) ∗ Rr c)
  post c := iprop(StableHlo.held (c : Thread nD τ) (Pipeline.ucRefs τ sig) (V8 m (outs m hT) c) ∗ Rr c)
  X c := iprop(∃ r, prngReg c r)
  Y c := iprop(∃ r, prngReg c r)
  Z c := Pipeline.unscopedRest (Ix := Unit) (Name := ℕ) (U := Pipeline.UD sig nD τ) (Lvl := ℕ) spec1 c (Ve7 m c)
  hentry c := by
    rw [V7_outs m hT c]
    rw [Pipeline.ownSems0_none]
    have hsplit := Pipeline.arrays_of_unscopedBufs (p := 1) (pcfgs (F := F)) (adm m) (pdats m hT) (launch1 (F := F)).win (launch1 (F := F)).arr_whole c
      ((pdats m hT 1 c).share_full fun _ => rfl) (Ve7 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hT 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hT) ((pdats m hT 1 c).share_full fun _ => rfl)
      (Ve7 m c) (fun b => V8 m (outs m hT) c b) ((pdats m hT 1 c).arrAt · cfg1.N) (hF1 m hT c) (hrest1 m hT c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

section R2
variable (hT : TblInRange (tbl m)) (c : Dev nD)

/-- The exit valuation at the region's output array: what the region leaves. -/
theorem V12_at_out (o : Outs (F := F)) : V12 m o c main_v59 = o 12 main_v59 c := Function.update_self ..
/-- The exit valuation off the output array: the valuation the proof data live at. -/
theorem V12_in (r : Ref sig .tc) (h : r ∉ ([main_v59] : List (Ref sig .tc))) : V12 m (outs m hT) c r = Ve11 m c r :=
  (V12_of m (outs m hT) c r h).trans (congrFun (V11_outs m hT c) _)
/-- Each window's array at the exit valuation: an input (main_v56, main_arg8, main_v58) as entered, the output
    (main_v59) at the pipeline's folded write-backs. -/
theorem hF2 : ∀ w : Fin cfg2.W, (dat2 (Ve11 m) c).arrAt w cfg2.N = V12 m (outs m hT) c (Pipeline.arrRef spec2 w)
  | ⟨0, _⟩ => ((dat2 (Ve11 m) c).arrAt_in 0 rfl _).trans ((A_eq2 (Ve11 m) c 0).trans (V12_in m hT c _ (by decide)).symm)
  | ⟨1, _⟩ => ((dat2 (Ve11 m) c).arrAt_in 1 rfl _).trans ((A_eq2 (Ve11 m) c 1).trans (V12_in m hT c _ (by decide)).symm)
  | ⟨2, _⟩ => ((dat2 (Ve11 m) c).arrAt_in 2 rfl _).trans ((A_eq2 (Ve11 m) c 2).trans (V12_in m hT c _ (by decide)).symm)
  | ⟨3, _⟩ => (u5_v59 m hT c).symm.trans (V12_at_out m c (outs m hT)).symm
/-- Every buffer that is no window's array is as entered. -/
theorem hrest2 (b : Ref sig .tc) (hb : b ∉ Finset.univ.image (Pipeline.arrRef spec2)) : V12 m (outs m hT) c b = Ve11 m c b :=
  V12_in m hT c b fun h => hb (Finset.mem_image.mpr ⟨3, Finset.mem_univ _, (List.mem_singleton.mp h).symm⟩)

end R2

-- unifying a library lemma stated over the pinned family with the printed configuration unfolds plain definitions in a
-- metavariable's type
set_option backward.isDefEq.respectTransparency.types false in
/-- REGION 2: the third dense layer, entered from the valuation after the host stretches that follow region 1 and left at that valuation with its output array replaced. Its arrays are split out of the unscoped buffers at entry and put back at the exit
    valuation (the inputs as entered, the output at what the region leaves, every other buffer untouched); the generator
    register passes through the invariant; nothing is owed; the kernel has no semaphore of its own. -/
def reg2 (hT : TblInRange (tbl m)) : Pipeline.RegionSeg (pcfgs (F := F)) (adm m) (pdats m hT) () defs₀ Variants.none Lz lvz 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (Ve11 m) c).loose
  hwaits := Pipeline.hwaits_of_owed_zero _ _ _ _ Lz lvz 2 fun _ _ => rfl
  pre c := iprop(StableHlo.held (c : Thread nD τ) (Pipeline.ucRefs τ sig) (V11 m (outs m hT) c) ∗ Rr c)
  post c := iprop(StableHlo.held (c : Thread nD τ) (Pipeline.ucRefs τ sig) (V12 m (outs m hT) c) ∗ Rr c)
  X c := iprop(∃ r, prngReg c r)
  Y c := iprop(∃ r, prngReg c r)
  Z c := Pipeline.unscopedRest (Ix := Unit) (Name := ℕ) (U := Pipeline.UD sig nD τ) (Lvl := ℕ) spec2 c (Ve11 m c)
  hentry c := by
    rw [V11_outs m hT c]
    rw [Pipeline.ownSems0_none]
    have hsplit := Pipeline.arrays_of_unscopedBufs (p := 2) (pcfgs (F := F)) (adm m) (pdats m hT) (launch2 (F := F)).win (launch2 (F := F)).arr_whole c
      ((pdats m hT 2 c).share_full fun _ => rfl) (Ve11 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hT 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m hT) ((pdats m hT 2 c).share_full fun _ => rfl)
      (Ve11 m c) (fun b => V12 m (outs m hT) c b) ((pdats m hT 2 c).arrAt · cfg2.N) (hF2 m hT c) (hrest2 m hT c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

section R3
variable (hT : TblInRange (tbl m)) (c : Dev nD)

/-- The exit valuation at the region's output array: what the region leaves. -/
theorem V16_at_out (o : Outs (F := F)) : V16 m o c main_v78 = o 16 main_v78 c := Function.update_self ..
/-- The exit valuation off the output array: the valuation the proof data live at. -/
theorem V16_in (r : Ref sig .tc) (h : r ∉ ([main_v78] : List (Ref sig .tc))) : V16 m (outs m hT) c r = Ve15 m c r :=
  (V16_of m (outs m hT) c r h).trans (congrFun (V15_outs m hT c) _)
/-- Each window's array at the exit valuation: an input (main_v76, main_arg10, main_v77) as entered, the output
    (main_v78) at the pipeline's folded write-backs. -/
theorem hF3 : ∀ w : Fin cfg3.W, (dat3 (Ve15 m) c).arrAt w cfg3.N = V16 m (outs m hT) c (Pipeline.arrRef spec3 w)
  | ⟨0, _⟩ => ((dat3 (Ve15 m) c).arrAt_in 0 rfl _).trans ((A_eq3 (Ve15 m) c 0).trans (V16_in m hT c _ (by decide)).symm)
  | ⟨1, _⟩ => ((dat3 (Ve15 m) c).arrAt_in 1 rfl _).trans ((A_eq3 (Ve15 m) c 1).trans (V16_in m hT c _ (by decide)).symm)
  | ⟨2, _⟩ => ((dat3 (Ve15 m) c).arrAt_in 2 rfl _).trans ((A_eq3 (Ve15 m) c 2).trans (V16_in m hT c _ (by decide)).symm)
  | ⟨3, _⟩ => (u5_v78 m hT c).symm.trans (V16_at_out m c (outs m hT)).symm
/-- Every buffer that is no window's array is as entered. -/
theorem hrest3 (b : Ref sig .tc) (hb : b ∉ Finset.univ.image (Pipeline.arrRef spec3)) : V16 m (outs m hT) c b = Ve15 m c b :=
  V16_in m hT c b fun h => hb (Finset.mem_image.mpr ⟨3, Finset.mem_univ _, (List.mem_singleton.mp h).symm⟩)

end R3

-- unifying a library lemma stated over the pinned family with the printed configuration unfolds plain definitions in a
-- metavariable's type
set_option backward.isDefEq.respectTransparency.types false in
/-- REGION 3: the last dense layer, entered from the valuation after the host stretches that follow region 2 and left at that valuation with its output array replaced. Its arrays are split out of the unscoped buffers at entry and put back at the exit
    valuation (the inputs as entered, the output at what the region leaves, every other buffer untouched); the generator
    register passes through the invariant; nothing is owed; the kernel has no semaphore of its own. -/
def reg3 (hT : TblInRange (tbl m)) : Pipeline.RegionSeg (pcfgs (F := F)) (adm m) (pdats m hT) () defs₀ Variants.none Lz lvz 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (Ve15 m) c).loose
  hwaits := Pipeline.hwaits_of_owed_zero _ _ _ _ Lz lvz 3 fun _ _ => rfl
  pre c := iprop(StableHlo.held (c : Thread nD τ) (Pipeline.ucRefs τ sig) (V15 m (outs m hT) c) ∗ Rr c)
  post c := iprop(StableHlo.held (c : Thread nD τ) (Pipeline.ucRefs τ sig) (V16 m (outs m hT) c) ∗ Rr c)
  X c := iprop(∃ r, prngReg c r)
  Y c := iprop(∃ r, prngReg c r)
  Z c := Pipeline.unscopedRest (Ix := Unit) (Name := ℕ) (U := Pipeline.UD sig nD τ) (Lvl := ℕ) spec3 c (Ve15 m c)
  hentry c := by
    rw [V15_outs m hT c]
    rw [Pipeline.ownSems0_none]
    have hsplit := Pipeline.arrays_of_unscopedBufs (p := 3) (pcfgs (F := F)) (adm m) (pdats m hT) (launch3 (F := F)).win (launch3 (F := F)).arr_whole c
      ((pdats m hT 3 c).share_full fun _ => rfl) (Ve15 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m hT 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m hT) ((pdats m hT 3 c).share_full fun _ => rfl)
      (Ve15 m c) (fun b => V16 m (outs m hT) c b) ((pdats m hT 3 c).arrAt · cfg3.N) (hF3 m hT c) (hrest3 m hT c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

/-- The unscoped buffers that are no array of region 4's window, at the valuation it is entered from: the index table at the
    launch memory's words, the array the body copies rows of, and the others. -/
theorem unscopedRest4_eq (c : Dev nD) :
    (Pipeline.unscopedRest (Ix := Unit) (Name := ℕ) (U := Pipeline.UD sig nD τ) (Lvl := ℕ) spec4 c (Ve16 m c) : sProp 𝕄)
      = iprop(Pipeline.prefHeld (Ix := Unit) (Name := ℕ) (U := Pipeline.UD sig nD τ) (Lvl := ℕ) pre4 c (fun _ => fullShare) (tbl m)
          ∗ (bigSep H4 fun b => (((c : Thread nD τ)).loc b) ↦{fullShare} Ve16 m c b)
          ∗ bigSep (Pipeline.restRefsP sig pre4 spec4 \ H4) fun b => (((c : Thread nD τ)).loc b) ↦{fullShare} Ve16 m c b) := by
  rw [Pipeline.unscopedRest_split preFacts4 c (Ve16 m c),
    show (fun k => Ve16 m c (pre4.ref k)) = tbl m from funext fun k => V16_tbl m _ c k,
    Pipeline.unscopedRestP_sdiff pre4 spec4 H4 H4_sub c (Ve16 m c)]

-- unifying a library lemma stated over the pinned family with the printed configuration unfolds plain definitions in a
-- metavariable's type
set_option backward.isDefEq.respectTransparency.types false in
/-- REGION 4: the row gather, entered from the valuation region 3 is left at and left at that valuation with its output
    array replaced. At entry the unscoped buffers split into the output window's array, the index table (whose words no
    earlier item wrote: the launch memory's), the array the body copies rows of, and the rest; the table, that array,
    the generator register and the body's own DMA cell at zero make the invariant with the scoped buffers, and come
    back out of it at the last point; at exit everything is put back, the output array at what the region leaves, the
    copied-from array as it was found. Nothing is owed. -/
def reg4 (hT : TblInRange (tbl m)) : Pipeline.RegionSeg (pcfgs (F := F)) (adm m) (pdats m hT) () defs₀ Variants.none Lz lvz 4 where
  win := (launch4 (F := F)).win.to₀
  block_pos := (launch4 (F := F)).block_pos
  stage_whole := (launch4 (F := F)).stage_whole
  K := Fin 1
  osem := osem4
  ho := ownSemFacts4
  hbody c := (body_obligation4 (Ve16 m) (tbl m) hT c).loose
  hwaits := Pipeline.hwaits_of_owed_zero _ _ _ _ Lz lvz 4 fun _ _ => rfl
  pre c := iprop(StableHlo.held (c : Thread nD τ) (Pipeline.ucRefs τ sig) (V16 m (outs m hT) c) ∗ Rr c)
  post c := iprop(StableHlo.held (c : Thread nD τ) (Pipeline.ucRefs τ sig) (V17 m (outs m hT) c) ∗ Rr c)
  X c := iprop((∃ r, prngReg c r) ∗ Pipeline.ownSems0 (Ix := Unit) (Name := ℕ) (U := Pipeline.UD sig nD τ) (Lvl := ℕ) (Val := Elt F) (τ := τ) osem4 c
    ∗ (bigSep H4 fun b => (((c : Thread nD τ)).loc b) ↦{fullShare} Ve16 m c b))
  Y c := iprop((∃ r, prngReg c r) ∗ (bigSep H4 fun b => (((c : Thread nD τ)).loc b) ↦{fullShare} Ve16 m c b)
    ∗ Pipeline.prefHeld (Ix := Unit) (Name := ℕ) (U := Pipeline.UD sig nD τ) (Lvl := ℕ) pre4 c (fun _ => fullShare) (tbl m))
  Z c := bigSep (Pipeline.restRefsP sig pre4 spec4 \ H4) fun b => (((c : Thread nD τ)).loc b) ↦{fullShare} Ve16 m c b
  hentry c := by
    rw [V16_outs m hT c]
    have hsplit := Pipeline.arrays_of_unscopedBufs (p := 4) (pcfgs (F := F)) (adm m) (pdats m hT) (launch4 (F := F)).win (launch4 (F := F)).arr_whole c
      ((pdats m hT 4 c).share_full fun _ => rfl) (Ve16 m c) (fun _ => rfl)
    rw [Pipeline.unscopedBufs_held] at hsplit
    have hH := unscopedRest4_eq m c
    iintro ⟨⟨Hub, Hp, HO⟩, Hos, -⟩
    ihave H := hsplit $$ Hub
    icases H with ⟨Ha, Hrest⟩
    ihave H' := (Entails.of_eq hH) $$ Hrest
    icases H' with ⟨Htb, HH, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hT 4 c).Φ 0 = Phi4 (Ve16 m) (tbl m) c from rfl]; unfold Phi4; rw [Pipeline.ΦD_eq]
    iintro ⟨⟨Hp, Ho, HH⟩, Htb, Hr⟩
    isplitr [Htb]
    · isplitl [Hr]; · iexact Hr
      isplitl [Hp]; · iexact Hp
      isplitl [Ho]; · iexact Ho
      iexact HH
    iexact Htb
  hout c := by
    rw [show (pdats m hT 4 c).Φ (Fin.last _) = Phi4 (Ve16 m) (tbl m) c from rfl]; unfold Phi4; rw [Pipeline.ΦD_eq]
    iintro ⟨⟨Hr, Hp, Ho, HH⟩, Htb⟩
    isplitl [Hp HH Htb]
    · isplitl [Hp]; · iexact Hp
      isplitl [HH]; · iexact HH
      iexact Htb
    isplitl [Ho]; · iexact Ho
    iexact Hr
  hexit c := by
    -- the output window's array at the exit valuation: what the region leaves
    have hF : ∀ w : Fin (cfg4 (adm4 (tbl m))).W, (pdats m hT 4 c).arrAt w (cfg4 (adm4 (tbl m))).N = (V17 m (outs m hT) c) (Pipeline.arrRef spec4 w) := fun
      | ⟨0, _⟩ => by
        show _ = Function.update (Function.update (V16 m (outs m hT) c) (Proc.devRef .tc main_v79) (outs m hT 17 main_v79 c))
          (Proc.devRef .tc main_v78) (outs m hT 17 main_v78 c) (Proc.devRef .tc main_v79)
        rw [Function.update_of_ne (StableHlo.devRef_ne_of_ne (by decide)), Function.update_self]
        exact (u5_v79 m hT c).symm
    -- every other buffer as entered: the copied-from array by what the region leaves in it, the rest untouched
    have hrest : ∀ b : Ref sig .tc, b ∉ Finset.univ.image (Pipeline.arrRef spec4) → (V17 m (outs m hT) c) b = Ve16 m c b := fun b hb => by
      by_cases h78 : b = main_v78
      · subst h78
        show Function.update (Function.update (V16 m (outs m hT) c) (Proc.devRef .tc main_v79) (outs m hT 17 main_v79 c))
          (Proc.devRef .tc main_v78) (outs m hT 17 main_v78 c) (Proc.devRef .tc main_v78) = _
        rw [Function.update_self, outs_17' m hT c]; exact congrFun (V16_outs m hT c) _
      · refine (V17_of m (outs m hT) c b fun h => ?_).trans (congrFun (V16_outs m hT c) _)
        rcases List.mem_cons.mp h with h | h
        · exact hb (Finset.mem_image.mpr ⟨0, Finset.mem_univ _, h.symm⟩)
        · exact h78 (List.mem_singleton.mp h)
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m hT) ((pdats m hT 4 c).share_full fun _ => rfl)
      (Ve16 m c) (fun b => V17 m (outs m hT) c b) ((pdats m hT 4 c).arrAt · (cfg4 (adm4 (tbl m))).N) hF hrest
    rw [Pipeline.unscopedBufs_held] at hjoin
    have hH := unscopedRest4_eq m c
    iintro ⟨Ha, HO, ⟨HY, HH, Htb⟩, HR⟩
    ihave Hrest := (Entails.of_eq hH.symm) $$ [Htb HH HR]
    · isplitl [Htb]; · iexact Htb
      isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the last valuation names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which unfolds plain definitions
-- in a metavariable's type
set_option backward.isDefEq.respectTransparency.types false in
/-- THE RUN. From a launch memory whose index table holds row numbers of the gathered array, every weakly fair execution
    of the program terminates and the final memory holds every unscoped buffer at the last valuation, the regions'
    outputs at the named contents. The launch funds the pipelines' staging cells from the user algebra's left component;
    each core's generator register and its dues (nothing) ride beside the buffers through every item; the regions are the
    five records above, each entered from and left at the valuations the host stretches are run between. -/
theorem run_all (hT : TblInRange (tbl m)) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V18 m (outs m hT) c b) :=
  run_cond m (Ix := Unit) (U := Pipeline.UD sig nD τ) (Lvl := ℕ) embL () Variants.none Lz lvz (fun _ _ => rfl) ρ (outs m hT) (adm m) (pdats m hT)
    0 (fun _ => iprop(emp))
    (initOf (Pipeline.cells (Pipeline.pin (pcfgs (F := F)) (adm m)) (cellOf_inj (adm m))) (Pipeline.launchToks (Pipeline.pin (pcfgs (F := F)) (adm m)) (cellOf_inj (adm m))), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => Rr c)
    (by
      refine Pipeline.initEach Lz lvz fun c => ?_
      iintro ⟨⟨-, HO, -, Hp, -⟩, -⟩
      imodintro
      isplitl [Hp]; · iexists _; iexact Hp
      iexists ∅; iexact HO)
    (fun c => by iintro ⟨-, HO⟩; iexact HO)
    (reg0 m hT) (fun c => .rfl) (fun c => .rfl)
    (reg1 m hT) (fun c => .rfl) (fun c => .rfl)
    (reg2 m hT) (fun c => .rfl) (fun c => .rfl)
    (reg3 m hT) (fun c => .rfl) (fun c => .rfl)
    (reg4 m hT) (fun c => .rfl) (fun c => .rfl)

/-- The arguments end as launched: no host stretch writes one and no region may change one, so the last valuation at an
    argument walks back to the launch memory. -/
theorem frame_all (hT : TblInRange (tbl m)) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c (Proc.devRef .tc main_arg0) (mem_uc main_arg0 (by decide))).trans (V18_main_arg0 m _ c),
     (h c (Proc.devRef .tc main_arg1) (mem_uc main_arg1 (by decide))).trans (V18_main_arg1 m _ c),
     (h c (Proc.devRef .tc main_arg2) (mem_uc main_arg2 (by decide))).trans (V18_main_arg2 m _ c),
     (h c (Proc.devRef .tc main_arg3) (mem_uc main_arg3 (by decide))).trans (V18_main_arg3 m _ c),
     (h c (Proc.devRef .tc main_arg4) (mem_uc main_arg4 (by decide))).trans (V18_main_arg4 m _ c),
     (h c (Proc.devRef .tc main_arg5) (mem_uc main_arg5 (by decide))).trans (V18_main_arg5 m _ c),
     (h c (Proc.devRef .tc main_arg6) (mem_uc main_arg6 (by decide))).trans (V18_main_arg6 m _ c),
     (h c (Proc.devRef .tc main_arg7) (mem_uc main_arg7 (by decide))).trans (V18_main_arg7 m _ c),
     (h c (Proc.devRef .tc main_arg8) (mem_uc main_arg8 (by decide))).trans (V18_main_arg8 m _ c),
     (h c (Proc.devRef .tc main_arg9) (mem_uc main_arg9 (by decide))).trans (V18_main_arg9 m _ c),
     (h c (Proc.devRef .tc main_arg10) (mem_uc main_arg10 (by decide))).trans (V18_main_arg10 m _ c),
     (h c (Proc.devRef .tc main_arg11) (mem_uc main_arg11 (by decide))).trans (V18_main_arg11 m _ c)⟩) (run_all m hT ρ)

/-- The result buffer ends at the last valuation's contents, beside the arguments as launched. -/
theorem run_val (hT : TblInRange (tbl m)) (ρ : Dev nD → PrngReg) :
    θ_run defs (onTc (τ := τ) (main (F := F))) ⟨m, fun _ => 0, ρ⟩ (fun r => ∀ c : Dev nD,
      r.2.mem ((c.tc : Thread nD τ).loc main_v80) = V18 m (outs m hT) c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c (Proc.devRef .tc main_v80) (mem_uc main_v80 (by decide)),
     (h c (Proc.devRef .tc main_arg0) (mem_uc main_arg0 (by decide))).trans (V18_main_arg0 m _ c),
     (h c (Proc.devRef .tc main_arg1) (mem_uc main_arg1 (by decide))).trans (V18_main_arg1 m _ c),
     (h c (Proc.devRef .tc main_arg2) (mem_uc main_arg2 (by decide))).trans (V18_main_arg2 m _ c),
     (h c (Proc.devRef .tc main_arg3) (mem_uc main_arg3 (by decide))).trans (V18_main_arg3 m _ c),
     (h c (Proc.devRef .tc main_arg4) (mem_uc main_arg4 (by decide))).trans (V18_main_arg4 m _ c),
     (h c (Proc.devRef .tc main_arg5) (mem_uc main_arg5 (by decide))).trans (V18_main_arg5 m _ c),
     (h c (Proc.devRef .tc main_arg6) (mem_uc main_arg6 (by decide))).trans (V18_main_arg6 m _ c),
     (h c (Proc.devRef .tc main_arg7) (mem_uc main_arg7 (by decide))).trans (V18_main_arg7 m _ c),
     (h c (Proc.devRef .tc main_arg8) (mem_uc main_arg8 (by decide))).trans (V18_main_arg8 m _ c),
     (h c (Proc.devRef .tc main_arg9) (mem_uc main_arg9 (by decide))).trans (V18_main_arg9 m _ c),
     (h c (Proc.devRef .tc main_arg10) (mem_uc main_arg10 (by decide))).trans (V18_main_arg10 m _ c),
     (h c (Proc.devRef .tc main_arg11) (mem_uc main_arg11 (by decide))).trans (V18_main_arg11 m _ c)⟩) (run_all m hT ρ)

end Cert.Kernel.Hand

end
-- ==== Proof.Spec.lean ====
/-
  The function both programs compute, as one composition of the host operations, over the extended reals or any
  float family. A graph of 50000 nodes with 800000 weighted edges gets a self-loop of weight 1 on every node
  (850000 edges in all); `deg` sums the weights arriving at each node, `dinv` is its inverse square root where the
  degree is positive and zero elsewhere, and an edge's coefficient `norm` is dinv(source) · weight · dinv(target).
  A layer `agg` takes transformed node features, gathers each edge's source row, scales it by the edge's
  coefficient, sums the rows arriving at each node, adds the bias and clips at zero. The network is an affine
  encoder (10 → 64), two such layers over 64 → 64 linear maps, an affine projection (64 → 128), and the choice of
  4096 rows by index (an index below zero counted from the end).
-/
import proofs.«418828_j78855599555023_1_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-- The edges' target nodes followed by every node (its self-loop). -/
def dstIx (ei : IVec S2x800000 32) : IVec S850000 32 :=
  (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)

/-- The edges' source nodes followed by every node. -/
def srcIx (ei : IVec S2x800000 32) : IVec S850000 32 :=
  (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0)

/-- The edges' weights followed by a one for every self-loop. -/
def wcat (ea : FVec F S800000 .f32) : FVec F S850000 .f32 :=
  (concatenate S850000 0 [⟨S800000, ea⟩, ⟨S50000, (broadcastInDim S50000 ![] bcast_S_S50000 (constant S_ .f32 0x3F800000#32))⟩] concatenates_S800000_S50000_S850000_d0)

/-- A node's degree: the sum of the weights of the edges arriving at it. -/
def deg (ei : IVec S2x800000 32) (ea : FVec F S800000 .f32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dstIx ei)) (wcat ea)

/-- The inverse square root of a positive degree, zero for any other. -/
def dinv (ei : IVec S2x800000 32) (ea : FVec F S800000 .f32) : FVec F S50000 .f32 :=
  (select (cmpf .ogt (deg ei ea) (broadcastInDim S50000 ![] bcast_S_S50000 (constant S_ .f32 0x00000000#32))) (Host.rsqrt (select (cmpf .ogt (deg ei ea) (broadcastInDim S50000 ![] bcast_S_S50000 (constant S_ .f32 0x00000000#32))) (deg ei ea) (broadcastInDim S50000 ![] bcast_S_S50000 (id (constant S_ .f32 0x3F800000#32))))) (broadcastInDim S50000 ![] bcast_S_S50000 (id (constant S_ .f32 0x00000000#32))))

/-- A node index below zero counted from the end. -/
def wrapIx (v : IVec S850000 32) : IVec S850000 32 :=
  (select (cmpi .slt v (broadcastInDim S850000 ![] bcast_S_S850000 (constantI S_ 32 0#32))) (addi v (broadcastInDim S850000 ![] bcast_S_S850000 (constantI S_ 32 50000#32))) v)

/-- An edge's coefficient: dinv(source) · weight · dinv(target). -/
def norm (ei : IVec S2x800000 32) (ea : FVec F S800000 .f32) : FVec F S850000 .f32 :=
  (mulf (mulf (Host.gather gather_S50000_S850000x1_S850000_n_0_n_n_0_1_1 (dinv ei ea) (broadcastInDim S850000x1 ![0] bcast_S850000_S850000x1_0 (wrapIx (srcIx ei)))) (wcat ea)) (Host.gather gather_S50000_S850000x1_S850000_n_0_n_n_0_1_1 (dinv ei ea) (broadcastInDim S850000x1 ![0] bcast_S850000_S850000x1_0 (wrapIx (dstIx ei)))))

/-- One layer's aggregation of transformed features `hw`: per edge the source's row times the edge's coefficient, summed
    at the edge's target, plus the bias, clipped at zero. -/
def agg (hw : FVec F S50000x64 .f32) (ei : IVec S2x800000 32) (ea : FVec F S800000 .f32) (b : FVec F S64 .f32) : FVec F S50000x64 .f32 :=
  maximumf (addf (Host.scatterAdd scatter_S50000x64_S850000x1_S850000x64_1_0_0_1 (broadcastInDim S50000x64 ![] bcast_S_S50000x64 (constant S_ .f32 0x00000000#32)) (broadcastInDim S850000x1 ![0] bcast_S850000_S850000x1_0 (dstIx ei)) (mulf (Host.gather gather_S50000x64_S850000x1_S850000x64_1_0_n_n_0_1_164 hw (broadcastInDim S850000x1 ![0] bcast_S850000_S850000x1_0 (wrapIx (srcIx ei)))) (broadcastInDim S850000x64 ![0, 1] bcast_S850000x1_S850000x64_0_1 (broadcastInDim S850000x1 ![0] bcast_S850000_S850000x1_0 (norm ei ea))))) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- The encoder: x · W + b, row by row. -/
def enc (x : FVec F S50000x10 .f32) (W : FVec F S10x64 .f32) (b : FVec F S64 .f32) : FVec F S50000x64 .f32 :=
  addf (Host.dotGeneral dot_S50000x10_S10x64_S50000x64_1_0_0_1_n_n none x W) (broadcastInDim S50000x64 ![0, 1] bcast_S1x64_S50000x64_0_1 (broadcastInDim S1x64 ![1] bcast_S64_S1x64_1 b))

/-- A layer's linear map: h · W. -/
def lin (h : FVec F S50000x64 .f32) (W : FVec F S64x64 .f32) : FVec F S50000x64 .f32 :=
  Host.dotGeneral dot_S50000x64_S64x64_S50000x64_1_0_0_1_n_n none h W

/-- The output projection: h · W + b. -/
def proj (h : FVec F S50000x64 .f32) (W : FVec F S64x128 .f32) (b : FVec F S128 .f32) : FVec F S50000x128 .f32 :=
  addf (Host.dotGeneral dot_S50000x64_S64x128_S50000x128_1_0_0_1_n_n none h W) (broadcastInDim S50000x128 ![0, 1] bcast_S1x128_S50000x128_0_1 (broadcastInDim S1x128 ![1] bcast_S128_S1x128_1 b))

/-- The 4096 chosen rows. -/
def pick (o : FVec F S50000x128 .f32) (idx : IVec S4096 32) : FVec F S4096x128 .f32 :=
  Host.gather gather_S50000x128_S4096x1_S4096x128_1_0_n_n_0_1_1128 o (broadcastInDim S4096x1 ![0] bcast_S4096_S4096x1_0 (select (cmpi .slt idx (broadcastInDim S4096 ![] bcast_S_S4096 (constantI S_ 32 0#32))) (addi idx (broadcastInDim S4096 ![] bcast_S_S4096 (constantI S_ 32 50000#32))) idx))

/-- The node features after the two layers. -/
def hidden (x : FVec F S50000x10 .f32) (ei : IVec S2x800000 32) (ea : FVec F S800000 .f32) (We : FVec F S10x64 .f32) (be : FVec F S64 .f32)
    (W1 : FVec F S64x64 .f32) (b1 : FVec F S64 .f32) (W2 : FVec F S64x64 .f32) (b2 : FVec F S64 .f32) : FVec F S50000x64 .f32 :=
  agg (lin (agg (lin (enc x We be) W1) ei ea b1) W2) ei ea b2

/-- The whole network. -/
def net (x : FVec F S50000x10 .f32) (ei : IVec S2x800000 32) (ea : FVec F S800000 .f32) (idx : IVec S4096 32) (We : FVec F S10x64 .f32) (be : FVec F S64 .f32)
    (W1 : FVec F S64x64 .f32) (b1 : FVec F S64 .f32) (W2 : FVec F S64x64 .f32) (b2 : FVec F S64 .f32) (Wo : FVec F S64x128 .f32) (bo : FVec F S128 .f32) : FVec F S4096x128 .f32 :=
  pick (proj (hidden x ei ea We be W1 b1 W2 b2) Wo bo) idx

end Cert.Spec

end
-- ==== Proof.KI.HostChain.lean ====
/- The host stretches of the program between its kernel regions, read as compositions of the operations they apply.
   A graph of 50000 nodes with 800000 weighted edges gets a self-loop on every node; the first stretches compute the
   edges' source and target indices, the weights, the degrees, their inverse square roots and each edge's coefficient
   (source's inverse root · weight · target's inverse root); each later stretch takes the transformed node features a
   kernel region left, gathers each edge's source row, scales it by the edge's coefficient, sums the rows arriving at
   each node, adds the bias and clips at zero. Every stretch is first read over an ARBITRARY valuation `W` of the
   buffers it starts from (one lemma per buffer a later stretch or region reads), then the valuations between the
   program's items are read through those lemmas: a buffer no stretch in between writes keeps its contents, and a
   region changes only the buffer holding its output. -/
import proofs.«418828_j78855599555023_1_alg».proof.Proof.Gen.KernelIdeal.Regions
import proofs.«418828_j78855599555023_1_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 4096

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable {F : FTy → Type} [FloatOps F]

/-- A layer's aggregation before the clip, from the transformed features `hw`, the edges' source and target nodes,
    their coefficients and the bias: per edge the source's row (an index below zero counted from the end) times the
    edge's coefficient, summed at the edge's target, plus the bias on every row. -/
def preClip (hw : FVec F S50000x64 .f32) (src dst : IVec S850000 32) (nrm : FVec F S850000 .f32) (b : FVec F S64 .f32) : FVec F S50000x64 .f32 :=
  addf (Host.scatterAdd scatter_S50000x64_S850000x1_S850000x64_1_0_0_1
      (broadcastInDim S50000x64 ![] bcast_S_S50000x64 (constant S_ .f32 0x00000000#32))
      (broadcastInDim S850000x1 ![0] bcast_S850000_S850000x1_0 dst)
      (mulf (Host.gather gather_S50000x64_S850000x1_S850000x64_1_0_n_n_0_1_164 hw
          (broadcastInDim S850000x1 ![0] bcast_S850000_S850000x1_0 (Cert.Spec.wrapIx src)))
        (broadcastInDim S850000x64 ![0, 1] bcast_S850000x1_S850000x64_0_1
          (broadcastInDim S850000x1 ![0] bcast_S850000_S850000x1_0 nrm))))
    (broadcastInDim S50000x64 ![0, 1] bcast_S1x64_S50000x64_0_1 (broadcastInDim S1x64 ![1] bcast_S64_S1x64_1 b))

/-- Clipped at zero, over the reference's own indices and coefficients, it is the reference's layer. -/
theorem clip_preClip (hw : FVec F S50000x64 .f32) (ei : IVec S2x800000 32) (ea : FVec F S800000 .f32) (b : FVec F S64 .f32) :
    maximumf (preClip hw (Cert.Spec.srcIx ei) (Cert.Spec.dstIx ei) (Cert.Spec.norm ei ea) b)
        (broadcastInDim S50000x64 ![] bcast_S_S50000x64 (constant S_ .f32 0x00000000#32))
      = Cert.Spec.agg hw ei ea b := rfl

/-! # Each stretch over an arbitrary valuation -/

section Stretches
variable (W : Valuation τ sig (Elt F))

/-! ## Before region 0: the encoder's bias as a row -/

theorem s0_v0 : (after hostOps0 W main_v0 : FVec F S1x64 .f32) = shapeCast S1x64 (W main_arg5 : FVec F S64 .f32) shapeCasts_S64_S1x64 := by
  after_results; rfl

/-! ## After region 0: indices, weights, degrees -/

/-- The edges' source nodes followed by every node. -/
theorem s1_v7 : (after hostOps1 W main_v7 : IVec S850000 32) = Cert.Spec.srcIx (W main_arg1 : IVec S2x800000 32) := by
  after_results; rfl
/-- The edges' target nodes followed by every node. -/
theorem s1_v8 : (after hostOps1 W main_v8 : IVec S850000 32) = Cert.Spec.dstIx (W main_arg1 : IVec S2x800000 32) := by
  after_results; rfl
/-- The edges' weights followed by a one per self-loop. -/
theorem s1_v10 : (after hostOps1 W main_v10 : FVec F S850000 .f32) = Cert.Spec.wcat (W main_arg2 : FVec F S800000 .f32) := by
  after_results; rfl
/-- The degrees: the weights summed at the targets. -/
theorem s1_v13 : (after hostOps1 W main_v13 : FVec F S50000 .f32)
    = Cert.Spec.deg (W main_arg1 : IVec S2x800000 32) (W main_arg2 : FVec F S800000 .f32) := by
  after_results; rfl
/-- Where the degree is positive (computed twice by the program, for its two selections). -/
theorem s1_v15 : (after hostOps1 W main_v15 : IVec S50000 1)
    = cmpf .ogt (Cert.Spec.deg (W main_arg1 : IVec S2x800000 32) (W main_arg2 : FVec F S800000 .f32))
        (broadcastInDim S50000 ![] bcast_S_S50000 (constant S_ .f32 0x00000000#32)) := by
  after_results; rfl
theorem s1_v17 : (after hostOps1 W main_v17 : IVec S50000 1)
    = cmpf .ogt (Cert.Spec.deg (W main_arg1 : IVec S2x800000 32) (W main_arg2 : FVec F S800000 .f32))
        (broadcastInDim S50000 ![] bcast_S_S50000 (constant S_ .f32 0x00000000#32)) := by
  after_results; rfl
/-- The one the first selection falls back to. -/
theorem s1_cst3 : (after hostOps1 W main_cst_3 : FVec F S_ .f32) = constant S_ .f32 0x3F800000#32 := by
  after_results <;> rfl

/-! ## The first selection: the degree where positive, one elsewhere -/

theorem s11_v18 : (after hostOps1_1 W main_v18 : FVec F S50000 .f32)
    = select (W main_v17 : IVec S50000 1) (W main_v13 : FVec F S50000 .f32)
        (broadcastInDim S50000 ![] bcast_S_S50000 (id (W main_cst_3 : FVec F S_ .f32))) := by
  after_results; rfl

/-! ## Its inverse square root, and the zero the second selection falls back to -/

theorem s12_v19 : (after hostOps1_2 W main_v19 : FVec F S50000 .f32) = Host.rsqrt (W main_v18 : FVec F S50000 .f32) := by
  after_results <;> rfl
theorem s12_cst4 : (after hostOps1_2 W main_cst_4 : FVec F S_ .f32) = constant S_ .f32 0x00000000#32 := by
  after_results <;> rfl

/-! ## The second selection: the inverse root where the degree is positive, zero elsewhere -/

theorem s13_v20 : (after hostOps1_3 W main_v20 : FVec F S50000 .f32)
    = select (W main_v15 : IVec S50000 1) (W main_v19 : FVec F S50000 .f32)
        (broadcastInDim S50000 ![] bcast_S_S50000 (id (W main_cst_4 : FVec F S_ .f32))) := by
  after_results; rfl

/-! ## The edges' coefficients, and the first layer's zero bias row -/

/-- An edge's coefficient: the inverse root at its source (an index below zero counted from the end) times its
    weight times the inverse root at its target. -/
theorem s14_v36 : (after hostOps1_4 W main_v36 : FVec F S850000 .f32)
    = mulf (mulf (Host.gather gather_S50000_S850000x1_S850000_n_0_n_n_0_1_1 (W main_v20 : FVec F S50000 .f32)
          (broadcastInDim S850000x1 ![0] bcast_S850000_S850000x1_0 (Cert.Spec.wrapIx (W main_v7 : IVec S850000 32))))
        (W main_v10 : FVec F S850000 .f32))
      (Host.gather gather_S50000_S850000x1_S850000_n_0_n_n_0_1_1 (W main_v20 : FVec F S50000 .f32)
        (broadcastInDim S850000x1 ![0] bcast_S850000_S850000x1_0 (Cert.Spec.wrapIx (W main_v8 : IVec S850000 32)))) := by
  after_results_simp <;> rfl
theorem s14_v38 : (after hostOps1_4 W main_v38 : FVec F S1x64 .f32)
    = shapeCast S1x64 (broadcastInDim S64 ![] bcast_S_S64 (constant S_ .f32 0x00000000#32) : FVec F S64 .f32) shapeCasts_S64_S1x64 := by
  after_results_simp <;> rfl

/-! ## A layer's aggregation, before the clip -/

/-- Per edge the source's row of the features region 1 left times the edge's coefficient, summed at the edge's
    target, plus the bias. -/
theorem s2_v55 : (after hostOps2 W main_v55 : FVec F S50000x64 .f32)
    = preClip (W main_v39 : FVec F S50000x64 .f32) (W main_v7 : IVec S850000 32) (W main_v8 : IVec S850000 32)
        (W main_v36 : FVec F S850000 .f32) (W main_arg7 : FVec F S64 .f32) := by
  after_results_simp <;> rfl

/-- The clip at zero. -/
theorem s21_v56 : (after hostOps2_1 W main_v56 : FVec F S50000x64 .f32)
    = maximumf (W main_v55 : FVec F S50000x64 .f32) (broadcastInDim S50000x64 ![] bcast_S_S50000x64 (constant S_ .f32 0x00000000#32)) := by
  after_results; rfl

/-- The second layer's zero bias row. -/
theorem s22_v58 : (after hostOps2_2 W main_v58 : FVec F S1x64 .f32)
    = shapeCast S1x64 (broadcastInDim S64 ![] bcast_S_S64 (constant S_ .f32 0x00000000#32) : FVec F S64 .f32) shapeCasts_S64_S1x64 := by
  after_results; rfl

/-- The same aggregation over the features region 2 left. -/
theorem s3_v75 : (after hostOps3 W main_v75 : FVec F S50000x64 .f32)
    = preClip (W main_v59 : FVec F S50000x64 .f32) (W main_v7 : IVec S850000 32) (W main_v8 : IVec S850000 32)
        (W main_v36 : FVec F S850000 .f32) (W main_arg9 : FVec F S64 .f32) := by
  after_results_simp <;> rfl

theorem s31_v76 : (after hostOps3_1 W main_v76 : FVec F S50000x64 .f32)
    = maximumf (W main_v75 : FVec F S50000x64 .f32) (broadcastInDim S50000x64 ![] bcast_S_S50000x64 (constant S_ .f32 0x00000000#32)) := by
  after_results; rfl

/-- The projection's bias as a row. -/
theorem s32_v77 : (after hostOps3_2 W main_v77 : FVec F S1x128 .f32) = shapeCast S1x128 (W main_arg11 : FVec F S128 .f32) shapeCasts_S128_S1x128 := by
  after_results; rfl

/-- The chosen rows with their unit axis dropped. -/
theorem s5_v80 : (after hostOps5 W main_v80 : FVec F S4096x128 .f32)
    = shapeCast S4096x128 (W main_v79 : FVec F S4096x1x128 .f32) shapeCasts_S4096x1x128_S4096x128 := by
  after_results; rfl

end Stretches

/-! # The valuations between the program's items -/

section Valuations
variable (m : (ℓ : Loc nD τ sig) → Buf (Elt F) ℓ) (outs : Outs (F := F)) (c : Dev nD)

/-- The edge list as launched: row 0 the sources, row 1 the targets. -/
abbrev eiOf : IVec S2x800000 32 := m ((c : Thread nD τ).loc main_arg1)
/-- The edge weights as launched. -/
abbrev eaOf : FVec F S800000 .f32 := m ((c : Thread nD τ).loc main_arg2)

/-! ## Region 0's entry -/

/-- The encoder's bias as a 1 × 64 row. -/
theorem V1_v0 : (V1 m c main_v0 : FVec F S1x64 .f32)
    = shapeCast S1x64 (m ((c : Thread nD τ).loc main_arg5) : FVec F S64 .f32) shapeCasts_S64_S1x64 := s0_v0 (V0 m c)
theorem V1_v0_at (j : Fin 64) : (V1 m c main_v0 : FVec F S1x64 .f32) (ix2 (0 : Fin 1) j)
    = (m ((c : Thread nD τ).loc main_arg5) : FVec F S64 .f32) (ix1 j) :=
  (congrFun (V1_v0 m c) _).trans (shapeCast_a_1a_apply _ _ 0 j)
theorem V1_arg0 : V1 m c main_arg0 = m ((c : Thread nD τ).loc main_arg0) := V1_of m c main_arg0 (by decide)
theorem V1_arg4 : V1 m c main_arg4 = m ((c : Thread nD τ).loc main_arg4) := V1_of m c main_arg4 (by decide)

/-! ## From region 0 to region 1: the graph's indices, degrees and coefficients -/

theorem V2_arg1 : (V2 m outs c main_arg1 : IVec S2x800000 32) = eiOf m c := (V2_of m outs c main_arg1 (by decide)).trans <| (V1_of m c main_arg1 (by decide))
theorem V2_arg2 : (V2 m outs c main_arg2 : FVec F S800000 .f32) = eaOf m c := (V2_of m outs c main_arg2 (by decide)).trans <| (V1_of m c main_arg2 (by decide))

theorem V3_v7 : (V3 m outs c main_v7 : IVec S850000 32) = Cert.Spec.srcIx (eiOf m c) :=
  (s1_v7 (V2 m outs c)).trans (congrArg Cert.Spec.srcIx (V2_arg1 m outs c))
theorem V3_v8 : (V3 m outs c main_v8 : IVec S850000 32) = Cert.Spec.dstIx (eiOf m c) :=
  (s1_v8 (V2 m outs c)).trans (congrArg Cert.Spec.dstIx (V2_arg1 m outs c))
theorem V3_v10 : (V3 m outs c main_v10 : FVec F S850000 .f32) = Cert.Spec.wcat (eaOf m c) :=
  (s1_v10 (V2 m outs c)).trans (congrArg Cert.Spec.wcat (V2_arg2 m outs c))
theorem V3_v13 : (V3 m outs c main_v13 : FVec F S50000 .f32) = Cert.Spec.deg (eiOf m c) (eaOf m c) :=
  (s1_v13 (V2 m outs c)).trans (congrArg₂ Cert.Spec.deg (V2_arg1 m outs c) (V2_arg2 m outs c))
theorem V3_v15 : (V3 m outs c main_v15 : IVec S50000 1) = cmpf .ogt (Cert.Spec.deg (eiOf m c) (eaOf m c)) (broadcastInDim S50000 ![] bcast_S_S50000 (constant S_ .f32 0x00000000#32)) :=
  (s1_v15 (V2 m outs c)).trans (by rw [V2_arg1 m outs c, V2_arg2 m outs c])
theorem V3_v17 : (V3 m outs c main_v17 : IVec S50000 1) = cmpf .ogt (Cert.Spec.deg (eiOf m c) (eaOf m c)) (broadcastInDim S50000 ![] bcast_S_S50000 (constant S_ .f32 0x00000000#32)) :=
  (s1_v17 (V2 m outs c)).trans (by rw [V2_arg1 m outs c, V2_arg2 m outs c])
theorem V3_cst3 : (V3 m outs c main_cst_3 : FVec F S_ .f32) = constant S_ .f32 0x3F800000#32 := s1_cst3 (V2 m outs c)

/-- The degree where positive, one elsewhere. -/
theorem V4_v18 : (V4 m outs c main_v18 : FVec F S50000 .f32)
    = select (cmpf .ogt (Cert.Spec.deg (eiOf m c) (eaOf m c)) (broadcastInDim S50000 ![] bcast_S_S50000 (constant S_ .f32 0x00000000#32))) (Cert.Spec.deg (eiOf m c) (eaOf m c))
        (broadcastInDim S50000 ![] bcast_S_S50000 (id (constant S_ .f32 0x3F800000#32))) :=
  (s11_v18 (V3 m outs c)).trans (by rw [V3_v17 m outs c, V3_v13 m outs c, V3_cst3 m outs c])

theorem V5_v19 : (V5 m outs c main_v19 : FVec F S50000 .f32)
    = Host.rsqrt (select (cmpf .ogt (Cert.Spec.deg (eiOf m c) (eaOf m c)) (broadcastInDim S50000 ![] bcast_S_S50000 (constant S_ .f32 0x00000000#32))) (Cert.Spec.deg (eiOf m c) (eaOf m c))
        (broadcastInDim S50000 ![] bcast_S_S50000 (id (constant S_ .f32 0x3F800000#32)))) :=
  (s12_v19 (V4 m outs c)).trans (congrArg Host.rsqrt (V4_v18 m outs c))
theorem V5_cst4 : (V5 m outs c main_cst_4 : FVec F S_ .f32) = constant S_ .f32 0x00000000#32 := s12_cst4 (V4 m outs c)
theorem V5_v15 : (V5 m outs c main_v15 : IVec S50000 1) = cmpf .ogt (Cert.Spec.deg (eiOf m c) (eaOf m c)) (broadcastInDim S50000 ![] bcast_S_S50000 (constant S_ .f32 0x00000000#32)) :=
  ((V5_of m outs c main_v15 (by decide)).trans <| (V4_of m outs c main_v15 (by decide))).trans (V3_v15 m outs c)

/-- The inverse square root of a positive degree, zero for any other. -/
theorem V6_v20 : (V6 m outs c main_v20 : FVec F S50000 .f32) = Cert.Spec.dinv (eiOf m c) (eaOf m c) :=
  (s13_v20 (V5 m outs c)).trans (by rw [V5_v15 m outs c, V5_v19 m outs c, V5_cst4 m outs c]; rfl)
theorem V6_v7 : (V6 m outs c main_v7 : IVec S850000 32) = Cert.Spec.srcIx (eiOf m c) :=
  ((V6_of m outs c main_v7 (by decide)).trans <| (V5_of m outs c main_v7 (by decide)).trans <| (V4_of m outs c main_v7 (by decide))).trans (V3_v7 m outs c)
theorem V6_v8 : (V6 m outs c main_v8 : IVec S850000 32) = Cert.Spec.dstIx (eiOf m c) :=
  ((V6_of m outs c main_v8 (by decide)).trans <| (V5_of m outs c main_v8 (by decide)).trans <| (V4_of m outs c main_v8 (by decide))).trans (V3_v8 m outs c)
theorem V6_v10 : (V6 m outs c main_v10 : FVec F S850000 .f32) = Cert.Spec.wcat (eaOf m c) :=
  ((V6_of m outs c main_v10 (by decide)).trans <| (V5_of m outs c main_v10 (by decide)).trans <| (V4_of m outs c main_v10 (by decide))).trans (V3_v10 m outs c)

/-! ## Region 1's entry -/

/-- The edges' coefficients. -/
theorem V7_v36 : (V7 m outs c main_v36 : FVec F S850000 .f32) = Cert.Spec.norm (eiOf m c) (eaOf m c) :=
  (s14_v36 (V6 m outs c)).trans (by rw [V6_v20 m outs c, V6_v7 m outs c, V6_v10 m outs c, V6_v8 m outs c]; rfl)
theorem V7_v7 : (V7 m outs c main_v7 : IVec S850000 32) = Cert.Spec.srcIx (eiOf m c) :=
  ((V7_of m outs c main_v7 (by decide))).trans (V6_v7 m outs c)
theorem V7_v8 : (V7 m outs c main_v8 : IVec S850000 32) = Cert.Spec.dstIx (eiOf m c) :=
  ((V7_of m outs c main_v8 (by decide))).trans (V6_v8 m outs c)
/-- Region 1 reads what region 0 left. -/
theorem V7_v1 : V7 m outs c main_v1 = outs 2 main_v1 c :=
  ((V7_of m outs c main_v1 (by decide)).trans <| (V6_of m outs c main_v1 (by decide)).trans <| (V5_of m outs c main_v1 (by decide)).trans <| (V4_of m outs c main_v1 (by decide)).trans <| (V3_of m outs c main_v1 (by decide))).trans (Function.update_self _ _ _)
theorem V7_arg6 : V7 m outs c main_arg6 = m ((c : Thread nD τ).loc main_arg6) := (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))
/-- The first layer's linear map has a zero bias row. -/
theorem V7_v38 : (V7 m outs c main_v38 : FVec F S1x64 .f32)
    = shapeCast S1x64 (broadcastInDim S64 ![] bcast_S_S64 (constant S_ .f32 0x00000000#32) : FVec F S64 .f32) shapeCasts_S64_S1x64 :=
  s14_v38 (V6 m outs c)
theorem V7_v38_at (j : Fin 64) : (V7 m outs c main_v38 : FVec F S1x64 .f32) (ix2 (0 : Fin 1) j) = (constant S_ .f32 0x00000000#32 : FVec F S_ .f32) ix0 :=
  (congrFun (V7_v38 m outs c) _).trans ((shapeCast_a_1a_apply _ _ 0 j).trans (broadcastInDim_scalar_apply _ _ _))

/-! ## Region 2's entry -/

theorem V8_v39 : V8 m outs c main_v39 = outs 8 main_v39 c := Function.update_self _ _ _
theorem V8_v7 : (V8 m outs c main_v7 : IVec S850000 32) = Cert.Spec.srcIx (eiOf m c) :=
  ((V8_of m outs c main_v7 (by decide))).trans (V7_v7 m outs c)
theorem V8_v8 : (V8 m outs c main_v8 : IVec S850000 32) = Cert.Spec.dstIx (eiOf m c) :=
  ((V8_of m outs c main_v8 (by decide))).trans (V7_v8 m outs c)
theorem V8_v36 : (V8 m outs c main_v36 : FVec F S850000 .f32) = Cert.Spec.norm (eiOf m c) (eaOf m c) :=
  ((V8_of m outs c main_v36 (by decide))).trans (V7_v36 m outs c)
theorem V8_arg7 : V8 m outs c main_arg7 = m ((c : Thread nD τ).loc main_arg7) := (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide))

theorem V9_v55 : (V9 m outs c main_v55 : FVec F S50000x64 .f32)
    = preClip (outs 8 main_v39 c) (Cert.Spec.srcIx (eiOf m c)) (Cert.Spec.dstIx (eiOf m c)) (Cert.Spec.norm (eiOf m c) (eaOf m c))
        (m ((c : Thread nD τ).loc main_arg7)) :=
  (s2_v55 (V8 m outs c)).trans (by rw [V8_v39 m outs c, V8_v7 m outs c, V8_v8 m outs c, V8_v36 m outs c, V8_arg7 m outs c])

/-- Region 2 reads the first layer's aggregation of what region 1 left. -/
theorem V11_v56 : (V11 m outs c main_v56 : FVec F S50000x64 .f32)
    = Cert.Spec.agg (outs 8 main_v39 c) (eiOf m c) (eaOf m c) (m ((c : Thread nD τ).loc main_arg7)) :=
  ((V11_of m outs c main_v56 (by decide))).trans <| (s21_v56 (V9 m outs c)).trans (by rw [V9_v55 m outs c]; exact clip_preClip _ _ _ _)
theorem V11_arg8 : V11 m outs c main_arg8 = m ((c : Thread nD τ).loc main_arg8) := (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide))
/-- The second layer's linear map has a zero bias row. -/
theorem V11_v58 : (V11 m outs c main_v58 : FVec F S1x64 .f32)
    = shapeCast S1x64 (broadcastInDim S64 ![] bcast_S_S64 (constant S_ .f32 0x00000000#32) : FVec F S64 .f32) shapeCasts_S64_S1x64 :=
  s22_v58 (V10 m outs c)
theorem V11_v58_at (j : Fin 64) : (V11 m outs c main_v58 : FVec F S1x64 .f32) (ix2 (0 : Fin 1) j) = (constant S_ .f32 0x00000000#32 : FVec F S_ .f32) ix0 :=
  (congrFun (V11_v58 m outs c) _).trans ((shapeCast_a_1a_apply _ _ 0 j).trans (broadcastInDim_scalar_apply _ _ _))

/-! ## Region 3's entry -/

theorem V12_v59 : V12 m outs c main_v59 = outs 12 main_v59 c := Function.update_self _ _ _
theorem V12_v7 : (V12 m outs c main_v7 : IVec S850000 32) = Cert.Spec.srcIx (eiOf m c) :=
  ((V12_of m outs c main_v7 (by decide)).trans <| (V11_of m outs c main_v7 (by decide)).trans <| (V10_of m outs c main_v7 (by decide)).trans <| (V9_of m outs c main_v7 (by decide)).trans <| (V8_of m outs c main_v7 (by decide))).trans (V7_v7 m outs c)
theorem V12_v8 : (V12 m outs c main_v8 : IVec S850000 32) = Cert.Spec.dstIx (eiOf m c) :=
  ((V12_of m outs c main_v8 (by decide)).trans <| (V11_of m outs c main_v8 (by decide)).trans <| (V10_of m outs c main_v8 (by decide)).trans <| (V9_of m outs c main_v8 (by decide)).trans <| (V8_of m outs c main_v8 (by decide))).trans (V7_v8 m outs c)
theorem V12_v36 : (V12 m outs c main_v36 : FVec F S850000 .f32) = Cert.Spec.norm (eiOf m c) (eaOf m c) :=
  ((V12_of m outs c main_v36 (by decide)).trans <| (V11_of m outs c main_v36 (by decide)).trans <| (V10_of m outs c main_v36 (by decide)).trans <| (V9_of m outs c main_v36 (by decide)).trans <| (V8_of m outs c main_v36 (by decide))).trans (V7_v36 m outs c)
theorem V12_arg9 : V12 m outs c main_arg9 = m ((c : Thread nD τ).loc main_arg9) := (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide))

theorem V13_v75 : (V13 m outs c main_v75 : FVec F S50000x64 .f32)
    = preClip (outs 12 main_v59 c) (Cert.Spec.srcIx (eiOf m c)) (Cert.Spec.dstIx (eiOf m c)) (Cert.Spec.norm (eiOf m c) (eaOf m c))
        (m ((c : Thread nD τ).loc main_arg9)) :=
  (s3_v75 (V12 m outs c)).trans (by rw [V12_v59 m outs c, V12_v7 m outs c, V12_v8 m outs c, V12_v36 m outs c, V12_arg9 m outs c])

/-- Region 3 reads the second layer's aggregation of what region 2 left. -/
theorem V15_v76 : (V15 m outs c main_v76 : FVec F S50000x64 .f32)
    = Cert.Spec.agg (outs 12 main_v59 c) (eiOf m c) (eaOf m c) (m ((c : Thread nD τ).loc main_arg9)) :=
  ((V15_of m outs c main_v76 (by decide))).trans <| (s31_v76 (V13 m outs c)).trans (by rw [V13_v75 m outs c]; exact clip_preClip _ _ _ _)
theorem V15_arg10 : V15 m outs c main_arg10 = m ((c : Thread nD τ).loc main_arg10) := (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide))
theorem V14_arg11 : V14 m outs c main_arg11 = m ((c : Thread nD τ).loc main_arg11) := (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide))
/-- The projection's bias as a 1 × 128 row. -/
theorem V15_v77 : (V15 m outs c main_v77 : FVec F S1x128 .f32)
    = shapeCast S1x128 (m ((c : Thread nD τ).loc main_arg11) : FVec F S128 .f32) shapeCasts_S128_S1x128 :=
  (s32_v77 (V14 m outs c)).trans (by rw [V14_arg11 m outs c])
theorem V15_v77_at (j : Fin 128) : (V15 m outs c main_v77 : FVec F S1x128 .f32) (ix2 (0 : Fin 1) j)
    = (m ((c : Thread nD τ).loc main_arg11) : FVec F S128 .f32) (ix1 j) :=
  (congrFun (V15_v77 m outs c) _).trans (shapeCast_a_1a_apply _ _ 0 j)

/-! ## Region 4's entry -/

theorem V16_v78 : V16 m outs c main_v78 = outs 16 main_v78 c := Function.update_self _ _ _
theorem V16_arg3 : V16 m outs c main_arg3 = m ((c : Thread nD τ).loc main_arg3) := (V16_of m outs c main_arg3 (by decide)).trans <| (V15_of m outs c main_arg3 (by decide)).trans <| (V14_of m outs c main_arg3 (by decide)).trans <| (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide))

/-! ## The end -/

theorem V17_v79 : V17 m outs c main_v79 = outs 17 main_v79 c :=
  (Function.update_of_ne (StableHlo.devRef_ne_of_ne (by decide)) _ _).trans (Function.update_self _ _ _)
/-- The result: the rows region 4 chose, their unit axis dropped. -/
theorem V18_v80 : (V18 m outs c main_v80 : FVec F S4096x128 .f32)
    = shapeCast S4096x128 (outs 17 main_v79 c : FVec F S4096x1x128 .f32) shapeCasts_S4096x1x128_S4096x128 :=
  (s5_v80 (V17 m outs c)).trans (by rw [V17_v79 m outs c])
theorem V18_v80_at (i : Fin 4096) (j : Fin 128) : (V18 m outs c main_v80 : FVec F S4096x128 .f32) (ix2 i j)
    = (outs 17 main_v79 c : FVec F S4096x1x128 .f32) (ix3 i (0 : Fin 1) j) :=
  (congrFun (V18_v80 m outs c) _).trans (Idealize.ShloMosaic.shapeCast_apply _ _ _ _ (by
    show ((⟨3, ![4096, 1, 128]⟩ : Shape).rowMajor (ix3 i (0 : Fin 1) j)).val = ((⟨2, ![4096, 128]⟩ : Shape).rowMajor (ix2 i j)).val
    rw [Shape.rowMajor_val_three, Shape.rowMajor_val_two]
    show (i.val * 1 + 0) * 128 + j.val = i.val * 128 + j.val
    omega))

end Valuations

end Cert.KernelIdeal.Hand

end
-- ==== Proof.KI.Dense0.lean ====
/- Region 0 of the program's @main — the dense kernel `cc0__dense_kernel` (the x block S5000x10 and the whole
   weights S10x64, both rounded to bf16, multiplied into zero; the bias row S1x64 broadcast over the rows and
   added; the S5000x64 block stored) — at a PARAMETER `V`, the core's buffer contents when the region is entered:
   each window's block at a point, what the body leaves in the output window's buffer, the body's triple, the
   pipeline's proof data over the invariant `ΦA` at the user algebra `UD`, and its body obligation. -/
import proofs.«418828_j78855599555023_1_alg».proof.Proof.Gen.KernelIdeal.Launch
import proofs.«418828_j78855599555023_1_alg».proof.Proof.Gen.KernelIdeal.Skeleton
import proofs.«418828_j78855599555023_1_alg».proof.Proof.Gen.KernelIdeal.Points
import Idealize.ShloMosaic.Lib.Pipeline.FrameBody
import Idealize.ShloMosaic.Lib.Tactic

-- membership in a rectangle of extents in the thousands: the structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current staging buffer holds its block at every point (it is fetched at every point; the
    window is uncut and never idle), for any proof data whose array is `V`'s and whose body leaves the block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds the whole weight array at every point: fetched at the first point, and at a later
    point its block index has not moved, so the buffer still holds the same block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window holds the whole bias row at every point, by the same argument. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S5000x10 := Rect.unit (s := S5000x10) ![0, 0] S5000x10.size inb_S5000x10_S5000x10_0_0
abbrev r0_w : Rect S10x64 := Rect.unit (s := S10x64) ![0, 0] S10x64.size inb_S10x64_S10x64_0_0
abbrev r0_b : Rect S1x64 := Rect.unit (s := S1x64) ![0, 0] S1x64.size inb_S1x64_S1x64_0_0
abbrev r0_out : Rect S5000x64 := Rect.unit (s := S5000x64) ![0, 0] S5000x64.size inb_S5000x64_S5000x64_0_0

/-! ## What the body leaves in the output window's buffer -/

/-- The output window's staging buffer after the body, from the input windows' blocks: its one store, of
    `bf16(x) · bf16(W) + 0` plus the bias row broadcast down the rows, over the whole buffer. -/
def out0_3 (x0 : Vec F S5000x10 .f32) (x1 : Vec F S10x64 .f32) (x2 : Vec F S1x64 .f32) : Vec F S5000x64 .f32 :=
  View.canon [⟨r0_out, k0_pay1 (View.ld x0 r0_x) (View.ld x1 r0_w) (View.ld x2 r0_b)⟩]

/-- The one store is the whole buffer, so it covers it (checked by evaluation). -/
theorem cover0_3 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

/-! ## The body's triple -/

set_option maxHeartbeats 1000000 in
/-- The kernel body on whole staging memrefs, the three inputs' at read contents `x0 x1 x2` and the output's at
    anything, runs to the continuation holding the inputs' as they were and the output's at `out0_3` of them: three
    loads of whole buffers, a load of the output buffer whose value is unused, and the store. -/
theorem sound_kernel0 (c : Dev nD) (E : Set ℕ) (i : grid0.Coords)
    (arg1 : Memref sig .tc .vmem S5000x10 .f32) (harg1 : arg1.IsWhole) (arg2 : Memref sig .tc .vmem S10x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x10 .f32) (x1 : Vec F S10x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region's pipeline on core `c`: the arrays as the region finds them (`V`); after the body
    at point `t` each input's buffer at its block and the output's at `out0_3` of the input blocks; the invariant
    `ΦA` (the scoped rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Dense1.lean ====
/- Region 1 of the program's @main — the dense kernel `cc1__dense_kernel` (the x block S5000x64 and the whole
   weights S64x64, both rounded to bf16, multiplied into zero; the bias row S1x64 broadcast over the rows and
   added; the S5000x64 block stored) — at a PARAMETER `V`, the core's buffer contents when the region is entered:
   each window's block at a point, what the body leaves in the output window's buffer, the body's triple, the
   pipeline's proof data over the invariant `ΦA` at the user algebra `UD`, and its body obligation. -/
import proofs.«418828_j78855599555023_1_alg».proof.Proof.Gen.KernelIdeal.Launch
import proofs.«418828_j78855599555023_1_alg».proof.Proof.Gen.KernelIdeal.Skeleton
import proofs.«418828_j78855599555023_1_alg».proof.Proof.Gen.KernelIdeal.Points
import Idealize.ShloMosaic.Lib.Pipeline.FrameBody
import Idealize.ShloMosaic.Lib.Tactic

-- membership in a rectangle of extents in the thousands: the structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's current staging buffer holds its block at every point (it is fetched at every point; the
    window is uncut and never idle), for any proof data whose array is `V`'s and whose body leaves the block. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window holds the whole weight array at every point: fetched at the first point, and at a later
    point its block index has not moved, so the buffer still holds the same block. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window holds the whole bias row at every point, by the same argument. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_x : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_out : Rect S5000x64 := Rect.unit (s := S5000x64) ![0, 0] S5000x64.size inb_S5000x64_S5000x64_0_0

/-! ## What the body leaves in the output window's buffer -/

/-- The output window's staging buffer after the body, from the input windows' blocks: its one store, of
    `bf16(x) · bf16(W) + 0` plus the bias row broadcast down the rows, over the whole buffer. -/
def out1_3 (x0 : Vec F S5000x64 .f32) (x1 : Vec F S64x64 .f32) (x2 : Vec F S1x64 .f32) : Vec F S5000x64 .f32 :=
  View.canon [⟨r1_out, k1_pay1 (View.ld x0 r1_x) (View.ld x1 r1_w) (View.ld x2 r1_b)⟩]

/-- The one store is the whole buffer, so it covers it (checked by evaluation). -/
theorem cover1_3 (p0 : Vec F S5000x64 .f32) (y : S5000x64.Idx) :
    ∃ pc ∈ ([⟨r1_out, p0⟩] : List (View.Piece (Elt F) S5000x64 .f32)), y ∈ pc.1.set :=
  View.cover_of_tiled [⟨r1_out, p0⟩] S5000x64.size (by rfl) y

/-! ## The body's triple -/

set_option maxHeartbeats 1000000 in
/-- The kernel body on whole staging memrefs, the three inputs' at read contents `x0 x1 x2` and the output's at
    anything, runs to the continuation holding the inputs' as they were and the output's at `out1_3` of them: three
    loads of whole buffers, a load of the output buffer whose value is unused, and the store. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region's pipeline on core `c`: the arrays as the region finds them (`V`); after the body
    at point `t` each input's buffer at its block and the output's at `out1_3` of the input blocks; the invariant
    `ΦA` (the scoped rest and the generator register, untouched); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Dense2.lean ====
/- Region 2 of the program's @main — the dense kernel `cc2__dense_kernel` (the x block S5000x64 and the whole
   weights S64x64, both rounded to bf16, multiplied into zero; the bias row S1x64 broadcast over the rows and
   added; the S5000x64 block stored) — at a PARAMETER `V`, the core's buffer contents when the region is entered:
   each window's block at a point, what the body leaves in the output window's buffer, the body's triple, the
   pipeline's proof data over the invariant `ΦA` at the user algebra `UD`, and its body obligation. -/
import proofs.«418828_j78855599555023_1_alg».proof.Proof.Gen.KernelIdeal.Launch
import proofs.«418828_j78855599555023_1_alg».proof.Proof.Gen.KernelIdeal.Skeleton
import proofs.«418828_j78855599555023_1_alg».proof.Proof.Gen.KernelIdeal.Points
import Idealize.ShloMosaic.Lib.Pipeline.FrameBody
import Idealize.ShloMosaic.Lib.Tactic

-- membership in a rectangle of extents in the thousands: the structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region2
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x window's current staging buffer holds its block at every point (it is fetched at every point; the
    window is uncut and never idle), for any proof data whose array is `V`'s and whose body leaves the block. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' window holds the whole weight array at every point: fetched at the first point, and at a later
    point its block index has not moved, so the buffer still holds the same block. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window holds the whole bias row at every point, by the same argument. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_x : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_out : Rect S5000x64 := Rect.unit (s := S5000x64) ![0, 0] S5000x64.size inb_S5000x64_S5000x64_0_0

/-! ## What the body leaves in the output window's buffer -/

/-- The output window's staging buffer after the body, from the input windows' blocks: its one store, of
    `bf16(x) · bf16(W) + 0` plus the bias row broadcast down the rows, over the whole buffer. -/
def out2_3 (x0 : Vec F S5000x64 .f32) (x1 : Vec F S64x64 .f32) (x2 : Vec F S1x64 .f32) : Vec F S5000x64 .f32 :=
  View.canon [⟨r2_out, k2_pay1 (View.ld x0 r2_x) (View.ld x1 r2_w) (View.ld x2 r2_b)⟩]

/-- The one store is the whole buffer, so it covers it (checked by evaluation). -/
theorem cover2_3 (p0 : Vec F S5000x64 .f32) (y : S5000x64.Idx) :
    ∃ pc ∈ ([⟨r2_out, p0⟩] : List (View.Piece (Elt F) S5000x64 .f32)), y ∈ pc.1.set :=
  View.cover_of_tiled [⟨r2_out, p0⟩] S5000x64.size (by rfl) y

/-! ## The body's triple -/

set_option maxHeartbeats 1000000 in
/-- The kernel body on whole staging memrefs, the three inputs' at read contents `x0 x1 x2` and the output's at
    anything, runs to the continuation holding the inputs' as they were and the output's at `out2_3` of them: three
    loads of whole buffers, a load of the output buffer whose value is unused, and the store. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this region's pipeline on core `c`: the arrays as the region finds them (`V`); after the body
    at point `t` each input's buffer at its block and the output's at `out2_3` of the input blocks; the invariant
    `ΦA` (the scoped rest and the generator register, untouched); nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Dense3.lean ====
/- Region 3 of the program's @main — the dense kernel `cc3__dense_kernel` (the x block S5000x64 and the whole
   weights S64x128, both rounded to bf16, multiplied into zero; the bias row S1x128 broadcast over the rows and
   added; the S5000x128 block stored) — at a PARAMETER `V`, the core's buffer contents when the region is entered:
   each window's block at a point, what the body leaves in the output window's buffer, the body's triple, the
   pipeline's proof data over the invariant `ΦA` at the user algebra `UD`, and its body obligation. -/
import proofs.«418828_j78855599555023_1_alg».proof.Proof.Gen.KernelIdeal.Launch
import proofs.«418828_j78855599555023_1_alg».proof.Proof.Gen.KernelIdeal.Skeleton
import proofs.«418828_j78855599555023_1_alg».proof.Proof.Gen.KernelIdeal.Points
import Idealize.ShloMosaic.Lib.Pipeline.FrameBody
import Idealize.ShloMosaic.Lib.Tactic

-- membership in a rectangle of extents in the thousands: the structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Region3
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The x window's current staging buffer holds its block at every point (it is fetched at every point; the
    window is uncut and never idle), for any proof data whose array is `V`'s and whose body leaves the block. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' window holds the whole weight array at every point: fetched at the first point, and at a later
    point its block index has not moved, so the buffer still holds the same block. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias window holds the whole bias row at every point, by the same argument. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_x : Rect S5000x64 := Rect.unit (s := S5000x64) ![0, 0] S5000x64.size inb_S5000x64_S5000x64_0_0
abbrev r3_w : Rect S64x128 := Rect.unit (s := S64x128) ![0, 0] S64x128.size inb_S64x128_S64x128_0_0
abbrev r3_b : Rect S1x128 := Rect.unit (s := S1x128) ![0, 0] S1x128.size inb_S1x128_S1x128_0_0
abbrev r3_out : Rect S5000x128 := Rect.unit (s := S5000x128) ![0, 0] S5000x128.size inb_S5000x128_S5000x128_0_0

/-! ## What the body leaves in the output window's buffer -/

/-- The output window's staging buffer after the body, from the input windows' blocks: its one store, of
    `bf16(x) · bf16(W) + 0` plus the bias row broadcast down the rows, over the whole buffer. -/
def out3_3 (x0 : Vec F S5000x64 .f32) (x1 : Vec F S64x128 .f32) (x2 : Vec F S1x128 .f32) : Vec F S5000x128 .f32 :=
  View.canon [⟨r3_out, k3_pay1 (View.ld x0 r3_x) (View.ld x1 r3_w) (View.ld x2 r3_b)⟩]

/-- The one store is the whole buffer, so it covers it (checked by evaluation). -/
theorem cover3_3 (p0 : Vec F S5000x128 .f32) (y : S5000x128.Idx) :
    ∃ pc ∈ ([⟨r3_out, p0⟩] : List (View.Piece (Elt F) S5000x128 .f32)), y ∈ pc.1.set :=
  View.cover_of_tiled [⟨r3_out, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out3_3` of them: three
    loads of whole buffers, a load of the output buffer whose value is unused, and the store. -/
theorem sound_kernel3 (c : Dev nD) (E : Set ℕ) (i : grid3.Coords)
    (arg1 : Memref sig .tc .vmem S5000x64 .f32) (harg1 : arg1.IsWhole) (arg2 : Memref sig .tc .vmem S64x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this region's pipeline on core `c`: the arrays as the region finds them (`V`); after the body
    at point `t` each input's buffer at its block and the output's at `out3_3` of the input blocks; the invariant
    `ΦA` (the scoped rest and the generator register, untouched); nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Gather4.lean ====
import proofs.«418828_j78855599555023_1_alg».proof.Proof.Gen.KernelIdeal.Launch
import proofs.«418828_j78855599555023_1_alg».proof.Proof.Gen.KernelIdeal.Skeleton
import proofs.«418828_j78855599555023_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region4
variable (V : (c : Dev nD) → (b : Ref sig .tc) → Buf (Elt F) ((c : Thread nD τ).loc b))
variable (tb : pre4.Contents (Elt F))

/-- Every word of the index table is a row number of the 50000-row array. -/
def TblInRange (tb : pre4.Contents (Elt F)) : Prop :=
  ∀ j : S4096.Idx, (tb 0 j : BitVec 32).toNat < 50000

/-- The table's contents as admissible contents of the pipeline (its side condition is trivial: the index map reads no word). -/
abbrev adm4 (tb : pre4.Contents (Elt F)) : (pcfg4 (F := F)).Adm := ⟨tb, trivial⟩

/-- The output window's current staging memref at point `t`, and its wholeness. -/
abbrev ms4_0 (t : Fin (cfg4 (adm4 tb)).N) : Memref sig .tc .vmem S16x1x128 .f32 := spec4_0.stage ((cfg4 (adm4 tb)).slots t 0)
abbrev hs4_0 (t : Fin (cfg4 (adm4 tb)).N) : (ms4_0 tb t).IsWhole := hstage4_0 (((cfg4 (adm4 tb)).slots t 0).cast nbuf4_0)

/-- The table, the array left in HBM and the scratch row as the body is handed them: whole buffers. -/
abbrev tbM4_0 : Memref sig .tc .smem S4096 .i32 := Memref.whole main_arg3
abbrev htbM4_0 : tbM4_0.IsWhole := Memref.isWhole_whole _
abbrev hbM4_0 : Memref sig .tc .hbm S50000x128 .f32 := Memref.whole main_v78
abbrev scM4_0 : Memref sig .tc .vmem S128 .f32 := Memref.whole cc4_scratch0

/-- The kernel body at point `t`, on what the pipeline calls it with. -/
abbrev bodyAt4 (t : Fin (cfg4 (adm4 tb)).N) : Prog (TpuEff nD τ sig (Elt F) Λ₀ .tc) PUnit :=
  cc4__gather_kernel (grid4.coords t) (Memref.whole main_arg3) (Memref.isWhole_whole _) (Memref.whole main_v78) (Memref.isWhole_whole _)
    (spec4_0.stage ((cfg4 (adm4 tb)).slots t 0)) (hstage4_0 (((cfg4 (adm4 tb)).slots t 0).cast nbuf4_0)) (Memref.whole cc4_scratch0) (Memref.isWhole_whole _) cc4_scratch1

/-- A memref's buffer on core `c`: its contents type, and it held whole at `f`. -/
abbrev HbBuf4 (c : Dev nD) {sp : Space} {S : Shape} {e : EltTy} (M : Memref sig .tc sp S e) : Type := Buf (Elt F) (M.view.loc (c : Thread nD τ))
abbrev hbPt4 (c : Dev nD) {sp : Space} {S : Shape} {e : EltTy} (M : Memref sig .tc sp S e) (f : HbBuf4 (F := F) c M) : sProp 𝕄 :=
  M.view.loc (c : Thread nD τ) ↦{fullShare} f

/-- The body's own DMA cell. -/
abbrev osem4 : Fin 1 → SemLoc sig := fun j => (![SemLoc.dma 26] : Fin 1 → SemLoc sig) j
theorem ownSemFacts4 : Pipeline.OwnSemFacts spec4 osem4 := by decide
theorem ownSems04_eq (c : Dev nD) :
    (Pipeline.ownSems0 (Ix := Unit) (Name := ℕ) (U := Pipeline.UD sig nD τ) (Lvl := ℕ) (Val := Elt F) (τ := τ) osem4 c : sProp 𝕄)
      = iprop(semVal ((c : Thread nD τ), SemLoc.dma 26) 0) := by
  rw [Pipeline.ownSems0_eq_of_list c osem4 [0] (by decide) (by decide)]; rfl

/-- The array the body copies rows of: unscoped, no window's array, no table. -/
def H4 : Finset (Ref sig .tc) := {main_v78}
theorem H4_sub : H4 ⊆ Pipeline.restRefsP sig pre4 spec4 := by decide
theorem hbmPts4_eq (c : Dev nD) :
    (bigSep H4 (fun b => ((c : Thread nD τ).loc b) ↦{fullShare} V c b) : sProp 𝕄) = iprop(hbPt4 c hbM4_0 (V c main_v78)) := by
  rw [BI.bigSep_eq_bigSepL_of_eq [main_v78] (by decide) (by decide)]; rfl

/-- The table held whole. -/
theorem prefHeld4_eq (c : Dev nD) :
    (Pipeline.prefHeld (Ix := Unit) (Name := ℕ) (U := Pipeline.UD sig nD τ) (Lvl := ℕ) pre4 c (fun _ => fullShare) tb : sProp 𝕄)
      = iprop(hbPt4 c tbM4_0 (tb 0)) := by
  unfold Pipeline.prefHeld
  rw [show (Finset.univ : Finset (Fin 1)) = {(0 : Fin 1)} from by decide, bigSep_singleton]
  rfl

/-- The region's invariant. -/
def Phi4 (c : Dev nD) : sProp 𝕄 :=
  iprop(Pipeline.ΦD osem4 spec4 H4 V c
    ∗ Pipeline.prefHeld (Ix := Unit) (Name := ℕ) (U := Pipeline.UD sig nD τ) (Lvl := ℕ) pre4 c (fun _ => fullShare) tb)

theorem Phi4_eq (c : Dev nD) :
    (Phi4 V tb c : sProp 𝕄)
      = iprop(iprop(iprop((∃ d, owns (c : Thread nD τ) scM4_0 fullShare d) ∗ Pipeline.scopedRestBut (Ix := Unit) (Name := ℕ) (U := Pipeline.UD sig nD τ) (Lvl := ℕ) (Val := Elt F) spec4 c [cc4_scratch0])
          ∗ (∃ r, prngReg c r) ∗ iprop(semVal ((c : Thread nD τ), SemLoc.dma 26) 0) ∗ iprop(hbPt4 c hbM4_0 (V c main_v78)))
        ∗ iprop(hbPt4 c tbM4_0 (tb 0))) := by
  unfold Phi4
  rw [Pipeline.ΦD_eq, scopedRest4_split, ownSems04_eq, hbmPts4_eq, prefHeld4_eq]; simp only [scM4_0, owns_whole]; try rfl

/-- The table's word at the offsets `off`: what a scalar load of the body reads. -/
abbrev wd4 (c : Dev nD) (xt : HbBuf4 (F := F) c tbM4_0) (off : Fin 1 → Nat) (h : ∀ a, off a + S1.size a ≤ S4096.size a) : Elt F .i32 :=
  tbM4_0.view.readAt (Elt F) (Rect.unit (s := S4096) off S1.size h).toLoadRect xt (Shape.Idx.first (numel1_S1.symm ▸ Nat.one_pos))

/-- A word below 50000 is the number of a row of the 50000x128 array: the row's rectangle is inside it. -/
theorem rowInb_of_lt {w : BitVec 32} (h : w.toNat < 50000) : ∀ a, (![w.toNat, 0] : Fin 2 → Nat) a + S1x128.size a ≤ S50000x128.size a := by
  intro a
  match a with
  | ⟨0, _⟩ => show w.toNat + 1 ≤ 50000; omega
  | ⟨1, _⟩ => show 0 + 128 ≤ 128; omega
theorem chk1_of_lt {w : BitVec 32} (h : w.toNat < 50000) : k4_chk1 w := rowInb_of_lt h
theorem chk2_of_lt {w : BitVec 32} (h : w.toNat < 50000) : k4_chk2 w := rowInb_of_lt h
theorem chk3_of_lt {w : BitVec 32} (h : w.toNat < 50000) : k4_chk3 w := rowInb_of_lt h
theorem chk4_of_lt {w : BitVec 32} (h : w.toNat < 50000) : k4_chk4 w := rowInb_of_lt h
theorem chk5_of_lt {w : BitVec 32} (h : w.toNat < 50000) : k4_chk5 w := rowInb_of_lt h
theorem chk6_of_lt {w : BitVec 32} (h : w.toNat < 50000) : k4_chk6 w := rowInb_of_lt h
theorem chk7_of_lt {w : BitVec 32} (h : w.toNat < 50000) : k4_chk7 w := rowInb_of_lt h
theorem chk8_of_lt {w : BitVec 32} (h : w.toNat < 50000) : k4_chk8 w := rowInb_of_lt h
theorem chk9_of_lt {w : BitVec 32} (h : w.toNat < 50000) : k4_chk9 w := rowInb_of_lt h
theorem chk10_of_lt {w : BitVec 32} (h : w.toNat < 50000) : k4_chk10 w := rowInb_of_lt h
theorem chk11_of_lt {w : BitVec 32} (h : w.toNat < 50000) : k4_chk11 w := rowInb_of_lt h
theorem chk12_of_lt {w : BitVec 32} (h : w.toNat < 50000) : k4_chk12 w := rowInb_of_lt h
theorem chk13_of_lt {w : BitVec 32} (h : w.toNat < 50000) : k4_chk13 w := rowInb_of_lt h
theorem chk14_of_lt {w : BitVec 32} (h : w.toNat < 50000) : k4_chk14 w := rowInb_of_lt h
theorem chk15_of_lt {w : BitVec 32} (h : w.toNat < 50000) : k4_chk15 w := rowInb_of_lt h
theorem chk16_of_lt {w : BitVec 32} (h : w.toNat < 50000) : k4_chk16 w := rowInb_of_lt h

set_option maxHeartbeats 4000000 in
/-- What the body's 16 stores leave in the output's staging memref, as pieces, WITH the proof that the body runs:
    on a whole staging memref at anything, the scratch row at anything, the table and the array whole at their
    contents (every word of the table a row number), the DMA cell at zero and the core's waits. -/
noncomputable def kernelRun4 (c : Dev nD) (i : grid4.Coords) (arg3 : Memref sig .tc .vmem S16x1x128 .f32) (harg3 : arg3.IsWhole)
    (arg4 : Memref sig .tc .vmem S128 .f32) (harg4 : arg4.IsWhole)
    (xt : HbBuf4 (F := F) c tbM4_0) (fh : HbBuf4 (F := F) c hbM4_0)
    (hT : ∀ (off : Fin 1 → Nat) (h : ∀ a, off a + S1.size a ≤ S4096.size a), (wd4 c xt off h : BitVec 32).toNat < 50000) :
    { L : List (View.Piece (Elt F) S16x1x128 .f32) //
      ∀ (W : Waits sig Unit) (K : PUnit → sProp 𝕄),
        iprop((∃ d, owns (c : Thread nD τ) arg3 fullShare d) ∗ (∃ d, owns (c : Thread nD τ) arg4 fullShare d) ∗ semVal ((c : Thread nD τ), SemLoc.dma 26) 0
            ∗ hbPt4 c hbM4_0 fh ∗ hbPt4 c tbM4_0 xt ∗ owes (c : Thread nD τ) 0 W
            ∗ (iprop((∃ f, arg3.view.loc (c : Thread nD τ) ↦[arg3.view.set]{fullShare} arg3.view.writes (Elt F) f L) ∗ (∃ d, owns (c : Thread nD τ) arg4 fullShare d)
                ∗ semVal ((c : Thread nD τ), SemLoc.dma 26) 0 ∗ hbPt4 c hbM4_0 fh ∗ hbPt4 c tbM4_0 xt ∗ (∃ W', owes (c : Thread nD τ) 0 W')) -∗ K ⟨⟩))
          ⊢ wp frame (wpE (defs₀ (F := F)) Variants.none c none) Set.univ
              (cc4__gather_kernel i (Memref.whole main_arg3) (Memref.isWhole_whole _) (Memref.whole main_v78) (Memref.isWhole_whole _) arg3 harg3 arg4 harg4 cc4_scratch1) K } := by
  refine ⟨?_, fun W K => ?run⟩
  case run =>
    simp only [cc4__gather_kernel_eq_skeleton]; unfold cc4__gather_kernel_skel
    simp only [k4_part6_eq_skeleton]
    unfold owns
    iintro ⟨⟨%d1, %f1, -, H1⟩, ⟨%ds0, %fs0, -, HS0⟩, Hq0, Hh0, HT0, HW, Hk⟩
    sl_exec (disch := first | sl_exact (chk1_of_lt (hT (k4_off1 i) (k4_off1_inb i))) | sl_exact (chk2_of_lt (hT (k4_off3 i) (k4_off3_inb i))) | sl_exact (chk3_of_lt (hT (k4_off5 i) (k4_off5_inb i))) | sl_exact (chk4_of_lt (hT (k4_off7 i) (k4_off7_inb i))) | sl_exact (chk5_of_lt (hT (k4_off9 i) (k4_off9_inb i))) | sl_exact (chk6_of_lt (hT (k4_off11 i) (k4_off11_inb i))) | sl_exact (chk7_of_lt (hT (k4_off13 i) (k4_off13_inb i))) | sl_exact (chk8_of_lt (hT (k4_off15 i) (k4_off15_inb i))) | sl_exact (chk9_of_lt (hT (k4_off17 i) (k4_off17_inb i))) | sl_exact (chk10_of_lt (hT (k4_off19 i) (k4_off19_inb i))) | sl_exact (chk11_of_lt (hT (k4_off21 i) (k4_off21_inb i))) | sl_exact (chk12_of_lt (hT (k4_off23 i) (k4_off23_inb i))) | sl_exact (chk13_of_lt (hT (k4_off25 i) (k4_off25_inb i))) | sl_exact (chk14_of_lt (hT (k4_off27 i) (k4_off27_inb i))) | sl_exact (chk15_of_lt (hT (k4_off29 i) (k4_off29_inb i))) | sl_exact (chk16_of_lt (hT (k4_off31 i) (k4_off31_inb i))))
    sl_step
    iapply Hk
    isplitl [H1]; · iexists _; iexact H1
    isplitl [HS0]
    · iexists _, _; isplitr; swap; · iexact HS0
      ipureintro; rfl
    isplitl [Hq0]; · iexact Hq0
    isplitl [Hh0]; · iexact Hh0
    isplitl [HT0]; · iexact HT0
    iexists _; iexact HW

/-- One staging buffer of the output window, through which its contents are stated (the choice does not matter). -/
abbrev VO4_0 : View sig .tc .vmem S16x1x128 .f32 := (Memref.whole cc4_stg0_0 : Memref sig .tc .vmem S16x1x128 .f32).view

/-- The run's 16 pieces are the 16 rows of the block: they tile it, so they cover it. -/
theorem cover4 (c : Dev nD) (i : grid4.Coords) (arg3 : Memref sig .tc .vmem S16x1x128 .f32) (harg3 : arg3.IsWhole)
    (arg4 : Memref sig .tc .vmem S128 .f32) (harg4 : arg4.IsWhole)
    (xt : HbBuf4 (F := F) c tbM4_0) (fh : HbBuf4 (F := F) c hbM4_0)
    (hT : ∀ (off : Fin 1 → Nat) (h : ∀ a, off a + S1.size a ≤ S4096.size a), (wd4 c xt off h : BitVec 32).toNat < 50000) (y : S16x1x128.Idx) :
    ∃ pc ∈ (kernelRun4 c i arg3 harg3 arg4 harg4 xt fh hT).1, y ∈ pc.1.set :=
  View.cover_of_tiledL (kernelRun4 c i arg3 harg3 arg4 harg4 xt fh hT).1 S1x1x128.size (by sl_kernel_rfl) y

/-- What the run leaves in the output's staging buffer: its pieces read back over junk. -/
def out4 (c : Dev nD) (i : grid4.Coords) (arg3 : Memref sig .tc .vmem S16x1x128 .f32) (harg3 : arg3.IsWhole)
    (arg4 : Memref sig .tc .vmem S128 .f32) (harg4 : arg4.IsWhole)
    (xt : HbBuf4 (F := F) c tbM4_0) (fh : HbBuf4 (F := F) c hbM4_0)
    (hT : ∀ (off : Fin 1 → Nat) (h : ∀ a, off a + S1.size a ≤ S4096.size a), (wd4 c xt off h : BitVec 32).toNat < 50000) : Vec F S16x1x128 .f32 :=
  VO4_0.read (Elt F) (VO4_0.writes (Elt F) VO4_0.junk (kernelRun4 c i arg3 harg3 arg4 harg4 xt fh hT).1)

/-- Every word the body loads is a row number, the table's words being so. -/
theorem wd4_lt_of {tb : pre4.Contents (Elt F)} (hT : TblInRange tb) (c : Dev nD) (off : Fin 1 → Nat) (h : ∀ a, off a + S1.size a ≤ S4096.size a) :
    (wd4 c (tb 0) off h : BitVec 32).toNat < 50000 := hT _

/-- What the output's staging buffer holds after the body at point `t`. -/
def outsAt4 (hT : TblInRange tb) (c : Dev nD) (t : Fin (cfg4 (adm4 tb)).N) : Vec F S16x1x128 .f32 :=
  out4 c (grid4.coords t) (ms4_0 tb t) (hs4_0 tb t) scM4_0 (Memref.isWhole_whole _) (tb 0) (V c main_v78) (wd4_lt_of hT c)

/-- The proof data of the pipeline on core `c`: the array as the region finds it; after the body at point `t` the
    output's buffer at `outsAt4`; the invariant `Phi4`; nothing owed; full shares. -/
def dat4 (hT : TblInRange tb) (c : Dev nD) : Dat τ (Elt F) Unit ℕ (Pipeline.UD sig nD τ) ℕ (cfg4 (adm4 tb)) c where
  A w := V c (Pipeline.arrRef spec4 w)
  after w t := match w with
    | ⟨0, _⟩ => outsAt4 V tb hT c t
  Φ _ := Phi4 V tb c
  q _ := fullShare
  owed _ := 0

theorem A_eq4 (hT : TblInRange tb) (c : Dev nD) (w : Fin (cfg4 (adm4 tb)).W) : (dat4 V tb hT c).A w = V c (Pipeline.arrRef spec4 w) := by
  dsimp only [dat4]

theorem after4_0 (hT : TblInRange tb) (c : Dev nD) (t : Fin (cfg4 (adm4 tb)).N) : (dat4 V tb hT c).after 0 t = outsAt4 V tb hT c t := by
  dsimp only [dat4]; try rfl

/-- What the body is called with at point `t`, -/
def bodyPre4 (hT : TblInRange tb) (c : Dev nD) (t : Fin (cfg4 (adm4 tb)).N) : sProp 𝕄 :=
  iprop((dat4 V tb hT c).Φ t.castSucc ∗ (dat4 V tb hT c).owesAt () t.castSucc
    ∗ (∃ d, owns (c : Thread nD τ) (ms4_0 tb t) fullShare ((dat4 V tb hT c).before 0 t d)))

/-- and what it returns. -/
def bodyPost4 (hT : TblInRange tb) (c : Dev nD) (t : Fin (cfg4 (adm4 tb)).N) : sProp 𝕄 :=
  iprop((dat4 V tb hT c).Φ t.succ ∗ (dat4 V tb hT c).owesAt () t.succ
    ∗ owns (c : Thread nD τ) (ms4_0 tb t) fullShare ((dat4 V tb hT c).after 0 t))

set_option maxHeartbeats 1000000 in
/-- The body at any point: the invariant hands the run the scratch row, the DMA cell at zero, the array and the table, and
    takes them back as they were; the core's waits go in at whatever the points before recorded and come back with this point's. -/
theorem sound_body4 (hT : TblInRange tb) (c : Dev nD) (t : Fin (cfg4 (adm4 tb)).N) :
    bodyPre4 V tb hT c t ⊢ wp frame (wpE (defs₀ (F := F)) Variants.none c none) Set.univ (bodyAt4 tb t) (fun _ => bodyPost4 V tb hT c t) := by
  unfold bodyPre4 bodyPost4 bodyAt4
  rw [show (dat4 V tb hT c).Φ t.succ = (dat4 V tb hT c).Φ t.castSucc from rfl, after4_0]
  rw [show (dat4 V tb hT c).Φ t.castSucc = Phi4 V tb c from rfl, Phi4_eq]
  unfold Dat.owesAt Pipeline.owesWithin
  rw [show (dat4 V tb hT c).owed t.castSucc = 0 from rfl, show (dat4 V tb hT c).owed t.succ = 0 from rfl]
  unfold outsAt4
  unfold out4
  iintro ⟨⟨⟨⟨HS0, HR⟩, Hg, Hq0, Hh0⟩, HT0⟩, ⟨%W, -, HW⟩, ⟨%d0, H0⟩⟩
  iapply ((kernelRun4 c (grid4.coords t) _ _ _ _ (tb 0) (V c main_v78) (wd4_lt_of hT c)).2 W _)
  isplitl [H0]; · iexists _; iexact H0
  isplitl [HS0]; · iexact HS0
  isplitl [Hq0]; · iexact Hq0
  isplitl [Hh0]; · iexact Hh0
  isplitl [HT0]; · iexact HT0
  isplitl [HW]; · iexact HW
  iintro ⟨⟨%e0, H0⟩, HS0, Hq0, Hh0, HT0, ⟨%W', HW'⟩⟩
  isplitl [HR HS0 Hg Hq0 Hh0 HT0]
  · isplitl [HR HS0 Hg Hq0 Hh0]
    · isplitl [HS0 HR]
      · isplitl [HS0]; · iexact HS0
        iexact HR
      isplitl [Hg]; · iexact Hg
      isplitl [Hq0]; · iexact Hq0
      iexact Hh0
    iexact HT0
  isplitl [HW']
  · iexists W'; isplitr; · ipureintro; exact fun _ _ => Or.inl trivial
    iexact HW'
  unfold owns; iexists _; isplitr
  swap; · iexact H0
  ipureintro; exact View.read_writes_of_cover _ _ _ _ _ (cover4 c _ _ _ _ _ _ _ _)

/-- The library's body obligation, at every point. -/
theorem body_obligation4 (hT : TblInRange tb) (c : Dev nD) : BodyObligation (dat4 (F := F) V tb hT c) (defs₀ (F := F)) Variants.none () Set.univ := fun t => by
  rw [bigSep_W4, bigSep_W4]
  exact sound_body4 V tb hT c t

end Region4
end Cert.KernelIdeal.Hand
end
-- ==== Proof.KI.RunCond.lean ====
/-
  The program's run from the five kernel regions' records, with every buffer named at the end. Between two items of
  the host program a core holds every unscoped buffer at a valuation: the launch memory, then each stretch of host
  operations applied, each region's output array replaced by what the region leaves. Given, per region, a record
  entered from the valuation before it and left at the one after it, every weakly fair execution terminates and the final
  memory holds every unscoped buffer at the last valuation: the arguments (which no item writes) as launched, and the
  result buffer at the last stretch's value.
-/
import proofs.«418828_j78855599555023_1_alg».proof.Proof.Gen.KernelIdeal.Regions

set_option maxRecDepth 1096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

set_option backward.isDefEq.respectTransparency.types false in
/-- The run, given the regions' records: termination, and every unscoped buffer at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 5) → (pcfgs (F := F) p).Adm)
    (pdats : (p : Fin 5) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V16 m outs c) ∗ E 4 c) ⊢ R4.pre c)
    (hpost4 : ∀ c : Dev nD, R4.post c ⊢ iprop(StableHlo.held (c : Thread nD τ) (Pipeline.ucRefs τ sig) (V17 m outs c) ∗ E 5 c)) :
    θ_run defs (onTc (τ := τ) (main (F := F))) ⟨m, fun _ => 0, ρ⟩ (fun r => ∀ c : Dev nD,
      ∀ b ∈ Pipeline.ucRefs τ sig, r.2.mem (((c : Thread nD τ)).1, b) = V18 m outs c b) := by
  refine Pipeline.θ_run_regions_kit_dev (pcfgs (F := F)) a pdats ι (cellOf_inj a) EP defs₀ 𝒱₀ L lv m ρ main
    (segs m outs 𝒱₀ L lv E ι a pdats R0 R1 R2 R3 R4)
    (fun c Q => by
      rewrite [main_chain c, Seg.run_eq_chain,
        show (segs m outs 𝒱₀ L lv E ι a pdats R0 R1 R2 R3 R4 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          Prog.lift (.customCall (Pipeline.entry 4) ()),
          StableHlo.seq hostOps5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, hpre0 c, hpost0 c, .rfl, .rfl, .rfl, .rfl, hpre1 c, hpost1 c, .rfl, .rfl, hpre2 c, hpost2 c, .rfl, .rfl, hpre3 c, (hpost3 c).trans (hpre4 c), hpost4 c, sep_mono .rfl (hE5 c)⟩)
    (hinit := ?_) (QY := fun c s => ∀ b ∈ Pipeline.ucRefs τ sig, s.mem (((c : Thread nD τ)).1, b) = V18 m outs c b)
    (hfin := fun c s' => ?_) (hQ := fun _ h => h)
  · -- the launch: the unscoped buffers at the launch memory; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V18 m outs c) s')
    isplitl [Hh] <;> iassumption

end Cert.KernelIdeal.Hand

end
-- ==== Proof.KI.Regs.lean ====
/-
  The program's run, assembled. Between two items of the host program a core holds every unscoped buffer at a
  valuation; what each kernel region leaves in its output array is named here, stage by stage (a region's proof
  data live at the valuation it is entered from, which reads only what the regions before it left), and each region
  is given as a record entered from the valuation before it and left at the one after it. The five records and the
  launch's resources then give the run: every weakly fair execution terminates with every unscoped buffer at the
  last valuation.
-/
import proofs.«418828_j78855599555023_1_alg».proof.Proof.KI.Dense0
import proofs.«418828_j78855599555023_1_alg».proof.Proof.KI.Dense1
import proofs.«418828_j78855599555023_1_alg».proof.Proof.KI.Dense2
import proofs.«418828_j78855599555023_1_alg».proof.Proof.KI.Dense3
import proofs.«418828_j78855599555023_1_alg».proof.Proof.KI.Gather4
import proofs.«418828_j78855599555023_1_alg».proof.Proof.KI.RunCond
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## What the regions leave, stage by stage -/

/-- A core's TensorCore buffers, one contents per reference. -/
abbrev TcVal (c : Dev nD) : Type := (r : Ref sig .tc) → Buf (Elt F) ((c : Thread nD τ).loc r)

/-- Contents per reference and core as the unknowns the valuations are written over (the same at every item). -/
abbrev stg (u : (c : Dev nD) → TcVal (F := F) c) : Outs (F := F) := fun _ r c => u c r

/-- Stage 0: the launch memory. -/
def u0 (c : Dev nD) : TcVal (F := F) c := fun r => m ((c : Thread nD τ).loc r)

/-- Region 0 is entered from the valuation after the first host stretch, which reads no region's output. -/
abbrev Ve1 : (c : Dev nD) → TcVal (F := F) c := fun c b => V1 m c b
/-- What region 0 leaves in its output array: the write-backs of its ten blocks folded into the array. -/
def o2 (c : Dev nD) : Buf (Elt F) ((c : Thread nD τ).loc main_v1) := (dat0 (Ve1 m) c).arrAt 3 cfg0.N
/-- Stage 1: region 0's output named. -/
def u1 (c : Dev nD) : TcVal (F := F) c := Function.update (u0 m c) main_v1 (o2 m c)

/-- Region 1 is entered from a valuation that reads region 0's output only. -/
abbrev Ve7 : (c : Dev nD) → TcVal (F := F) c := fun c b => V7 m (stg (u1 m)) c b
def o8 (c : Dev nD) : Buf (Elt F) ((c : Thread nD τ).loc main_v39) := (dat1 (Ve7 m) c).arrAt 3 cfg1.N
/-- Stage 2: region 1's output named. -/
def u2 (c : Dev nD) : TcVal (F := F) c := Function.update (u1 m c) main_v39 (o8 m c)

/-- Region 2 is entered from a valuation that reads the outputs of regions 0 and 1 only. -/
abbrev Ve11 : (c : Dev nD) → TcVal (F := F) c := fun c b => V11 m (stg (u2 m)) c b
def o12 (c : Dev nD) : Buf (Elt F) ((c : Thread nD τ).loc main_v59) := (dat2 (Ve11 m) c).arrAt 3 cfg2.N
/-- Stage 3: region 2's output named. -/
def u3 (c : Dev nD) : TcVal (F := F) c := Function.update (u2 m c) main_v59 (o12 m c)

/-- Region 3 is entered from a valuation that reads the outputs of regions 0, 1 and 2 only. -/
abbrev Ve15 : (c : Dev nD) → TcVal (F := F) c := fun c b => V15 m (stg (u3 m)) c b
def o16 (c : Dev nD) : Buf (Elt F) ((c : Thread nD τ).loc main_v78) := (dat3 (Ve15 m) c).arrAt 3 cfg3.N
/-- Stage 4: region 3's output named. -/
def u4 (c : Dev nD) : TcVal (F := F) c := Function.update (u3 m c) main_v78 (o16 m c)

/-- Region 4 is entered from the valuation region 3 is left at. -/
abbrev Ve16 : (c : Dev nD) → TcVal (F := F) c := fun c b => V16 m (stg (u4 m)) c b

/-- The index table's words, read off the launch memory (the program runs on one device: device 0's). -/
def tbl : pre4.Contents (Elt F) := fun k => m (((0 : Dev nD) : Thread nD τ).loc (pre4.ref k))

/-- Stage 5, the last: region 4's output named (the array it copies rows of it leaves as it found it). -/
def o17 (hT : TblInRange (tbl m)) (c : Dev nD) : Buf (Elt F) ((c : Thread nD τ).loc main_v79) :=
  (dat4 (Ve16 m) (tbl m) hT c).arrAt 0 (cfg4 (adm4 (tbl m))).N
def u5 (hT : TblInRange (tbl m)) (c : Dev nD) : TcVal (F := F) c := Function.update (u4 m c) main_v79 (o17 m hT c)

/-- What the regions leave: the unknowns of the valuations, named. -/
def outs (hT : TblInRange (tbl m)) : Outs (F := F) := stg (u5 m hT)

/-! ## The valuations read one output each -/

theorem V2_congr (o o' : Outs (F := F)) (c : Dev nD) (h : o 2 main_v1 c = o' 2 main_v1 c) : V2 m o c = V2 m o' c :=
  congrArg (fun x => Function.update (V1 m c) main_v1 x) h
theorem V7_congr (o o' : Outs (F := F)) (c : Dev nD) (h : o 2 main_v1 c = o' 2 main_v1 c) : V7 m o c = V7 m o' c :=
  congrArg (fun W => StableHlo.after hostOps1_4 (StableHlo.after hostOps1_3 (StableHlo.after hostOps1_2 (StableHlo.after hostOps1_1 (StableHlo.after hostOps1 W))))) (V2_congr m o o' c h)
theorem V8_congr (o o' : Outs (F := F)) (c : Dev nD) (h : o 2 main_v1 c = o' 2 main_v1 c) (h8 : o 8 main_v39 c = o' 8 main_v39 c) :
    V8 m o c = V8 m o' c := by
  show Function.update (V7 m o c) main_v39 (o 8 main_v39 c) = Function.update (V7 m o' c) main_v39 (o' 8 main_v39 c)
  rw [V7_congr m o o' c h, h8]
theorem V11_congr (o o' : Outs (F := F)) (c : Dev nD) (h : o 2 main_v1 c = o' 2 main_v1 c) (h8 : o 8 main_v39 c = o' 8 main_v39 c) :
    V11 m o c = V11 m o' c :=
  congrArg (fun W => StableHlo.after hostOps2_2 (StableHlo.after hostOps2_1 (StableHlo.after hostOps2 W))) (V8_congr m o o' c h h8)
theorem V12_congr (o o' : Outs (F := F)) (c : Dev nD) (h : o 2 main_v1 c = o' 2 main_v1 c) (h8 : o 8 main_v39 c = o' 8 main_v39 c)
    (h12 : o 12 main_v59 c = o' 12 main_v59 c) : V12 m o c = V12 m o' c := by
  show Function.update (V11 m o c) main_v59 (o 12 main_v59 c) = Function.update (V11 m o' c) main_v59 (o' 12 main_v59 c)
  rw [V11_congr m o o' c h h8, h12]
theorem V15_congr (o o' : Outs (F := F)) (c : Dev nD) (h : o 2 main_v1 c = o' 2 main_v1 c) (h8 : o 8 main_v39 c = o' 8 main_v39 c)
    (h12 : o 12 main_v59 c = o' 12 main_v59 c) : V15 m o c = V15 m o' c :=
  congrArg (fun W => StableHlo.after hostOps3_2 (StableHlo.after hostOps3_1 (StableHlo.after hostOps3 W))) (V12_congr m o o' c h h8 h12)
theorem V16_congr (o o' : Outs (F := F)) (c : Dev nD) (h : o 2 main_v1 c = o' 2 main_v1 c) (h8 : o 8 main_v39 c = o' 8 main_v39 c)
    (h12 : o 12 main_v59 c = o' 12 main_v59 c) (h16 : o 16 main_v78 c = o' 16 main_v78 c) : V16 m o c = V16 m o' c := by
  show Function.update (V15 m o c) main_v78 (o 16 main_v78 c) = Function.update (V15 m o' c) main_v78 (o' 16 main_v78 c)
  rw [V15_congr m o o' c h h8 h12, h16]

/-! ## The stages agree where an earlier one is read -/

section Stages
variable (hT : TblInRange (tbl m)) (c : Dev nD)

theorem u1_v1 : u1 m c main_v1 = o2 m c := by unfold u1; exact Function.update_self ..
theorem u2_v1 : u2 m c main_v1 = o2 m c := by
  unfold u2; rw [Function.update_of_ne (by decide)]; exact u1_v1 m c
theorem u3_v1 : u3 m c main_v1 = o2 m c := by
  unfold u3; rw [Function.update_of_ne (by decide)]; exact u2_v1 m c
theorem u4_v1 : u4 m c main_v1 = o2 m c := by
  unfold u4; rw [Function.update_of_ne (by decide)]; exact u3_v1 m c
theorem u5_v1 : u5 m hT c main_v1 = o2 m c := by
  unfold u5; rw [Function.update_of_ne (by decide)]; exact u4_v1 m c

theorem u2_v39 : u2 m c main_v39 = o8 m c := by unfold u2; exact Function.update_self ..
theorem u3_v39 : u3 m c main_v39 = o8 m c := by
  unfold u3; rw [Function.update_of_ne (by decide)]; exact u2_v39 m c
theorem u4_v39 : u4 m c main_v39 = o8 m c := by
  unfold u4; rw [Function.update_of_ne (by decide)]; exact u3_v39 m c
theorem u5_v39 : u5 m hT c main_v39 = o8 m c := by
  unfold u5; rw [Function.update_of_ne (by decide)]; exact u4_v39 m c

theorem u3_v59 : u3 m c main_v59 = o12 m c := by unfold u3; exact Function.update_self ..
theorem u4_v59 : u4 m c main_v59 = o12 m c := by
  unfold u4; rw [Function.update_of_ne (by decide)]; exact u3_v59 m c
theorem u5_v59 : u5 m hT c main_v59 = o12 m c := by
  unfold u5; rw [Function.update_of_ne (by decide)]; exact u4_v59 m c

theorem u4_v78 : u4 m c main_v78 = o16 m c := by unfold u4; exact Function.update_self ..
theorem u5_v78 : u5 m hT c main_v78 = o16 m c := by
  unfold u5; rw [Function.update_of_ne (by decide)]; exact u4_v78 m c

theorem u5_v79 : u5 m hT c main_v79 = o17 m hT c := by unfold u5; exact Function.update_self ..

end Stages

/-! ## The valuations at the named contents are the stages' -/

section Agree
variable (hT : TblInRange (tbl m)) (c : Dev nD)

theorem V7_outs : V7 m (outs m hT) c = V7 m (stg (u1 m)) c :=
  V7_congr m _ _ c ((u5_v1 m hT c).trans (u1_v1 m c).symm)
theorem V11_outs : V11 m (outs m hT) c = V11 m (stg (u2 m)) c :=
  V11_congr m _ _ c ((u5_v1 m hT c).trans (u2_v1 m c).symm) ((u5_v39 m hT c).trans (u2_v39 m c).symm)
theorem V15_outs : V15 m (outs m hT) c = V15 m (stg (u3 m)) c :=
  V15_congr m _ _ c ((u5_v1 m hT c).trans (u3_v1 m c).symm) ((u5_v39 m hT c).trans (u3_v39 m c).symm)
    ((u5_v59 m hT c).trans (u3_v59 m c).symm)
theorem V16_outs : V16 m (outs m hT) c = V16 m (stg (u4 m)) c :=
  V16_congr m _ _ c ((u5_v1 m hT c).trans (u4_v1 m c).symm) ((u5_v39 m hT c).trans (u4_v39 m c).symm)
    ((u5_v59 m hT c).trans (u4_v59 m c).symm) ((u5_v78 m hT c).trans (u4_v78 m c).symm)

end Agree

/-- The valuations at the named contents, as families over the cores, are the stages'. -/
theorem Ve7_outs (hT : TblInRange (tbl m)) : (fun (c : Dev nD) (b : Ref sig .tc) => V7 m (outs m hT) c b) = Ve7 m :=
  funext fun c => funext fun b => congrFun (V7_outs m hT c) b
theorem Ve11_outs (hT : TblInRange (tbl m)) : (fun (c : Dev nD) (b : Ref sig .tc) => V11 m (outs m hT) c b) = Ve11 m :=
  funext fun c => funext fun b => congrFun (V11_outs m hT c) b
theorem Ve15_outs (hT : TblInRange (tbl m)) : (fun (c : Dev nD) (b : Ref sig .tc) => V15 m (outs m hT) c b) = Ve15 m :=
  funext fun c => funext fun b => congrFun (V15_outs m hT c) b
theorem Ve16_outs (hT : TblInRange (tbl m)) : (fun (c : Dev nD) (b : Ref sig .tc) => V16 m (outs m hT) c b) = Ve16 m :=
  funext fun c => funext fun b => congrFun (V16_outs m hT c) b

/-! ## What each region leaves, at the named contents -/

section Exports
variable (hT : TblInRange (tbl m)) (c : Dev nD)

/-- Region 0 leaves in its output array its pipeline's folded write-backs, from the valuation it is entered from. -/
theorem outs_2 : outs m hT 2 main_v1 c = (dat0 (fun c b => V1 m c b) c).arrAt 3 cfg0.N := u5_v1 m hT c
/-- Region 1, likewise, from the valuation at the named contents. -/
theorem outs_8 : outs m hT 8 main_v39 c = (dat1 (fun c b => V7 m (outs m hT) c b) c).arrAt 3 cfg1.N := by
  rw [Ve7_outs m hT]; exact u5_v39 m hT c
theorem outs_12 : outs m hT 12 main_v59 c = (dat2 (fun c b => V11 m (outs m hT) c b) c).arrAt 3 cfg2.N := by
  rw [Ve11_outs m hT]; exact u5_v59 m hT c
theorem outs_16 : outs m hT 16 main_v78 c = (dat3 (fun c b => V15 m (outs m hT) c b) c).arrAt 3 cfg3.N := by
  rw [Ve15_outs m hT]; exact u5_v78 m hT c
/-- Region 4 leaves its output array at its pipeline's folded write-backs, -/
theorem outs_17 : outs m hT 17 main_v79 c
    = (dat4 (fun c b => V16 m (outs m hT) c b) (tbl m) hT c).arrAt 0 (cfg4 (adm4 (tbl m))).N := by
  rw [Ve16_outs m hT]; exact u5_v79 m hT c
/-- and the array it copies rows of as it found it. -/
theorem outs_17' : outs m hT 17 main_v78 c = V16 m (outs m hT) c main_v78 := by
  show outs m hT 17 main_v78 c = Function.update (V15 m (outs m hT) c) (Proc.devRef .tc main_v78) (outs m hT 16 main_v78 c) (Proc.devRef .tc main_v78)
  rw [Function.update_self]; rfl

end Exports

/-! ## The index table at region 4's entry -/

/-- No item before region 4 writes the index table: at its entry the table holds the launch memory's words. -/
theorem V16_tbl (o : Outs (F := F)) (c : Dev nD) (k : Fin pre4.K) : V16 m o c (pre4.ref k) = tbl m k := by
  obtain rfl : c = 0 := Subsingleton.elim _ _
  match k with
  | ⟨0, _⟩ =>
    exact (V16_of m o 0 main_arg3 (by decide)).trans <| (V15_of m o 0 main_arg3 (by decide)).trans <| (V14_of m o 0 main_arg3 (by decide)).trans <|
      (V13_of m o 0 main_arg3 (by decide)).trans <| (V12_of m o 0 main_arg3 (by decide)).trans <| (V11_of m o 0 main_arg3 (by decide)).trans <|
      (V10_of m o 0 main_arg3 (by decide)).trans <| (V9_of m o 0 main_arg3 (by decide)).trans <| (V8_of m o 0 main_arg3 (by decide)).trans <|
      (V7_of m o 0 main_arg3 (by decide)).trans <| (V6_of m o 0 main_arg3 (by decide)).trans <| (V5_of m o 0 main_arg3 (by decide)).trans <|
      (V4_of m o 0 main_arg3 (by decide)).trans <| (V3_of m o 0 main_arg3 (by decide)).trans <| (V2_of m o 0 main_arg3 (by decide)).trans <|
      (V1_of m 0 main_arg3 (by decide)).trans rfl

/-! ## The tables' contents, the proof data, the levels -/

/-- The prefetched tables' admissible contents: regions 0 to 3 have none; region 4's index table as launched. -/
abbrev adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => cfg3.toPCfg_adm
  | ⟨4, _⟩ => adm4 (tbl m)
  | ⟨_ + 5, h⟩ => absurd h (Nat.not_lt.2 (Nat.le_add_left _ _))

/-- Every pipeline's proof data, each at the valuation its region is entered from. -/
def pdats (hT : TblInRange (tbl m)) : (p : Fin 5) → (c : Dev nD) → Dat τ (Elt F) Unit ℕ (Pipeline.UD sig nD τ) ℕ (Pipeline.pin (pcfgs (F := F)) (adm m) p) c
  | ⟨0, _⟩ => fun c => dat0 (Ve1 m) c
  | ⟨1, _⟩ => fun c => dat1 (Ve7 m) c
  | ⟨2, _⟩ => fun c => dat2 (Ve11 m) c
  | ⟨3, _⟩ => fun c => dat3 (Ve15 m) c
  | ⟨4, _⟩ => fun c => dat4 (Ve16 m) (tbl m) hT c
  | ⟨_ + 5, h⟩ => absurd h (Nat.not_lt.2 (Nat.le_add_left _ _))

/-- No core owes another anything: no level is assigned. -/
abbrev Lz : GSem nD τ sig → Finset Unit := fun _ => ∅
abbrev lvz : GSem nD τ sig → Unit → ℕ := fun _ _ => 0
/-- What rides beside the buffers through every item: the core's generator register at some state and its dues, at nothing. -/
abbrev Rr (c : Dev nD) : sProp 𝕄 := iprop((∃ r, prngReg c r) ∗ ∃ W, owes (c : Thread nD τ) (0 : CellTallies nD τ sig Unit) W)

/-! ## The regions as records -/

/-! ### Region 0 -/

section R0
variable (hT : TblInRange (tbl m)) (c : Dev nD)

/-- The exit valuation at the region's output array: what the region leaves. -/
theorem V2_at_out (o : Outs (F := F)) : V2 m o c main_v1 = o 2 main_v1 c := Function.update_self ..
/-- The exit valuation off the output array: the valuation the proof data live at. -/
theorem V2_in (r : Ref sig .tc) (h : r ∉ ([main_v1] : List (Ref sig .tc))) : V2 m (outs m hT) c r = Ve1 m c r :=
  (V2_of m (outs m hT) c r h)
/-- Each window's array at the exit valuation: an input (main_arg0, main_arg4, main_v0) as entered, the output
    (main_v1) at the pipeline's folded write-backs. -/
theorem hF0 : ∀ w : Fin cfg0.W, (dat0 (Ve1 m) c).arrAt w cfg0.N = V2 m (outs m hT) c (Pipeline.arrRef spec0 w)
  | ⟨0, _⟩ => ((dat0 (Ve1 m) c).arrAt_in 0 rfl _).trans ((A_eq0 (Ve1 m) c 0).trans (V2_in m hT c _ (by decide)).symm)
  | ⟨1, _⟩ => ((dat0 (Ve1 m) c).arrAt_in 1 rfl _).trans ((A_eq0 (Ve1 m) c 1).trans (V2_in m hT c _ (by decide)).symm)
  | ⟨2, _⟩ => ((dat0 (Ve1 m) c).arrAt_in 2 rfl _).trans ((A_eq0 (Ve1 m) c 2).trans (V2_in m hT c _ (by decide)).symm)
  | ⟨3, _⟩ => (u5_v1 m hT c).symm.trans (V2_at_out m c (outs m hT)).symm
/-- Every buffer that is no window's array is as entered. -/
theorem hrest0 (b : Ref sig .tc) (hb : b ∉ Finset.univ.image (Pipeline.arrRef spec0)) : V2 m (outs m hT) c b = Ve1 m c b :=
  V2_in m hT c b fun h => hb (Finset.mem_image.mpr ⟨3, Finset.mem_univ _, (List.mem_singleton.mp h).symm⟩)

end R0

-- unifying a library lemma stated over the pinned family with the printed configuration unfolds plain definitions in a
-- metavariable's type
set_option backward.isDefEq.respectTransparency.types false in
/-- REGION 0: the first dense layer, entered from the valuation after the first host stretch and left at that valuation with its output array replaced. Its arrays are split out of the unscoped buffers at entry and put back at the exit
    valuation (the inputs as entered, the output at what the region leaves, every other buffer untouched); the generator
    register passes through the invariant; nothing is owed; the kernel has no semaphore of its own. -/
def reg0 (hT : TblInRange (tbl m)) : Pipeline.RegionSeg (pcfgs (F := F)) (adm m) (pdats m hT) () defs₀ Variants.none Lz lvz 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Ve1 m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m hT) c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (Ve1 m c)
  hentry c := by
    rw [Pipeline.ownSems0_none]
    have hsplit := Pipeline.arrays_of_unscopedBufs (p := 0) (pcfgs (F := F)) (adm m) (pdats m hT) (launch0 (F := F)).win (launch0 (F := F)).arr_whole c
      ((pdats m hT 0 c).share_full fun _ => rfl) (Ve1 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hT 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hT) ((pdats m hT 0 c).share_full fun _ => rfl)
      (Ve1 m c) (fun b => V2 m (outs m hT) c b) ((pdats m hT 0 c).arrAt · cfg0.N) (hF0 m hT c) (hrest0 m hT c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

section R1
variable (hT : TblInRange (tbl m)) (c : Dev nD)

/-- The exit valuation at the region's output array: what the region leaves. -/
theorem V8_at_out (o : Outs (F := F)) : V8 m o c main_v39 = o 8 main_v39 c := Function.update_self ..
/-- The exit valuation off the output array: the valuation the proof data live at. -/
theorem V8_in (r : Ref sig .tc) (h : r ∉ ([main_v39] : List (Ref sig .tc))) : V8 m (outs m hT) c r = Ve7 m c r :=
  (V8_of m (outs m hT) c r h).trans (congrFun (V7_outs m hT c) _)
/-- Each window's array at the exit valuation: an input (main_v1, main_arg6, main_v38) as entered, the output
    (main_v39) at the pipeline's folded write-backs. -/
theorem hF1 : ∀ w : Fin cfg1.W, (dat1 (Ve7 m) c).arrAt w cfg1.N = V8 m (outs m hT) c (Pipeline.arrRef spec1 w)
  | ⟨0, _⟩ => ((dat1 (Ve7 m) c).arrAt_in 0 rfl _).trans ((A_eq1 (Ve7 m) c 0).trans (V8_in m hT c _ (by decide)).symm)
  | ⟨1, _⟩ => ((dat1 (Ve7 m) c).arrAt_in 1 rfl _).trans ((A_eq1 (Ve7 m) c 1).trans (V8_in m hT c _ (by decide)).symm)
  | ⟨2, _⟩ => ((dat1 (Ve7 m) c).arrAt_in 2 rfl _).trans ((A_eq1 (Ve7 m) c 2).trans (V8_in m hT c _ (by decide)).symm)
  | ⟨3, _⟩ => (u5_v39 m hT c).symm.trans (V8_at_out m c (outs m hT)).symm
/-- Every buffer that is no window's array is as entered. -/
theorem hrest1 (b : Ref sig .tc) (hb : b ∉ Finset.univ.image (Pipeline.arrRef spec1)) : V8 m (outs m hT) c b = Ve7 m c b :=
  V8_in m hT c b fun h => hb (Finset.mem_image.mpr ⟨3, Finset.mem_univ _, (List.mem_singleton.mp h).symm⟩)

end R1

-- unifying a library lemma stated over the pinned family with the printed configuration unfolds plain definitions in a
-- metavariable's type
set_option backward.isDefEq.respectTransparency.types false in
/-- REGION 1: the second dense layer, entered from the valuation after the host stretches that follow region 0 and left at that valuation with its output array replaced. Its arrays are split out of the unscoped buffers at entry and put back at the exit
    valuation (the inputs as entered, the output at what the region leaves, every other buffer untouched); the generator
    register passes through the invariant; nothing is owed; the kernel has no semaphore of its own. -/
def reg1 (hT : TblInRange (tbl m)) : Pipeline.RegionSeg (pcfgs (F := F)) (adm m) (pdats m hT) () defs₀ Variants.none Lz lvz 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Ve7 m) c).loose
  hwaits := Pipeline.hwaits_of_owed_zero _ _ _ _ Lz lvz 1 fun _ _ => rfl
  pre c := iprop(StableHlo.held (c : Thread nD τ) (Pipeline.ucRefs τ sig) (V7 m (outs m hT) c) ∗ Rr c)
  post c := iprop(StableHlo.held (c : Thread nD τ) (Pipeline.ucRefs τ sig) (V8 m (outs m hT) c) ∗ Rr c)
  X c := iprop(∃ r, prngReg c r)
  Y c := iprop(∃ r, prngReg c r)
  Z c := Pipeline.unscopedRest (Ix := Unit) (Name := ℕ) (U := Pipeline.UD sig nD τ) (Lvl := ℕ) spec1 c (Ve7 m c)
  hentry c := by
    rw [V7_outs m hT c]
    rw [Pipeline.ownSems0_none]
    have hsplit := Pipeline.arrays_of_unscopedBufs (p := 1) (pcfgs (F := F)) (adm m) (pdats m hT) (launch1 (F := F)).win (launch1 (F := F)).arr_whole c
      ((pdats m hT 1 c).share_full fun _ => rfl) (Ve7 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hT 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hT) ((pdats m hT 1 c).share_full fun _ => rfl)
      (Ve7 m c) (fun b => V8 m (outs m hT) c b) ((pdats m hT 1 c).arrAt · cfg1.N) (hF1 m hT c) (hrest1 m hT c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

section R2
variable (hT : TblInRange (tbl m)) (c : Dev nD)

/-- The exit valuation at the region's output array: what the region leaves. -/
theorem V12_at_out (o : Outs (F := F)) : V12 m o c main_v59 = o 12 main_v59 c := Function.update_self ..
/-- The exit valuation off the output array: the valuation the proof data live at. -/
theorem V12_in (r : Ref sig .tc) (h : r ∉ ([main_v59] : List (Ref sig .tc))) : V12 m (outs m hT) c r = Ve11 m c r :=
  (V12_of m (outs m hT) c r h).trans (congrFun (V11_outs m hT c) _)
/-- Each window's array at the exit valuation: an input (main_v56, main_arg8, main_v58) as entered, the output
    (main_v59) at the pipeline's folded write-backs. -/
theorem hF2 : ∀ w : Fin cfg2.W, (dat2 (Ve11 m) c).arrAt w cfg2.N = V12 m (outs m hT) c (Pipeline.arrRef spec2 w)
  | ⟨0, _⟩ => ((dat2 (Ve11 m) c).arrAt_in 0 rfl _).trans ((A_eq2 (Ve11 m) c 0).trans (V12_in m hT c _ (by decide)).symm)
  | ⟨1, _⟩ => ((dat2 (Ve11 m) c).arrAt_in 1 rfl _).trans ((A_eq2 (Ve11 m) c 1).trans (V12_in m hT c _ (by decide)).symm)
  | ⟨2, _⟩ => ((dat2 (Ve11 m) c).arrAt_in 2 rfl _).trans ((A_eq2 (Ve11 m) c 2).trans (V12_in m hT c _ (by decide)).symm)
  | ⟨3, _⟩ => (u5_v59 m hT c).symm.trans (V12_at_out m c (outs m hT)).symm
/-- Every buffer that is no window's array is as entered. -/
theorem hrest2 (b : Ref sig .tc) (hb : b ∉ Finset.univ.image (Pipeline.arrRef spec2)) : V12 m (outs m hT) c b = Ve11 m c b :=
  V12_in m hT c b fun h => hb (Finset.mem_image.mpr ⟨3, Finset.mem_univ _, (List.mem_singleton.mp h).symm⟩)

end R2

-- unifying a library lemma stated over the pinned family with the printed configuration unfolds plain definitions in a
-- metavariable's type
set_option backward.isDefEq.respectTransparency.types false in
/-- REGION 2: the third dense layer, entered from the valuation after the host stretches that follow region 1 and left at that valuation with its output array replaced. Its arrays are split out of the unscoped buffers at entry and put back at the exit
    valuation (the inputs as entered, the output at what the region leaves, every other buffer untouched); the generator
    register passes through the invariant; nothing is owed; the kernel has no semaphore of its own. -/
def reg2 (hT : TblInRange (tbl m)) : Pipeline.RegionSeg (pcfgs (F := F)) (adm m) (pdats m hT) () defs₀ Variants.none Lz lvz 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (Ve11 m) c).loose
  hwaits := Pipeline.hwaits_of_owed_zero _ _ _ _ Lz lvz 2 fun _ _ => rfl
  pre c := iprop(StableHlo.held (c : Thread nD τ) (Pipeline.ucRefs τ sig) (V11 m (outs m hT) c) ∗ Rr c)
  post c := iprop(StableHlo.held (c : Thread nD τ) (Pipeline.ucRefs τ sig) (V12 m (outs m hT) c) ∗ Rr c)
  X c := iprop(∃ r, prngReg c r)
  Y c := iprop(∃ r, prngReg c r)
  Z c := Pipeline.unscopedRest (Ix := Unit) (Name := ℕ) (U := Pipeline.UD sig nD τ) (Lvl := ℕ) spec2 c (Ve11 m c)
  hentry c := by
    rw [V11_outs m hT c]
    rw [Pipeline.ownSems0_none]
    have hsplit := Pipeline.arrays_of_unscopedBufs (p := 2) (pcfgs (F := F)) (adm m) (pdats m hT) (launch2 (F := F)).win (launch2 (F := F)).arr_whole c
      ((pdats m hT 2 c).share_full fun _ => rfl) (Ve11 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hT 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m hT) ((pdats m hT 2 c).share_full fun _ => rfl)
      (Ve11 m c) (fun b => V12 m (outs m hT) c b) ((pdats m hT 2 c).arrAt · cfg2.N) (hF2 m hT c) (hrest2 m hT c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

section R3
variable (hT : TblInRange (tbl m)) (c : Dev nD)

/-- The exit valuation at the region's output array: what the region leaves. -/
theorem V16_at_out (o : Outs (F := F)) : V16 m o c main_v78 = o 16 main_v78 c := Function.update_self ..
/-- The exit valuation off the output array: the valuation the proof data live at. -/
theorem V16_in (r : Ref sig .tc) (h : r ∉ ([main_v78] : List (Ref sig .tc))) : V16 m (outs m hT) c r = Ve15 m c r :=
  (V16_of m (outs m hT) c r h).trans (congrFun (V15_outs m hT c) _)
/-- Each window's array at the exit valuation: an input (main_v76, main_arg10, main_v77) as entered, the output
    (main_v78) at the pipeline's folded write-backs. -/
theorem hF3 : ∀ w : Fin cfg3.W, (dat3 (Ve15 m) c).arrAt w cfg3.N = V16 m (outs m hT) c (Pipeline.arrRef spec3 w)
  | ⟨0, _⟩ => ((dat3 (Ve15 m) c).arrAt_in 0 rfl _).trans ((A_eq3 (Ve15 m) c 0).trans (V16_in m hT c _ (by decide)).symm)
  | ⟨1, _⟩ => ((dat3 (Ve15 m) c).arrAt_in 1 rfl _).trans ((A_eq3 (Ve15 m) c 1).trans (V16_in m hT c _ (by decide)).symm)
  | ⟨2, _⟩ => ((dat3 (Ve15 m) c).arrAt_in 2 rfl _).trans ((A_eq3 (Ve15 m) c 2).trans (V16_in m hT c _ (by decide)).symm)
  | ⟨3, _⟩ => (u5_v78 m hT c).symm.trans (V16_at_out m c (outs m hT)).symm
/-- Every buffer that is no window's array is as entered. -/
theorem hrest3 (b : Ref sig .tc) (hb : b ∉ Finset.univ.image (Pipeline.arrRef spec3)) : V16 m (outs m hT) c b = Ve15 m c b :=
  V16_in m hT c b fun h => hb (Finset.mem_image.mpr ⟨3, Finset.mem_univ _, (List.mem_singleton.mp h).symm⟩)

end R3

-- unifying a library lemma stated over the pinned family with the printed configuration unfolds plain definitions in a
-- metavariable's type
set_option backward.isDefEq.respectTransparency.types false in
/-- REGION 3: the last dense layer, entered from the valuation after the host stretches that follow region 2 and left at that valuation with its output array replaced. Its arrays are split out of the unscoped buffers at entry and put back at the exit
    valuation (the inputs as entered, the output at what the region leaves, every other buffer untouched); the generator
    register passes through the invariant; nothing is owed; the kernel has no semaphore of its own. -/
def reg3 (hT : TblInRange (tbl m)) : Pipeline.RegionSeg (pcfgs (F := F)) (adm m) (pdats m hT) () defs₀ Variants.none Lz lvz 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (Ve15 m) c).loose
  hwaits := Pipeline.hwaits_of_owed_zero _ _ _ _ Lz lvz 3 fun _ _ => rfl
  pre c := iprop(StableHlo.held (c : Thread nD τ) (Pipeline.ucRefs τ sig) (V15 m (outs m hT) c) ∗ Rr c)
  post c := iprop(StableHlo.held (c : Thread nD τ) (Pipeline.ucRefs τ sig) (V16 m (outs m hT) c) ∗ Rr c)
  X c := iprop(∃ r, prngReg c r)
  Y c := iprop(∃ r, prngReg c r)
  Z c := Pipeline.unscopedRest (Ix := Unit) (Name := ℕ) (U := Pipeline.UD sig nD τ) (Lvl := ℕ) spec3 c (Ve15 m c)
  hentry c := by
    rw [V15_outs m hT c]
    rw [Pipeline.ownSems0_none]
    have hsplit := Pipeline.arrays_of_unscopedBufs (p := 3) (pcfgs (F := F)) (adm m) (pdats m hT) (launch3 (F := F)).win (launch3 (F := F)).arr_whole c
      ((pdats m hT 3 c).share_full fun _ => rfl) (Ve15 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m hT 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m hT) ((pdats m hT 3 c).share_full fun _ => rfl)
      (Ve15 m c) (fun b => V16 m (outs m hT) c b) ((pdats m hT 3 c).arrAt · cfg3.N) (hF3 m hT c) (hrest3 m hT c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

/-- The unscoped buffers that are no array of region 4's window, at the valuation it is entered from: the index table at the
    launch memory's words, the array the body copies rows of, and the others. -/
theorem unscopedRest4_eq (c : Dev nD) :
    (Pipeline.unscopedRest (Ix := Unit) (Name := ℕ) (U := Pipeline.UD sig nD τ) (Lvl := ℕ) spec4 c (Ve16 m c) : sProp 𝕄)
      = iprop(Pipeline.prefHeld (Ix := Unit) (Name := ℕ) (U := Pipeline.UD sig nD τ) (Lvl := ℕ) pre4 c (fun _ => fullShare) (tbl m)
          ∗ (bigSep H4 fun b => (((c : Thread nD τ)).loc b) ↦{fullShare} Ve16 m c b)
          ∗ bigSep (Pipeline.restRefsP sig pre4 spec4 \ H4) fun b => (((c : Thread nD τ)).loc b) ↦{fullShare} Ve16 m c b) := by
  rw [Pipeline.unscopedRest_split preFacts4 c (Ve16 m c),
    show (fun k => Ve16 m c (pre4.ref k)) = tbl m from funext fun k => V16_tbl m _ c k,
    Pipeline.unscopedRestP_sdiff pre4 spec4 H4 H4_sub c (Ve16 m c)]

-- unifying a library lemma stated over the pinned family with the printed configuration unfolds plain definitions in a
-- metavariable's type
set_option backward.isDefEq.respectTransparency.types false in
/-- REGION 4: the row gather, entered from the valuation region 3 is left at and left at that valuation with its output
    array replaced. At entry the unscoped buffers split into the output window's array, the index table (whose words no
    earlier item wrote: the launch memory's), the array the body copies rows of, and the rest; the table, that array,
    the generator register and the body's own DMA cell at zero make the invariant with the scoped buffers, and come
    back out of it at the last point; at exit everything is put back, the output array at what the region leaves, the
    copied-from array as it was found. Nothing is owed. -/
def reg4 (hT : TblInRange (tbl m)) : Pipeline.RegionSeg (pcfgs (F := F)) (adm m) (pdats m hT) () defs₀ Variants.none Lz lvz 4 where
  win := (launch4 (F := F)).win.to₀
  block_pos := (launch4 (F := F)).block_pos
  stage_whole := (launch4 (F := F)).stage_whole
  K := Fin 1
  osem := osem4
  ho := ownSemFacts4
  hbody c := (body_obligation4 (Ve16 m) (tbl m) hT c).loose
  hwaits := Pipeline.hwaits_of_owed_zero _ _ _ _ Lz lvz 4 fun _ _ => rfl
  pre c := iprop(StableHlo.held (c : Thread nD τ) (Pipeline.ucRefs τ sig) (V16 m (outs m hT) c) ∗ Rr c)
  post c := iprop(StableHlo.held (c : Thread nD τ) (Pipeline.ucRefs τ sig) (V17 m (outs m hT) c) ∗ Rr c)
  X c := iprop((∃ r, prngReg c r) ∗ Pipeline.ownSems0 (Ix := Unit) (Name := ℕ) (U := Pipeline.UD sig nD τ) (Lvl := ℕ) (Val := Elt F) (τ := τ) osem4 c
    ∗ (bigSep H4 fun b => (((c : Thread nD τ)).loc b) ↦{fullShare} Ve16 m c b))
  Y c := iprop((∃ r, prngReg c r) ∗ (bigSep H4 fun b => (((c : Thread nD τ)).loc b) ↦{fullShare} Ve16 m c b)
    ∗ Pipeline.prefHeld (Ix := Unit) (Name := ℕ) (U := Pipeline.UD sig nD τ) (Lvl := ℕ) pre4 c (fun _ => fullShare) (tbl m))
  Z c := bigSep (Pipeline.restRefsP sig pre4 spec4 \ H4) fun b => (((c : Thread nD τ)).loc b) ↦{fullShare} Ve16 m c b
  hentry c := by
    rw [V16_outs m hT c]
    have hsplit := Pipeline.arrays_of_unscopedBufs (p := 4) (pcfgs (F := F)) (adm m) (pdats m hT) (launch4 (F := F)).win (launch4 (F := F)).arr_whole c
      ((pdats m hT 4 c).share_full fun _ => rfl) (Ve16 m c) (fun _ => rfl)
    rw [Pipeline.unscopedBufs_held] at hsplit
    have hH := unscopedRest4_eq m c
    iintro ⟨⟨Hub, Hp, HO⟩, Hos, -⟩
    ihave H := hsplit $$ Hub
    icases H with ⟨Ha, Hrest⟩
    ihave H' := (Entails.of_eq hH) $$ Hrest
    icases H' with ⟨Htb, HH, HR⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hT 4 c).Φ 0 = Phi4 (Ve16 m) (tbl m) c from rfl]; unfold Phi4; rw [Pipeline.ΦD_eq]
    iintro ⟨⟨Hp, Ho, HH⟩, Htb, Hr⟩
    isplitr [Htb]
    · isplitl [Hr]; · iexact Hr
      isplitl [Hp]; · iexact Hp
      isplitl [Ho]; · iexact Ho
      iexact HH
    iexact Htb
  hout c := by
    rw [show (pdats m hT 4 c).Φ (Fin.last _) = Phi4 (Ve16 m) (tbl m) c from rfl]; unfold Phi4; rw [Pipeline.ΦD_eq]
    iintro ⟨⟨Hr, Hp, Ho, HH⟩, Htb⟩
    isplitl [Hp HH Htb]
    · isplitl [Hp]; · iexact Hp
      isplitl [HH]; · iexact HH
      iexact Htb
    isplitl [Ho]; · iexact Ho
    iexact Hr
  hexit c := by
    -- the output window's array at the exit valuation: what the region leaves
    have hF : ∀ w : Fin (cfg4 (adm4 (tbl m))).W, (pdats m hT 4 c).arrAt w (cfg4 (adm4 (tbl m))).N = (V17 m (outs m hT) c) (Pipeline.arrRef spec4 w) := fun
      | ⟨0, _⟩ => by
        show _ = Function.update (Function.update (V16 m (outs m hT) c) (Proc.devRef .tc main_v79) (outs m hT 17 main_v79 c))
          (Proc.devRef .tc main_v78) (outs m hT 17 main_v78 c) (Proc.devRef .tc main_v79)
        rw [Function.update_of_ne (StableHlo.devRef_ne_of_ne (by decide)), Function.update_self]
        exact (u5_v79 m hT c).symm
    -- every other buffer as entered: the copied-from array by what the region leaves in it, the rest untouched
    have hrest : ∀ b : Ref sig .tc, b ∉ Finset.univ.image (Pipeline.arrRef spec4) → (V17 m (outs m hT) c) b = Ve16 m c b := fun b hb => by
      by_cases h78 : b = main_v78
      · subst h78
        show Function.update (Function.update (V16 m (outs m hT) c) (Proc.devRef .tc main_v79) (outs m hT 17 main_v79 c))
          (Proc.devRef .tc main_v78) (outs m hT 17 main_v78 c) (Proc.devRef .tc main_v78) = _
        rw [Function.update_self, outs_17' m hT c]; exact congrFun (V16_outs m hT c) _
      · refine (V17_of m (outs m hT) c b fun h => ?_).trans (congrFun (V16_outs m hT c) _)
        rcases List.mem_cons.mp h with h | h
        · exact hb (Finset.mem_image.mpr ⟨0, Finset.mem_univ _, h.symm⟩)
        · exact h78 (List.mem_singleton.mp h)
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m hT) ((pdats m hT 4 c).share_full fun _ => rfl)
      (Ve16 m c) (fun b => V17 m (outs m hT) c b) ((pdats m hT 4 c).arrAt · (cfg4 (adm4 (tbl m))).N) hF hrest
    rw [Pipeline.unscopedBufs_held] at hjoin
    have hH := unscopedRest4_eq m c
    iintro ⟨Ha, HO, ⟨HY, HH, Htb⟩, HR⟩
    ihave Hrest := (Entails.of_eq hH.symm) $$ [Htb HH HR]
    · isplitl [Htb]; · iexact Htb
      isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the last valuation names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which unfolds plain definitions
-- in a metavariable's type
set_option backward.isDefEq.respectTransparency.types false in
/-- THE RUN. From a launch memory whose index table holds row numbers of the gathered array, every weakly fair execution
    of the program terminates and the final memory holds every unscoped buffer at the last valuation, the regions'
    outputs at the named contents. The launch funds the pipelines' staging cells from the user algebra's left component;
    each core's generator register and its dues (nothing) ride beside the buffers through every item; the regions are the
    five records above, each entered from and left at the valuations the host stretches are run between. -/
theorem run_all (hT : TblInRange (tbl m)) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V18 m (outs m hT) c b) :=
  run_cond m (Ix := Unit) (U := Pipeline.UD sig nD τ) (Lvl := ℕ) embL () Variants.none Lz lvz (fun _ _ => rfl) ρ (outs m hT) (adm m) (pdats m hT)
    0 (fun _ => iprop(emp))
    (initOf (Pipeline.cells (Pipeline.pin (pcfgs (F := F)) (adm m)) (cellOf_inj (adm m))) (Pipeline.launchToks (Pipeline.pin (pcfgs (F := F)) (adm m)) (cellOf_inj (adm m))), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => Rr c)
    (by
      refine Pipeline.initEach Lz lvz fun c => ?_
      iintro ⟨⟨-, HO, -, Hp, -⟩, -⟩
      imodintro
      isplitl [Hp]; · iexists _; iexact Hp
      iexists ∅; iexact HO)
    (fun c => by iintro ⟨-, HO⟩; iexact HO)
    (reg0 m hT) (fun c => .rfl) (fun c => .rfl)
    (reg1 m hT) (fun c => .rfl) (fun c => .rfl)
    (reg2 m hT) (fun c => .rfl) (fun c => .rfl)
    (reg3 m hT) (fun c => .rfl) (fun c => .rfl)
    (reg4 m hT) (fun c => .rfl) (fun c => .rfl)

/-- The arguments end as launched: no host stretch writes one and no region may change one, so the last valuation at an
    argument walks back to the launch memory. -/
theorem frame_all (hT : TblInRange (tbl m)) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c (Proc.devRef .tc main_arg0) (mem_uc main_arg0 (by decide))).trans (V18_main_arg0 m _ c),
     (h c (Proc.devRef .tc main_arg1) (mem_uc main_arg1 (by decide))).trans (V18_main_arg1 m _ c),
     (h c (Proc.devRef .tc main_arg2) (mem_uc main_arg2 (by decide))).trans (V18_main_arg2 m _ c),
     (h c (Proc.devRef .tc main_arg3) (mem_uc main_arg3 (by decide))).trans (V18_main_arg3 m _ c),
     (h c (Proc.devRef .tc main_arg4) (mem_uc main_arg4 (by decide))).trans (V18_main_arg4 m _ c),
     (h c (Proc.devRef .tc main_arg5) (mem_uc main_arg5 (by decide))).trans (V18_main_arg5 m _ c),
     (h c (Proc.devRef .tc main_arg6) (mem_uc main_arg6 (by decide))).trans (V18_main_arg6 m _ c),
     (h c (Proc.devRef .tc main_arg7) (mem_uc main_arg7 (by decide))).trans (V18_main_arg7 m _ c),
     (h c (Proc.devRef .tc main_arg8) (mem_uc main_arg8 (by decide))).trans (V18_main_arg8 m _ c),
     (h c (Proc.devRef .tc main_arg9) (mem_uc main_arg9 (by decide))).trans (V18_main_arg9 m _ c),
     (h c (Proc.devRef .tc main_arg10) (mem_uc main_arg10 (by decide))).trans (V18_main_arg10 m _ c),
     (h c (Proc.devRef .tc main_arg11) (mem_uc main_arg11 (by decide))).trans (V18_main_arg11 m _ c)⟩) (run_all m hT ρ)

/-- The result buffer ends at the last valuation's contents, beside the arguments as launched. -/
theorem run_val (hT : TblInRange (tbl m)) (ρ : Dev nD → PrngReg) :
    θ_run defs (onTc (τ := τ) (main (F := F))) ⟨m, fun _ => 0, ρ⟩ (fun r => ∀ c : Dev nD,
      r.2.mem ((c.tc : Thread nD τ).loc main_v80) = V18 m (outs m hT) c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c (Proc.devRef .tc main_v80) (mem_uc main_v80 (by decide)),
     (h c (Proc.devRef .tc main_arg0) (mem_uc main_arg0 (by decide))).trans (V18_main_arg0 m _ c),
     (h c (Proc.devRef .tc main_arg1) (mem_uc main_arg1 (by decide))).trans (V18_main_arg1 m _ c),
     (h c (Proc.devRef .tc main_arg2) (mem_uc main_arg2 (by decide))).trans (V18_main_arg2 m _ c),
     (h c (Proc.devRef .tc main_arg3) (mem_uc main_arg3 (by decide))).trans (V18_main_arg3 m _ c),
     (h c (Proc.devRef .tc main_arg4) (mem_uc main_arg4 (by decide))).trans (V18_main_arg4 m _ c),
     (h c (Proc.devRef .tc main_arg5) (mem_uc main_arg5 (by decide))).trans (V18_main_arg5 m _ c),
     (h c (Proc.devRef .tc main_arg6) (mem_uc main_arg6 (by decide))).trans (V18_main_arg6 m _ c),
     (h c (Proc.devRef .tc main_arg7) (mem_uc main_arg7 (by decide))).trans (V18_main_arg7 m _ c),
     (h c (Proc.devRef .tc main_arg8) (mem_uc main_arg8 (by decide))).trans (V18_main_arg8 m _ c),
     (h c (Proc.devRef .tc main_arg9) (mem_uc main_arg9 (by decide))).trans (V18_main_arg9 m _ c),
     (h c (Proc.devRef .tc main_arg10) (mem_uc main_arg10 (by decide))).trans (V18_main_arg10 m _ c),
     (h c (Proc.devRef .tc main_arg11) (mem_uc main_arg11 (by decide))).trans (V18_main_arg11 m _ c)⟩) (run_all m hT ρ)

end Cert.KernelIdeal.Hand

end
-- ==== Proof.KI.DenseVal.lean ====
/- The VALUE of the four dense regions at the extended reals: what each region's output array holds after its ten grid
   points, as the reference's own host operations of the arrays the region finds.

   A dense region's grid has ten points. Point t stages rows 5000 t … 5000 t + 4999 of the input rows' array (all columns),
   the whole weight matrix and the whole bias row (a 1 × n array), and stores into rows 5000 t … 5000 t + 4999 of the output
   array the block  bf16(rows) · bf16(weights) + 0  plus the bias row broadcast down the rows. On the extended reals the
   rounding to bf16 is the identity and a matmul into a zero accumulator is the plain sum over the contraction index, so
   entry (p, q) of the stored block is  ∑ k, rows (5000 t + p, k) · weights (k, q) + bias (q):  it depends on row 5000 t + p
   of the input alone, and is entry (5000 t + p, q) of the reference's  dot_general  of the whole arrays plus its broadcast
   bias — the same sum, term by term, so no law of arithmetic is used. In regions 1 and 2 the bias row's array holds zeros,
   and  x + 0 = x  for every extended real, infinite ones too. The ten row blocks tile the 50000 rows (row r is in block
   r / 5000), so the output array ends holding the reference's result everywhere. -/
import proofs.«418828_j78855599555023_1_alg».proof.Proof.KI.Dense0
import proofs.«418828_j78855599555023_1_alg».proof.Proof.KI.Dense1
import proofs.«418828_j78855599555023_1_alg».proof.Proof.KI.Dense2
import proofs.«418828_j78855599555023_1_alg».proof.Proof.KI.Dense3
import proofs.«418828_j78855599555023_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-- The zero offsets of a whole-buffer access, however spelt. -/
theorem hz2 : (![0, 0] : Fin 2 → Nat) = fun _ => 0 := funext fun a => by fin_cases a <;> rfl

/-- The kernel's x-block times weights contraction. Axis by axis: the left operand is read at (row of the output, contraction coordinate), -/
theorem kdot0_l0 (i : S5000x64.Idx) (q : dot_S5000x10_S10x64_S5000x64_1_0_0_1_n_n.contr.Idx) :
    (dot_S5000x10_S10x64_S5000x64_1_0_0_1_n_n.lhsIdx i q 0).val = (i 0).val := by
  unfold DotDims.lhsIdx
  rw [dif_neg (show ¬(0 : Fin S5000x10.rank) ∈ dot_S5000x10_S10x64_S5000x64_1_0_0_1_n_n.lhsBatch by decide), dif_pos (show (0 : Fin S5000x10.rank) ∈ dot_S5000x10_S10x64_S5000x64_1_0_0_1_n_n.lhsNonContracting by decide)]
  rfl
theorem kdot0_l1 (i : S5000x64.Idx) (q : dot_S5000x10_S10x64_S5000x64_1_0_0_1_n_n.contr.Idx) :
    (dot_S5000x10_S10x64_S5000x64_1_0_0_1_n_n.lhsIdx i q 1).val = (q ⟨0, by decide⟩).val :=
  dot_S5000x10_S10x64_S5000x64_1_0_0_1_n_n.lhsIdx_val_of_single rfl i q
/-- the right operand at (contraction coordinate, column of the output). -/
theorem kdot0_r0 (i : S5000x64.Idx) (q : dot_S5000x10_S10x64_S5000x64_1_0_0_1_n_n.contr.Idx) :
    (dot_S5000x10_S10x64_S5000x64_1_0_0_1_n_n.rhsIdx i q 0).val = (q ⟨0, by decide⟩).val :=
  dot_S5000x10_S10x64_S5000x64_1_0_0_1_n_n.rhsIdx_val_of_single rfl i q
theorem kdot0_r1 (i : S5000x64.Idx) (q : dot_S5000x10_S10x64_S5000x64_1_0_0_1_n_n.contr.Idx) :
    (dot_S5000x10_S10x64_S5000x64_1_0_0_1_n_n.rhsIdx i q 1).val = (i 1).val := by
  unfold DotDims.rhsIdx
  rw [dif_neg (show ¬(1 : Fin S10x64.rank) ∈ dot_S5000x10_S10x64_S5000x64_1_0_0_1_n_n.rhsBatch by decide), dif_pos (show (1 : Fin S10x64.rank) ∈ dot_S5000x10_S10x64_S5000x64_1_0_0_1_n_n.rhsNonContracting by decide)]
  rfl
/-- So the contraction's sum at output entry (p, q) is the sum over k below 10 of left (p, k) times right (k, q). -/
theorem kdot0_sum (l : S5000x10.Idx → EReal) (r : S10x64.Idx → EReal) (p : Fin 5000) (q : Fin 64) :
    ∑ k : dot_S5000x10_S10x64_S5000x64_1_0_0_1_n_n.contr.Idx, l (dot_S5000x10_S10x64_S5000x64_1_0_0_1_n_n.lhsIdx (ix2 p q) k) * r (dot_S5000x10_S10x64_S5000x64_1_0_0_1_n_n.rhsIdx (ix2 p q) k)
      = ∑ k : Fin 10, l (ix2 p k) * r (ix2 k q) := by
  rw [← Equiv.sum_comp (contrEquiv1 dot_S5000x10_S10x64_S5000x64_1_0_0_1_n_n 10 rfl rfl).symm]
  refine Finset.sum_congr rfl fun k _ => ?_
  have hk := contrEquiv1_symm_val dot_S5000x10_S10x64_S5000x64_1_0_0_1_n_n 10 rfl rfl k
  have el : dot_S5000x10_S10x64_S5000x64_1_0_0_1_n_n.lhsIdx (ix2 p q) ((contrEquiv1 dot_S5000x10_S10x64_S5000x64_1_0_0_1_n_n 10 rfl rfl).symm k) = ix2 p k := funext fun a => Fin.ext (by
    match a with
    | ⟨0, _⟩ => exact kdot0_l0 _ _
    | ⟨1, _⟩ => exact (kdot0_l1 _ _).trans hk)
  have er : dot_S5000x10_S10x64_S5000x64_1_0_0_1_n_n.rhsIdx (ix2 p q) ((contrEquiv1 dot_S5000x10_S10x64_S5000x64_1_0_0_1_n_n 10 rfl rfl).symm k) = ix2 k q := funext fun a => Fin.ext (by
    match a with
    | ⟨0, _⟩ => exact (kdot0_r0 _ _).trans hk
    | ⟨1, _⟩ => exact kdot0_r1 _ _)
  rw [el, er]

/-- The reference's whole x times weights contraction. Axis by axis: the left operand is read at (row of the output, contraction coordinate), -/
theorem rdot0_l0 (i : Cert.ReferenceIdeal.S50000x64.Idx) (q : Cert.ReferenceIdeal.dot_S50000x10_S10x64_S50000x64_1_0_0_1_n_n.contr.Idx) :
    (Cert.ReferenceIdeal.dot_S50000x10_S10x64_S50000x64_1_0_0_1_n_n.lhsIdx i q 0).val = (i 0).val := by
  unfold DotDims.lhsIdx
  rw [dif_neg (show ¬(0 : Fin Cert.ReferenceIdeal.S50000x10.rank) ∈ Cert.ReferenceIdeal.dot_S50000x10_S10x64_S50000x64_1_0_0_1_n_n.lhsBatch by decide), dif_pos (show (0 : Fin Cert.ReferenceIdeal.S50000x10.rank) ∈ Cert.ReferenceIdeal.dot_S50000x10_S10x64_S50000x64_1_0_0_1_n_n.lhsNonContracting by decide)]
  rfl
theorem rdot0_l1 (i : Cert.ReferenceIdeal.S50000x64.Idx) (q : Cert.ReferenceIdeal.dot_S50000x10_S10x64_S50000x64_1_0_0_1_n_n.contr.Idx) :
    (Cert.ReferenceIdeal.dot_S50000x10_S10x64_S50000x64_1_0_0_1_n_n.lhsIdx i q 1).val = (q ⟨0, by decide⟩).val :=
  Cert.ReferenceIdeal.dot_S50000x10_S10x64_S50000x64_1_0_0_1_n_n.lhsIdx_val_of_single rfl i q
/-- the right operand at (contraction coordinate, column of the output). -/
theorem rdot0_r0 (i : Cert.ReferenceIdeal.S50000x64.Idx) (q : Cert.ReferenceIdeal.dot_S50000x10_S10x64_S50000x64_1_0_0_1_n_n.contr.Idx) :
    (Cert.ReferenceIdeal.dot_S50000x10_S10x64_S50000x64_1_0_0_1_n_n.rhsIdx i q 0).val = (q ⟨0, by decide⟩).val :=
  Cert.ReferenceIdeal.dot_S50000x10_S10x64_S50000x64_1_0_0_1_n_n.rhsIdx_val_of_single rfl i q
theorem rdot0_r1 (i : Cert.ReferenceIdeal.S50000x64.Idx) (q : Cert.ReferenceIdeal.dot_S50000x10_S10x64_S50000x64_1_0_0_1_n_n.contr.Idx) :
    (Cert.ReferenceIdeal.dot_S50000x10_S10x64_S50000x64_1_0_0_1_n_n.rhsIdx i q 1).val = (i 1).val := by
  unfold DotDims.rhsIdx
  rw [dif_neg (show ¬(1 : Fin Cert.ReferenceIdeal.S10x64.rank) ∈ Cert.ReferenceIdeal.dot_S50000x10_S10x64_S50000x64_1_0_0_1_n_n.rhsBatch by decide), dif_pos (show (1 : Fin Cert.ReferenceIdeal.S10x64.rank) ∈ Cert.ReferenceIdeal.dot_S50000x10_S10x64_S50000x64_1_0_0_1_n_n.rhsNonContracting by decide)]
  rfl
/-- So the contraction's sum at output entry (p, q) is the sum over k below 10 of left (p, k) times right (k, q). -/
theorem rdot0_sum (l : Cert.ReferenceIdeal.S50000x10.Idx → EReal) (r : Cert.ReferenceIdeal.S10x64.Idx → EReal) (p : Fin 50000) (q : Fin 64) :
    ∑ k : Cert.ReferenceIdeal.dot_S50000x10_S10x64_S50000x64_1_0_0_1_n_n.contr.Idx, l (Cert.ReferenceIdeal.dot_S50000x10_S10x64_S50000x64_1_0_0_1_n_n.lhsIdx (ix2 p q) k) * r (Cert.ReferenceIdeal.dot_S50000x10_S10x64_S50000x64_1_0_0_1_n_n.rhsIdx (ix2 p q) k)
      = ∑ k : Fin 10, l (ix2 p k) * r (ix2 k q) := by
  rw [← Equiv.sum_comp (contrEquiv1 Cert.ReferenceIdeal.dot_S50000x10_S10x64_S50000x64_1_0_0_1_n_n 10 rfl rfl).symm]
  refine Finset.sum_congr rfl fun k _ => ?_
  have hk := contrEquiv1_symm_val Cert.ReferenceIdeal.dot_S50000x10_S10x64_S50000x64_1_0_0_1_n_n 10 rfl rfl k
  have el : Cert.ReferenceIdeal.dot_S50000x10_S10x64_S50000x64_1_0_0_1_n_n.lhsIdx (ix2 p q) ((contrEquiv1 Cert.ReferenceIdeal.dot_S50000x10_S10x64_S50000x64_1_0_0_1_n_n 10 rfl rfl).symm k) = ix2 p k := funext fun a => Fin.ext (by
    match a with
    | ⟨0, _⟩ => exact rdot0_l0 _ _
    | ⟨1, _⟩ => exact (rdot0_l1 _ _).trans hk)
  have er : Cert.ReferenceIdeal.dot_S50000x10_S10x64_S50000x64_1_0_0_1_n_n.rhsIdx (ix2 p q) ((contrEquiv1 Cert.ReferenceIdeal.dot_S50000x10_S10x64_S50000x64_1_0_0_1_n_n 10 rfl rfl).symm k) = ix2 k q := funext fun a => Fin.ext (by
    match a with
    | ⟨0, _⟩ => exact (rdot0_r0 _ _).trans hk
    | ⟨1, _⟩ => exact rdot0_r1 _ _)
  rw [el, er]

/-- Entry (p, q) of the body's stored block: the sum over k of x-block (p, k) times weights (k, q) — the roundings to
    bf16 are the identity on the extended reals and the accumulator is zero — plus the bias row at q. -/
theorem pay0_at (x0 : Vec Ideal S5000x10 .f32) (x1 : Vec Ideal S10x64 .f32) (x2 : Vec Ideal S1x64 .f32) (p : Fin 5000) (q : Fin 64) :
    k0_pay1 x0 x1 x2 (ix2 p q) = (∑ k : Fin 10, x0 (ix2 p k) * x1 (ix2 k q)) + x2 (ix2 (0 : Fin 1) q) := by
  unfold k0_pay1
  refine (addf_apply _ _ _).trans ?_
  refine congrArg₂ (· + ·) ?_ ?_
  · exact (Ideal.matmul_constant_zero_apply dot_S5000x10_S10x64_S5000x64_1_0_0_1_n_n none _ _ (ix2 p q)).trans (kdot0_sum x0 x1 p q)
  · exact (broadcastTo_1b_ab_apply _ _ p q).trans (congrFun (shapeCast_self x2 _) _)

/-- Entry (r, q) of the reference's encoder: the sum over k of x (r, k) times weights (k, q), plus the bias at q. -/
theorem enc_at (x : FVec Ideal Cert.ReferenceIdeal.S50000x10 .f32) (W : FVec Ideal Cert.ReferenceIdeal.S10x64 .f32) (b : FVec Ideal Cert.ReferenceIdeal.S64 .f32) (r : Fin 50000) (q : Fin 64) :
    Cert.Spec.enc x W b (ix2 r q) = (∑ k : Fin 10, x (ix2 r k) * W (ix2 k q)) + b (ix1 q) := by
  unfold Cert.Spec.enc
  refine (addf_apply _ _ _).trans ?_
  refine congrArg₂ (· + ·) ?_ ?_
  · simp only [Host.dotGeneral]
    exact (Ideal.dotGeneral_apply _ none _ x W (ix2 r q)).trans (rdot0_sum x W r q)
  · refine (broadcastInDim_apply _ _ _ (ix2 r q) (ix2 (0 : Fin 1) q) ?_).trans (broadcastInDim_apply _ _ b (ix2 (0 : Fin 1) q) (ix1 q) ?_)
    · intro a; match a with | ⟨0, _⟩ => rfl | ⟨1, _⟩ => rfl
    · intro a; match a with | ⟨0, _⟩ => rfl

/-- The kernel's row block times 64 by 64 weights contraction (regions 1 and 2). Axis by axis: the left operand is read at (row of the output, contraction coordinate), -/
theorem kdot1_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem kdot1_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at (contraction coordinate, column of the output). -/
theorem kdot1_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem kdot1_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- So the contraction's sum at output entry (p, q) is the sum over k below 64 of left (p, k) times right (k, q). -/
theorem kdot1_sum (l : S5000x64.Idx → EReal) (r : S64x64.Idx → EReal) (p : Fin 5000) (q : Fin 64) :
    ∑ k : dot_S5000x64_S64x64_S5000x64_1_0_0_1_n_n.contr.Idx, l (dot_S5000x64_S64x64_S5000x64_1_0_0_1_n_n.lhsIdx (ix2 p q) k) * r (dot_S5000x64_S64x64_S5000x64_1_0_0_1_n_n.rhsIdx (ix2 p q) k)
      = ∑ k : Fin 64, l (ix2 p k) * r (ix2 k q) := by
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact kdot1_l0 _ _
    | ⟨1, _⟩ => exact (kdot1_l1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (kdot1_r0 _ _).trans hk
    | ⟨1, _⟩ => exact kdot1_r1 _ _)
  rw [el, er]

/-- The reference's whole rows times 64 by 64 weights contraction. Axis by axis: the left operand is read at (row of the output, contraction coordinate), -/
theorem rdot1_l0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
theorem rdot1_l1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
/-- the right operand at (contraction coordinate, column of the output). -/
theorem rdot1_r0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
theorem rdot1_r1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl
/-- So the contraction's sum at output entry (p, q) is the sum over k below 64 of left (p, k) times right (k, q). -/
theorem rdot1_sum (l : Cert.ReferenceIdeal.S50000x64.Idx → EReal) (r : Cert.ReferenceIdeal.S64x64.Idx → EReal) (p : Fin 50000) (q : Fin 64) :
    ∑ k : Cert.ReferenceIdeal.dot_S50000x64_S64x64_S50000x64_1_0_0_1_n_n.contr.Idx, l (Cert.ReferenceIdeal.dot_S50000x64_S64x64_S50000x64_1_0_0_1_n_n.lhsIdx (ix2 p q) k) * r (Cert.ReferenceIdeal.dot_S50000x64_S64x64_S50000x64_1_0_0_1_n_n.rhsIdx (ix2 p q) k)
      = ∑ k : Fin 64, l (ix2 p k) * r (ix2 k q) := by
  rw [← Equiv.sum_comp (contrEquiv1 Cert.ReferenceIdeal.dot_S50000x64_S64x64_S50000x64_1_0_0_1_n_n 64 rfl rfl).symm]
  refine Finset.sum_congr rfl fun k _ => ?_
  have hk := contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 p q) ((contrEquiv1 Cert.ReferenceIdeal.dot_S50000x64_S64x64_S50000x64_1_0_0_1_n_n 64 rfl rfl).symm k) = ix2 p k := funext fun a => Fin.ext (by
    match a with
    | ⟨0, _⟩ => exact rdot1_l0 _ _
    | ⟨1, _⟩ => exact (rdot1_l1 _ _).trans hk)
  have er : Cert.ReferenceIdeal.dot_S50000x64_S64x64_S50000x64_1_0_0_1_n_n.rhsIdx (ix2 p q) ((contrEquiv1 Cert.ReferenceIdeal.dot_S50000x64_S64x64_S50000x64_1_0_0_1_n_n 64 rfl rfl).symm k) = ix2 k q := funext fun a => Fin.ext (by
    match a with
    | ⟨0, _⟩ => exact (rdot1_r0 _ _).trans hk
    | ⟨1, _⟩ => exact rdot1_r1 _ _)
  rw [el, er]

/-- The kernel's row block times 64 by 128 weights contraction. Axis by axis: the left operand is read at (row of the output, contraction coordinate), -/
theorem kdot3_l0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem kdot3_l1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- the right operand at (contraction coordinate, column of the output). -/
theorem kdot3_r0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem kdot3_r1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl
/-- So the contraction's sum at output entry (p, q) is the sum over k below 64 of left (p, k) times right (k, q). -/
theorem kdot3_sum (l : S5000x64.Idx → EReal) (r : S64x128.Idx → EReal) (p : Fin 5000) (q : Fin 128) :
    ∑ k : dot_S5000x64_S64x128_S5000x128_1_0_0_1_n_n.contr.Idx, l (dot_S5000x64_S64x128_S5000x128_1_0_0_1_n_n.lhsIdx (ix2 p q) k) * r (dot_S5000x64_S64x128_S5000x128_1_0_0_1_n_n.rhsIdx (ix2 p q) k)
      = ∑ k : Fin 64, l (ix2 p k) * r (ix2 k q) := by
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact kdot3_l0 _ _
    | ⟨1, _⟩ => exact (kdot3_l1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (kdot3_r0 _ _).trans hk
    | ⟨1, _⟩ => exact kdot3_r1 _ _)
  rw [el, er]

/-- The reference's whole rows times 64 by 128 weights contraction. Axis by axis: the left operand is read at (row of the output, contraction coordinate), -/
theorem rdot3_l0 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x128_S50000x128_1_0_0_1_n_n.lhsBatch by decide), dif_pos (show (0 : Fin Cert.ReferenceIdeal.S50000x64.rank) ∈ Cert.ReferenceIdeal.dot_S50000x64_S64x128_S50000x128_1_0_0_1_n_n.lhsNonContracting by decide)]
  rfl
theorem rdot3_l1 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 1).val = (q ⟨0, by decide⟩).val :=
  Cert.ReferenceIdeal.dot_S50000x64_S64x128_S50000x128_1_0_0_1_n_n.lhsIdx_val_of_single rfl i q
/-- the right operand at (contraction coordinate, column of the output). -/
theorem rdot3_r0 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 0).val = (q ⟨0, by decide⟩).val :=
  Cert.ReferenceIdeal.dot_S50000x64_S64x128_S50000x128_1_0_0_1_n_n.rhsIdx_val_of_single rfl i q
theorem rdot3_r1 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 1).val = (i 1).val := by
  unfold DotDims.rhsIdx
  rw [dif_neg (show ¬(1 : Fin Cert.ReferenceIdeal.S64x128.rank) ∈ Cert.ReferenceIdeal.dot_S50000x64_S64x128_S50000x128_1_0_0_1_n_n.rhsBatch by decide), dif_pos (show (1 : Fin Cert.ReferenceIdeal.S64x128.rank) ∈ Cert.ReferenceIdeal.dot_S50000x64_S64x128_S50000x128_1_0_0_1_n_n.rhsNonContracting by decide)]
  rfl
/-- So the contraction's sum at output entry (p, q) is the sum over k below 64 of left (p, k) times right (k, q). -/
theorem rdot3_sum (l : Cert.ReferenceIdeal.S50000x64.Idx → EReal) (r : Cert.ReferenceIdeal.S64x128.Idx → EReal) (p : Fin 50000) (q : Fin 128) :
    ∑ k : Cert.ReferenceIdeal.dot_S50000x64_S64x128_S50000x128_1_0_0_1_n_n.contr.Idx, l (Cert.ReferenceIdeal.dot_S50000x64_S64x128_S50000x128_1_0_0_1_n_n.lhsIdx (ix2 p q) k) * r (Cert.ReferenceIdeal.dot_S50000x64_S64x128_S50000x128_1_0_0_1_n_n.rhsIdx (ix2 p q) k)
      = ∑ k : Fin 64, l (ix2 p k) * r (ix2 k q) := by
  rw [← Equiv.sum_comp (contrEquiv1 Cert.ReferenceIdeal.dot_S50000x64_S64x128_S50000x128_1_0_0_1_n_n 64 rfl rfl).symm]
  refine Finset.sum_congr rfl fun k _ => ?_
  have hk := contrEquiv1_symm_val Cert.ReferenceIdeal.dot_S50000x64_S64x128_S50000x128_1_0_0_1_n_n 64 rfl rfl k
  have el : Cert.ReferenceIdeal.dot_S50000x64_S64x128_S50000x128_1_0_0_1_n_n.lhsIdx (ix2 p q) ((contrEquiv1 Cert.ReferenceIdeal.dot_S50000x64_S64x128_S50000x128_1_0_0_1_n_n 64 rfl rfl).symm k) = ix2 p k := funext fun a => Fin.ext (by
    match a with
    | ⟨0, _⟩ => exact rdot3_l0 _ _
    | ⟨1, _⟩ => exact (rdot3_l1 _ _).trans hk)
  have er : Cert.ReferenceIdeal.dot_S50000x64_S64x128_S50000x128_1_0_0_1_n_n.rhsIdx (ix2 p q) ((contrEquiv1 Cert.ReferenceIdeal.dot_S50000x64_S64x128_S50000x128_1_0_0_1_n_n 64 rfl rfl).symm k) = ix2 k q := funext fun a => Fin.ext (by
    match a with
    | ⟨0, _⟩ => exact (rdot3_r0 _ _).trans hk
    | ⟨1, _⟩ => exact rdot3_r1 _ _)
  rw [el, er]

/-- Entry (p, q) of the body's stored block in region 1: the sum over k of input block (p, k) times weights (k, q) — the cast
    to the same shape and the roundings to bf16 are the identity, the accumulator is zero — plus the bias row at q. -/
theorem pay1_at (x0 : Vec Ideal S5000x64 .f32) (x1 : Vec Ideal S64x64 .f32) (x2 : Vec Ideal S1x64 .f32) (p : Fin 5000) (q : Fin 64) :
    k1_pay1 x0 x1 x2 (ix2 p q) = (∑ k : Fin 64, x0 (ix2 p k) * x1 (ix2 k q)) + x2 (ix2 (0 : Fin 1) q) := by
  unfold k1_pay1
  refine (addf_apply _ _ _).trans ?_
  refine congrArg₂ (· + ·) ?_ ?_
  · refine (Ideal.matmul_constant_zero_apply dot_S5000x64_S64x64_S5000x64_1_0_0_1_n_n none _ _ (ix2 p q)).trans ?_
    refine (kdot1_sum _ _ p q).trans ?_
    exact Finset.sum_congr rfl fun k _ => congrArg (· * x1 (ix2 k q)) (congrFun (shapeCast_self x0 _) (ix2 p k))
  · exact (broadcastTo_1b_ab_apply _ _ p q).trans (congrFun (shapeCast_self x2 _) _)

/-- Entry (p, q) of the body's stored block in region 2: the sum over k of input block (p, k) times weights (k, q) — the cast
    to the same shape and the roundings to bf16 are the identity, the accumulator is zero — plus the bias row at q. -/
theorem pay2_at (x0 : Vec Ideal S5000x64 .f32) (x1 : Vec Ideal S64x64 .f32) (x2 : Vec Ideal S1x64 .f32) (p : Fin 5000) (q : Fin 64) :
    k2_pay1 x0 x1 x2 (ix2 p q) = (∑ k : Fin 64, x0 (ix2 p k) * x1 (ix2 k q)) + x2 (ix2 (0 : Fin 1) q) := by
  unfold k2_pay1
  refine (addf_apply _ _ _).trans ?_
  refine congrArg₂ (· + ·) ?_ ?_
  · refine (Ideal.matmul_constant_zero_apply dot_S5000x64_S64x64_S5000x64_1_0_0_1_n_n none _ _ (ix2 p q)).trans ?_
    refine (kdot1_sum _ _ p q).trans ?_
    exact Finset.sum_congr rfl fun k _ => congrArg (· * x1 (ix2 k q)) (congrFun (shapeCast_self x0 _) (ix2 p k))
  · exact (broadcastTo_1b_ab_apply _ _ p q).trans (congrFun (shapeCast_self x2 _) _)

/-- Entry (p, q) of the body's stored block in region 3: the sum over k of input block (p, k) times weights (k, q) — the cast
    to the same shape and the roundings to bf16 are the identity, the accumulator is zero — plus the bias row at q. -/
theorem pay3_at (x0 : Vec Ideal S5000x64 .f32) (x1 : Vec Ideal S64x128 .f32) (x2 : Vec Ideal S1x128 .f32) (p : Fin 5000) (q : Fin 128) :
    k3_pay1 x0 x1 x2 (ix2 p q) = (∑ k : Fin 64, x0 (ix2 p k) * x1 (ix2 k q)) + x2 (ix2 (0 : Fin 1) q) := by
  unfold k3_pay1
  refine (addf_apply _ _ _).trans ?_
  refine congrArg₂ (· + ·) ?_ ?_
  · refine (Ideal.matmul_constant_zero_apply dot_S5000x64_S64x128_S5000x128_1_0_0_1_n_n none _ _ (ix2 p q)).trans ?_
    refine (kdot3_sum _ _ p q).trans ?_
    exact Finset.sum_congr rfl fun k _ => congrArg (· * x1 (ix2 k q)) (congrFun (shapeCast_self x0 _) (ix2 p k))
  · exact (broadcastTo_1b_ab_apply _ _ p q).trans (congrFun (shapeCast_self x2 _) _)

/-- Entry (r, q) of the reference's linear map: the sum over k of h (r, k) times weights (k, q). -/
theorem lin_at (h : FVec Ideal Cert.ReferenceIdeal.S50000x64 .f32) (W : FVec Ideal Cert.ReferenceIdeal.S64x64 .f32) (r : Fin 50000) (q : Fin 64) :
    Cert.Spec.lin h W (ix2 r q) = ∑ k : Fin 64, h (ix2 r k) * W (ix2 k q) := by
  unfold Cert.Spec.lin
  simp only [Host.dotGeneral]
  exact (Ideal.dotGeneral_apply _ none _ h W (ix2 r q)).trans (rdot1_sum h W r q)

/-- Entry (r, q) of the reference's projection: the sum over k of h (r, k) times weights (k, q), plus the bias at q. -/
theorem proj_at (h : FVec Ideal Cert.ReferenceIdeal.S50000x64 .f32) (W : FVec Ideal Cert.ReferenceIdeal.S64x128 .f32) (b : FVec Ideal Cert.ReferenceIdeal.S128 .f32) (r : Fin 50000) (q : Fin 128) :
    Cert.Spec.proj h W b (ix2 r q) = (∑ k : Fin 64, h (ix2 r k) * W (ix2 k q)) + b (ix1 q) := by
  unfold Cert.Spec.proj
  refine (addf_apply _ _ _).trans ?_
  refine congrArg₂ (· + ·) ?_ ?_
  · simp only [Host.dotGeneral]
    exact (Ideal.dotGeneral_apply _ none _ h W (ix2 r q)).trans (rdot3_sum h W r q)
  · refine (broadcastInDim_apply _ _ _ (ix2 r q) (ix2 (0 : Fin 1) q) ?_).trans (broadcastInDim_apply _ _ b (ix2 (0 : Fin 1) q) (ix1 q) ?_)
    · intro a; match a with | ⟨0, _⟩ => rfl | ⟨1, _⟩ => rfl
    · intro a; match a with | ⟨0, _⟩ => rfl

section Region0
variable (V : (c : Dev nD) → (b : Ref sig .tc) → Buf (Elt Ideal) ((c : Thread nD τ).loc b))

/-- The block indices over the grid: the input rows' window and the output's are at row block t, column block 0; the
    weights' and the bias row's windows are the whole of their arrays at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input rows' block at point t, entry (p, k), is the array's entry (5000 t + p, k). -/
theorem xblk0_at (c : Dev nD) (t : Fin cfg0.N) (p : Fin 5000) (k : Fin 10) (r : Fin 50000) (hr : r.val = 5000 * t.val + p.val) :
    (iblk0 V c 0 t : Vec Ideal S5000x10 .f32) (ix2 p k) = (V c main_arg0 : S50000x10.Idx → Elt Ideal .f32) (ix2 r k) := by
  obtain ⟨e0, e1, -⟩ := idx0 t
  unfold iblk0
  rw [View.read_apply]
  show V c main_arg0 _ = V c main_arg0 _
  congr 1
  funext a; apply Fin.ext
  match a with
  | ⟨0, _⟩ => show win0_0.index t 0 * 5000 + 1 * p.val = r.val; rw [e0, hr]; omega
  | ⟨1, _⟩ => show win0_0.index t 1 * 10 + 1 * k.val = k.val; rw [e1]; omega

/-- The weights' block at any point is the weights' array. -/
theorem wblk0_at (c : Dev nD) (t : Fin cfg0.N) (k : Fin 10) (q : Fin 64) :
    (iblk0 V c 1 t : Vec Ideal S10x64 .f32) (ix2 k q) = (V c main_arg4 : S10x64.Idx → Elt Ideal .f32) (ix2 k q) := by
  obtain ⟨-, -, e2, e3, -⟩ := idx0 t
  unfold iblk0
  rw [View.read_apply]
  show V c main_arg4 _ = V c main_arg4 _
  congr 1
  funext a; apply Fin.ext
  match a with
  | ⟨0, _⟩ => show win0_1.index t 0 * 10 + 1 * k.val = k.val; rw [e2]; omega
  | ⟨1, _⟩ => show win0_1.index t 1 * 64 + 1 * q.val = q.val; rw [e3]; omega

/-- The bias row's block at any point is the bias row's array. -/
theorem bblk0_at (c : Dev nD) (t : Fin cfg0.N) (q : Fin 64) :
    (iblk0 V c 2 t : Vec Ideal S1x64 .f32) (ix2 (0 : Fin 1) q) = (V c main_v0 : S1x64.Idx → Elt Ideal .f32) (ix2 (0 : Fin 1) q) := by
  obtain ⟨-, -, -, -, e4, e5, -⟩ := idx0 t
  unfold iblk0
  rw [View.read_apply]
  show V c main_v0 _ = V c main_v0 _
  congr 1
  funext a; apply Fin.ext
  match a with
  | ⟨0, _⟩ => show win0_2.index t 0 * 1 + 1 * 0 = 0; rw [e4]
  | ⟨1, _⟩ => show win0_2.index t 1 * 64 + 1 * q.val = q.val; rw [e5]; omega

/-- Entry (p, q) of what the body stores at point t is entry (5000 t + p, q) of the reference's encoder of the whole
    arrays: the same sum over k, term by term, and the same bias entry. -/
theorem blk0_at (c : Dev nD) (t : Fin cfg0.N) (b0 : FVec Ideal Cert.ReferenceIdeal.S64 .f32)
    (hb : ∀ j : Fin 64, (V c main_v0 : S1x64.Idx → Elt Ideal .f32) (ix2 (0 : Fin 1) j) = b0 (ix1 j))
    (p : Fin 5000) (q : Fin 64) (r : Fin 50000) (hr : r.val = 5000 * t.val + p.val) :
    k0_pay1 (iblk0 V c 0 t) (iblk0 V c 1 t) (iblk0 V c 2 t) (ix2 p q)
      = Cert.Spec.enc (F := Ideal) (V c main_arg0) (V c main_arg4) b0 (ix2 r q) := by
  refine (pay0_at (iblk0 V c 0 t) (iblk0 V c 1 t) (iblk0 V c 2 t) p q).trans ?_
  refine Eq.trans ?_ (enc_at (V c main_arg0) (V c main_arg4) b0 r q).symm
  exact congrArg₂ (· + ·) (Finset.sum_congr rfl fun k _ => congrArg₂ (· * ·) (xblk0_at V c t p k r hr) (wblk0_at V c t k q))
    ((bblk0_at V c t q).trans (hb q))

/-- The same over any two indices whose coordinates are so related. -/
theorem blk0_at' (c : Dev nD) (t : Fin cfg0.N) (b0 : FVec Ideal Cert.ReferenceIdeal.S64 .f32)
    (hb : ∀ j : Fin 64, (V c main_v0 : S1x64.Idx → Elt Ideal .f32) (ix2 (0 : Fin 1) j) = b0 (ix1 j))
    (y : S5000x64.Idx) (i : S50000x64.Idx) (h0 : (i 0).val = 5000 * t.val + (y 0).val) (h1 : (i 1).val = (y 1).val) :
    k0_pay1 (iblk0 V c 0 t) (iblk0 V c 1 t) (iblk0 V c 2 t) y = Cert.Spec.enc (F := Ideal) (V c main_arg0) (V c main_arg4) b0 i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : q = s := (Fin.ext h1).symm
  exact blk0_at V c t b0 hb p q r h0

/-- What point t writes back is block t of that result: the body's one store is the whole staging buffer, its loads are
    the input windows' blocks, and the block's entry (p, q) lies at (5000 t + p, q) of the array. -/
theorem flushed0_eq (c : Dev nD) (b0 : FVec Ideal Cert.ReferenceIdeal.S64 .f32)
    (hb : ∀ j : Fin 64, (V c main_v0 : S1x64.Idx → Elt Ideal .f32) (ix2 (0 : Fin 1) j) = b0 (ix1 j)) (t : Fin cfg0.N) :
    (dat0 V c).flushed 3 t = ((cfg0.win 3).blk t).view.read (Elt Ideal) (Cert.Spec.enc (F := Ideal) (V c main_arg0) (V c main_arg4) b0) := by
  show (cfg0.win 3).cut (grid0.coords t) ((dat0 V c).after 3 t) = _
  rw [after0_3]
  unfold out0_3
  rw [View.canon_unit_zero hz2]
  simp only [View.ld_unit_zero (S := S5000x10) hz2, View.ld_unit_zero (S := S10x64) hz2, View.ld_unit_zero (S := S1x64) hz2]
  obtain ⟨-, -, -, -, -, -, e6, e7⟩ := idx0 t
  funext y
  show k0_pay1 (iblk0 V c 0 t) (iblk0 V c 1 t) (iblk0 V c 2 t) ((cfg0.win 3).xinj (grid0.coords t) y)
    = Cert.Spec.enc (F := Ideal) (V c main_arg0) (V c main_arg4) b0 (((cfg0.win 3).blk t).view.emb y)
  refine blk0_at' V c t b0 hb ((cfg0.win 3).xinj (grid0.coords t) y) (((cfg0.win 3).blk t).view.emb y) ?_ ?_
  · show win0_3.index t 0 * 5000 + 1 * (y 0).val = 5000 * t.val + (y 0).val; rw [e6]; omega
  · show win0_3.index t 1 * 64 + 1 * (y 1).val = (y 1).val; rw [e7]; omega

/-- An index of the output array is in point t's block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Row r of the output array is written back by point r / 5000: the ten row blocks tile its 50000 rows. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, -, -, e6, e7⟩ := idx0 t
  refine ⟨t, flush0_3 t, ?_⟩
  rw [mem_blk0]
  intro a
  match a with
  | ⟨0, _⟩ => show win0_3.index t 0 * 5000 ≤ (i 0).val ∧ (i 0).val < win0_3.index t 0 * 5000 + 5000; rw [e6, ht]; omega
  | ⟨1, _⟩ => show win0_3.index t 1 * 64 ≤ (i 1).val ∧ (i 1).val < win0_3.index t 1 * 64 + 64; rw [e7]; omega

/-- THE ENCODER'S REGION: after its ten points the output array holds the reference's encoder of the input rows' array, the weights and the bias,
    given that the bias row's array holds the bias. -/
theorem dense0_val (c : Dev nD) (b0 : FVec Ideal Cert.ReferenceIdeal.S64 .f32)
    (hb : ∀ j : Fin 64, (V c main_v0 : S1x64.Idx → Elt Ideal .f32) (ix2 (0 : Fin 1) j) = b0 (ix1 j)) :
    (dat0 V c).arrAt 3 cfg0.N = Cert.Spec.enc (F := Ideal) (V c main_arg0) (V c main_arg4) b0 := by
  refine (dat0 V c).arrAt_eq_of_cover 3 _ (fun t _ => flushed0_eq V c b0 hb t) ?_
  intro i
  exact cover0 i

end Region0

section Region1
variable (V : (c : Dev nD) → (b : Ref sig .tc) → Buf (Elt Ideal) ((c : Thread nD τ).loc b))

/-- The block indices over the grid: the input rows' window and the output's are at row block t, column block 0; the
    weights' and the bias row's windows are the whole of their arrays at every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input rows' block at point t, entry (p, k), is the array's entry (5000 t + p, k). -/
theorem xblk1_at (c : Dev nD) (t : Fin cfg1.N) (p : Fin 5000) (k : Fin 64) (r : Fin 50000) (hr : r.val = 5000 * t.val + p.val) :
    (iblk1 V c 0 t : Vec Ideal S5000x64 .f32) (ix2 p k) = (V c main_v1 : S50000x64.Idx → Elt Ideal .f32) (ix2 r k) := by
  obtain ⟨e0, e1, -⟩ := idx1 t
  unfold iblk1
  rw [View.read_apply]
  show V c main_v1 _ = V c main_v1 _
  congr 1
  funext a; apply Fin.ext
  match a with
  | ⟨0, _⟩ => show win1_0.index t 0 * 5000 + 1 * p.val = r.val; rw [e0, hr]; omega
  | ⟨1, _⟩ => show win1_0.index t 1 * 64 + 1 * k.val = k.val; rw [e1]; omega

/-- The weights' block at any point is the weights' array. -/
theorem wblk1_at (c : Dev nD) (t : Fin cfg1.N) (k : Fin 64) (q : Fin 64) :
    (iblk1 V c 1 t : Vec Ideal S64x64 .f32) (ix2 k q) = (V c main_arg6 : S64x64.Idx → Elt Ideal .f32) (ix2 k q) := by
  obtain ⟨-, -, e2, e3, -⟩ := idx1 t
  unfold iblk1
  rw [View.read_apply]
  show V c main_arg6 _ = V c main_arg6 _
  congr 1
  funext a; apply Fin.ext
  match a with
  | ⟨0, _⟩ => show win1_1.index t 0 * 64 + 1 * k.val = k.val; rw [e2]; omega
  | ⟨1, _⟩ => show win1_1.index t 1 * 64 + 1 * q.val = q.val; rw [e3]; omega

/-- The bias row's block at any point is the bias row's array. -/
theorem bblk1_at (c : Dev nD) (t : Fin cfg1.N) (q : Fin 64) :
    (iblk1 V c 2 t : Vec Ideal S1x64 .f32) (ix2 (0 : Fin 1) q) = (V c main_v38 : S1x64.Idx → Elt Ideal .f32) (ix2 (0 : Fin 1) q) := by
  obtain ⟨-, -, -, -, e4, e5, -⟩ := idx1 t
  unfold iblk1
  rw [View.read_apply]
  show V c main_v38 _ = V c main_v38 _
  congr 1
  funext a; apply Fin.ext
  match a with
  | ⟨0, _⟩ => show win1_2.index t 0 * 1 + 1 * 0 = 0; rw [e4]
  | ⟨1, _⟩ => show win1_2.index t 1 * 64 + 1 * q.val = q.val; rw [e5]; omega

/-- Entry (p, q) of what the body stores at point t is entry (5000 t + p, q) of the reference's linear map of the whole
    arrays: the same sum over k, term by term, and the bias row's array holds zeros, which add nothing to any extended real. -/
theorem blk1_at (c : Dev nD) (t : Fin cfg1.N)
    (hb : ∀ j : Fin 64, (V c main_v38 : S1x64.Idx → Elt Ideal .f32) (ix2 (0 : Fin 1) j) = (0 : EReal))
    (p : Fin 5000) (q : Fin 64) (r : Fin 50000) (hr : r.val = 5000 * t.val + p.val) :
    k1_pay1 (iblk1 V c 0 t) (iblk1 V c 1 t) (iblk1 V c 2 t) (ix2 p q)
      = Cert.Spec.lin (F := Ideal) (V c main_v1) (V c main_arg6) (ix2 r q) := by
  refine (pay1_at (iblk1 V c 0 t) (iblk1 V c 1 t) (iblk1 V c 2 t) p q).trans ?_
  refine Eq.trans ?_ (lin_at (V c main_v1) (V c main_arg6) r q).symm
  refine Eq.trans ?_ (add_zero _)
  exact congrArg₂ (· + ·) (Finset.sum_congr rfl fun k _ => congrArg₂ (· * ·) (xblk1_at V c t p k r hr) (wblk1_at V c t k q))
    ((bblk1_at V c t q).trans (hb q))

/-- The same over any two indices whose coordinates are so related. -/
theorem blk1_at' (c : Dev nD) (t : Fin cfg1.N)
    (hb : ∀ j : Fin 64, (V c main_v38 : S1x64.Idx → Elt Ideal .f32) (ix2 (0 : Fin 1) j) = (0 : EReal))
    (y : S5000x64.Idx) (i : S50000x64.Idx) (h0 : (i 0).val = 5000 * t.val + (y 0).val) (h1 : (i 1).val = (y 1).val) :
    k1_pay1 (iblk1 V c 0 t) (iblk1 V c 1 t) (iblk1 V c 2 t) y = Cert.Spec.lin (F := Ideal) (V c main_v1) (V c main_arg6) i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : q = s := (Fin.ext h1).symm
  exact blk1_at V c t hb p q r h0

/-- What point t writes back is block t of that result: the body's one store is the whole staging buffer, its loads are
    the input windows' blocks, and the block's entry (p, q) lies at (5000 t + p, q) of the array. -/
theorem flushed1_eq (c : Dev nD)
    (hb : ∀ j : Fin 64, (V c main_v38 : S1x64.Idx → Elt Ideal .f32) (ix2 (0 : Fin 1) j) = (0 : EReal)) (t : Fin cfg1.N) :
    (dat1 V c).flushed 3 t = ((cfg1.win 3).blk t).view.read (Elt Ideal) (Cert.Spec.lin (F := Ideal) (V c main_v1) (V c main_arg6)) := by
  show (cfg1.win 3).cut (grid1.coords t) ((dat1 V c).after 3 t) = _
  rw [after1_3]
  unfold out1_3
  rw [View.canon_unit_zero hz2]
  simp only [View.ld_unit_zero (S := S5000x64) hz2, View.ld_unit_zero (S := S64x64) hz2, View.ld_unit_zero (S := S1x64) hz2]
  obtain ⟨-, -, -, -, -, -, e6, e7⟩ := idx1 t
  funext y
  show k1_pay1 (iblk1 V c 0 t) (iblk1 V c 1 t) (iblk1 V c 2 t) ((cfg1.win 3).xinj (grid1.coords t) y)
    = Cert.Spec.lin (F := Ideal) (V c main_v1) (V c main_arg6) (((cfg1.win 3).blk t).view.emb y)
  refine blk1_at' V c t hb ((cfg1.win 3).xinj (grid1.coords t) y) (((cfg1.win 3).blk t).view.emb y) ?_ ?_
  · show win1_3.index t 0 * 5000 + 1 * (y 0).val = 5000 * t.val + (y 0).val; rw [e6]; omega
  · show win1_3.index t 1 * 64 + 1 * (y 1).val = (y 1).val; rw [e7]; omega

/-- An index of the output array is in point t's block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v39).slice (win1_3.rect t)).set ↔ _
  rw [View.set_slice_whole, Rect.mem_set_unit]
  exact Iff.rfl

/-- Row r of the output array is written back by point r / 5000: the ten row blocks tile its 50000 rows. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, -, -, e6, e7⟩ := idx1 t
  refine ⟨t, flush1_3 t, ?_⟩
  rw [mem_blk1]
  intro a
  match a with
  | ⟨0, _⟩ => show win1_3.index t 0 * 5000 ≤ (i 0).val ∧ (i 0).val < win1_3.index t 0 * 5000 + 5000; rw [e6, ht]; omega
  | ⟨1, _⟩ => show win1_3.index t 1 * 64 ≤ (i 1).val ∧ (i 1).val < win1_3.index t 1 * 64 + 64; rw [e7]; omega

/-- THE LINEAR MAP'S REGION (1): after its ten points the output array holds the reference's linear map of the input rows' array and the weights,
    given that the bias row's array holds zeros. -/
theorem dense1_val (c : Dev nD)
    (hb : ∀ j : Fin 64, (V c main_v38 : S1x64.Idx → Elt Ideal .f32) (ix2 (0 : Fin 1) j) = (0 : EReal)) :
    (dat1 V c).arrAt 3 cfg1.N = Cert.Spec.lin (F := Ideal) (V c main_v1) (V c main_arg6) := by
  refine (dat1 V c).arrAt_eq_of_cover 3 _ (fun t _ => flushed1_eq V c hb t) ?_
  intro i
  exact cover1 i

end Region1

section Region2
variable (V : (c : Dev nD) → (b : Ref sig .tc) → Buf (Elt Ideal) ((c : Thread nD τ).loc b))

/-- The block indices over the grid: the input rows' window and the output's are at row block t, column block 0; the
    weights' and the bias row's windows are the whole of their arrays at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input rows' block at point t, entry (p, k), is the array's entry (5000 t + p, k). -/
theorem xblk2_at (c : Dev nD) (t : Fin cfg2.N) (p : Fin 5000) (k : Fin 64) (r : Fin 50000) (hr : r.val = 5000 * t.val + p.val) :
    (iblk2 V c 0 t : Vec Ideal S5000x64 .f32) (ix2 p k) = (V c main_v56 : S50000x64.Idx → Elt Ideal .f32) (ix2 r k) := by
  obtain ⟨e0, e1, -⟩ := idx2 t
  unfold iblk2
  rw [View.read_apply]
  show V c main_v56 _ = V c main_v56 _
  congr 1
  funext a; apply Fin.ext
  match a with
  | ⟨0, _⟩ => show win2_0.index t 0 * 5000 + 1 * p.val = r.val; rw [e0, hr]; omega
  | ⟨1, _⟩ => show win2_0.index t 1 * 64 + 1 * k.val = k.val; rw [e1]; omega

/-- The weights' block at any point is the weights' array. -/
theorem wblk2_at (c : Dev nD) (t : Fin cfg2.N) (k : Fin 64) (q : Fin 64) :
    (iblk2 V c 1 t : Vec Ideal S64x64 .f32) (ix2 k q) = (V c main_arg8 : S64x64.Idx → Elt Ideal .f32) (ix2 k q) := by
  obtain ⟨-, -, e2, e3, -⟩ := idx2 t
  unfold iblk2
  rw [View.read_apply]
  show V c main_arg8 _ = V c main_arg8 _
  congr 1
  funext a; apply Fin.ext
  match a with
  | ⟨0, _⟩ => show win2_1.index t 0 * 64 + 1 * k.val = k.val; rw [e2]; omega
  | ⟨1, _⟩ => show win2_1.index t 1 * 64 + 1 * q.val = q.val; rw [e3]; omega

/-- The bias row's block at any point is the bias row's array. -/
theorem bblk2_at (c : Dev nD) (t : Fin cfg2.N) (q : Fin 64) :
    (iblk2 V c 2 t : Vec Ideal S1x64 .f32) (ix2 (0 : Fin 1) q) = (V c main_v58 : S1x64.Idx → Elt Ideal .f32) (ix2 (0 : Fin 1) q) := by
  obtain ⟨-, -, -, -, e4, e5, -⟩ := idx2 t
  unfold iblk2
  rw [View.read_apply]
  show V c main_v58 _ = V c main_v58 _
  congr 1
  funext a; apply Fin.ext
  match a with
  | ⟨0, _⟩ => show win2_2.index t 0 * 1 + 1 * 0 = 0; rw [e4]
  | ⟨1, _⟩ => show win2_2.index t 1 * 64 + 1 * q.val = q.val; rw [e5]; omega

/-- Entry (p, q) of what the body stores at point t is entry (5000 t + p, q) of the reference's linear map of the whole
    arrays: the same sum over k, term by term, and the bias row's array holds zeros, which add nothing to any extended real. -/
theorem blk2_at (c : Dev nD) (t : Fin cfg2.N)
    (hb : ∀ j : Fin 64, (V c main_v58 : S1x64.Idx → Elt Ideal .f32) (ix2 (0 : Fin 1) j) = (0 : EReal))
    (p : Fin 5000) (q : Fin 64) (r : Fin 50000) (hr : r.val = 5000 * t.val + p.val) :
    k2_pay1 (iblk2 V c 0 t) (iblk2 V c 1 t) (iblk2 V c 2 t) (ix2 p q)
      = Cert.Spec.lin (F := Ideal) (V c main_v56) (V c main_arg8) (ix2 r q) := by
  refine (pay2_at (iblk2 V c 0 t) (iblk2 V c 1 t) (iblk2 V c 2 t) p q).trans ?_
  refine Eq.trans ?_ (lin_at (V c main_v56) (V c main_arg8) r q).symm
  refine Eq.trans ?_ (add_zero _)
  exact congrArg₂ (· + ·) (Finset.sum_congr rfl fun k _ => congrArg₂ (· * ·) (xblk2_at V c t p k r hr) (wblk2_at V c t k q))
    ((bblk2_at V c t q).trans (hb q))

/-- The same over any two indices whose coordinates are so related. -/
theorem blk2_at' (c : Dev nD) (t : Fin cfg2.N)
    (hb : ∀ j : Fin 64, (V c main_v58 : S1x64.Idx → Elt Ideal .f32) (ix2 (0 : Fin 1) j) = (0 : EReal))
    (y : S5000x64.Idx) (i : S50000x64.Idx) (h0 : (i 0).val = 5000 * t.val + (y 0).val) (h1 : (i 1).val = (y 1).val) :
    k2_pay1 (iblk2 V c 0 t) (iblk2 V c 1 t) (iblk2 V c 2 t) y = Cert.Spec.lin (F := Ideal) (V c main_v56) (V c main_arg8) i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : q = s := (Fin.ext h1).symm
  exact blk2_at V c t hb p q r h0

/-- What point t writes back is block t of that result: the body's one store is the whole staging buffer, its loads are
    the input windows' blocks, and the block's entry (p, q) lies at (5000 t + p, q) of the array. -/
theorem flushed2_eq (c : Dev nD)
    (hb : ∀ j : Fin 64, (V c main_v58 : S1x64.Idx → Elt Ideal .f32) (ix2 (0 : Fin 1) j) = (0 : EReal)) (t : Fin cfg2.N) :
    (dat2 V c).flushed 3 t = ((cfg2.win 3).blk t).view.read (Elt Ideal) (Cert.Spec.lin (F := Ideal) (V c main_v56) (V c main_arg8)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64x64) hz2, View.ld_unit_zero (S := S1x64) hz2]
  obtain ⟨-, -, -, -, -, -, e6, e7⟩ := idx2 t
  funext y
  show k2_pay1 (iblk2 V c 0 t) (iblk2 V c 1 t) (iblk2 V c 2 t) ((cfg2.win 3).xinj (grid2.coords t) y)
    = Cert.Spec.lin (F := Ideal) (V c main_v56) (V c main_arg8) (((cfg2.win 3).blk t).view.emb y)
  refine blk2_at' V c t hb ((cfg2.win 3).xinj (grid2.coords t) y) (((cfg2.win 3).blk t).view.emb y) ?_ ?_
  · show win2_3.index t 0 * 5000 + 1 * (y 0).val = 5000 * t.val + (y 0).val; rw [e6]; omega
  · show win2_3.index t 1 * 64 + 1 * (y 1).val = (y 1).val; rw [e7]; omega

/-- An index of the output array is in point t's block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v59).slice (win2_3.rect t)).set ↔ _
  rw [View.set_slice_whole, Rect.mem_set_unit]
  exact Iff.rfl

/-- Row r of the output array is written back by point r / 5000: the ten row blocks tile its 50000 rows. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [show cfg2.N = 10 from N_2]; omega⟩, rfl⟩
  obtain ⟨-, -, -, -, -, -, e6, e7⟩ := idx2 t
  refine ⟨t, flush2_3 t, ?_⟩
  rw [mem_blk2]
  intro a
  match a with
  | ⟨0, _⟩ => show win2_3.index t 0 * 5000 ≤ (i 0).val ∧ (i 0).val < win2_3.index t 0 * 5000 + 5000; rw [e6, ht]; omega
  | ⟨1, _⟩ => show win2_3.index t 1 * 64 ≤ (i 1).val ∧ (i 1).val < win2_3.index t 1 * 64 + 64; rw [e7]; omega

/-- THE LINEAR MAP'S REGION (2): after its ten points the output array holds the reference's linear map of the input rows' array and the weights,
    given that the bias row's array holds zeros. -/
theorem dense2_val (c : Dev nD)
    (hb : ∀ j : Fin 64, (V c main_v58 : S1x64.Idx → Elt Ideal .f32) (ix2 (0 : Fin 1) j) = (0 : EReal)) :
    (dat2 V c).arrAt 3 cfg2.N = Cert.Spec.lin (F := Ideal) (V c main_v56) (V c main_arg8) := by
  refine (dat2 V c).arrAt_eq_of_cover 3 _ (fun t _ => flushed2_eq V c hb t) ?_
  intro i
  exact cover2 i

end Region2

section Region3
variable (V : (c : Dev nD) → (b : Ref sig .tc) → Buf (Elt Ideal) ((c : Thread nD τ).loc b))

/-- The block indices over the grid: the input rows' window and the output's are at row block t, column block 0; the
    weights' and the bias row's windows are the whole of their arrays at every point. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input rows' block at point t, entry (p, k), is the array's entry (5000 t + p, k). -/
theorem xblk3_at (c : Dev nD) (t : Fin cfg3.N) (p : Fin 5000) (k : Fin 64) (r : Fin 50000) (hr : r.val = 5000 * t.val + p.val) :
    (iblk3 V c 0 t : Vec Ideal S5000x64 .f32) (ix2 p k) = (V c main_v76 : S50000x64.Idx → Elt Ideal .f32) (ix2 r k) := by
  obtain ⟨e0, e1, -⟩ := idx3 t
  unfold iblk3
  rw [View.read_apply]
  show V c main_v76 _ = V c main_v76 _
  congr 1
  funext a; apply Fin.ext
  match a with
  | ⟨0, _⟩ => show win3_0.index t 0 * 5000 + 1 * p.val = r.val; rw [e0, hr]; omega
  | ⟨1, _⟩ => show win3_0.index t 1 * 64 + 1 * k.val = k.val; rw [e1]; omega

/-- The weights' block at any point is the weights' array. -/
theorem wblk3_at (c : Dev nD) (t : Fin cfg3.N) (k : Fin 64) (q : Fin 128) :
    (iblk3 V c 1 t : Vec Ideal S64x128 .f32) (ix2 k q) = (V c main_arg10 : S64x128.Idx → Elt Ideal .f32) (ix2 k q) := by
  obtain ⟨-, -, e2, e3, -⟩ := idx3 t
  unfold iblk3
  rw [View.read_apply]
  show V c main_arg10 _ = V c main_arg10 _
  congr 1
  funext a; apply Fin.ext
  match a with
  | ⟨0, _⟩ => show win3_1.index t 0 * 64 + 1 * k.val = k.val; rw [e2]; omega
  | ⟨1, _⟩ => show win3_1.index t 1 * 128 + 1 * q.val = q.val; rw [e3]; omega

/-- The bias row's block at any point is the bias row's array. -/
theorem bblk3_at (c : Dev nD) (t : Fin cfg3.N) (q : Fin 128) :
    (iblk3 V c 2 t : Vec Ideal S1x128 .f32) (ix2 (0 : Fin 1) q) = (V c main_v77 : S1x128.Idx → Elt Ideal .f32) (ix2 (0 : Fin 1) q) := by
  obtain ⟨-, -, -, -, e4, e5, -⟩ := idx3 t
  unfold iblk3
  rw [View.read_apply]
  show V c main_v77 _ = V c main_v77 _
  congr 1
  funext a; apply Fin.ext
  match a with
  | ⟨0, _⟩ => show win3_2.index t 0 * 1 + 1 * 0 = 0; rw [e4]
  | ⟨1, _⟩ => show win3_2.index t 1 * 128 + 1 * q.val = q.val; rw [e5]; omega

/-- Entry (p, q) of what the body stores at point t is entry (5000 t + p, q) of the reference's projection of the whole
    arrays: the same sum over k, term by term, and the same bias entry. -/
theorem blk3_at (c : Dev nD) (t : Fin cfg3.N) (b3 : FVec Ideal Cert.ReferenceIdeal.S128 .f32)
    (hb : ∀ j : Fin 128, (V c main_v77 : S1x128.Idx → Elt Ideal .f32) (ix2 (0 : Fin 1) j) = b3 (ix1 j))
    (p : Fin 5000) (q : Fin 128) (r : Fin 50000) (hr : r.val = 5000 * t.val + p.val) :
    k3_pay1 (iblk3 V c 0 t) (iblk3 V c 1 t) (iblk3 V c 2 t) (ix2 p q)
      = Cert.Spec.proj (F := Ideal) (V c main_v76) (V c main_arg10) b3 (ix2 r q) := by
  refine (pay3_at (iblk3 V c 0 t) (iblk3 V c 1 t) (iblk3 V c 2 t) p q).trans ?_
  refine Eq.trans ?_ (proj_at (V c main_v76) (V c main_arg10) b3 r q).symm
  exact congrArg₂ (· + ·) (Finset.sum_congr rfl fun k _ => congrArg₂ (· * ·) (xblk3_at V c t p k r hr) (wblk3_at V c t k q))
    ((bblk3_at V c t q).trans (hb q))

/-- The same over any two indices whose coordinates are so related. -/
theorem blk3_at' (c : Dev nD) (t : Fin cfg3.N) (b3 : FVec Ideal Cert.ReferenceIdeal.S128 .f32)
    (hb : ∀ j : Fin 128, (V c main_v77 : S1x128.Idx → Elt Ideal .f32) (ix2 (0 : Fin 1) j) = b3 (ix1 j))
    (y : S5000x128.Idx) (i : S50000x128.Idx) (h0 : (i 0).val = 5000 * t.val + (y 0).val) (h1 : (i 1).val = (y 1).val) :
    k3_pay1 (iblk3 V c 0 t) (iblk3 V c 1 t) (iblk3 V c 2 t) y = Cert.Spec.proj (F := Ideal) (V c main_v76) (V c main_arg10) b3 i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : q = s := (Fin.ext h1).symm
  exact blk3_at V c t b3 hb p q r h0

/-- What point t writes back is block t of that result: the body's one store is the whole staging buffer, its loads are
    the input windows' blocks, and the block's entry (p, q) lies at (5000 t + p, q) of the array. -/
theorem flushed3_eq (c : Dev nD) (b3 : FVec Ideal Cert.ReferenceIdeal.S128 .f32)
    (hb : ∀ j : Fin 128, (V c main_v77 : S1x128.Idx → Elt Ideal .f32) (ix2 (0 : Fin 1) j) = b3 (ix1 j)) (t : Fin cfg3.N) :
    (dat3 V c).flushed 3 t = ((cfg3.win 3).blk t).view.read (Elt Ideal) (Cert.Spec.proj (F := Ideal) (V c main_v76) (V c main_arg10) b3) := by
  show (cfg3.win 3).cut (grid3.coords t) ((dat3 V c).after 3 t) = _
  rw [after3_3]
  unfold out3_3
  rw [View.canon_unit_zero hz2]
  simp only [View.ld_unit_zero (S := S5000x64) hz2, View.ld_unit_zero (S := S64x128) hz2, View.ld_unit_zero (S := S1x128) hz2]
  obtain ⟨-, -, -, -, -, -, e6, e7⟩ := idx3 t
  funext y
  show k3_pay1 (iblk3 V c 0 t) (iblk3 V c 1 t) (iblk3 V c 2 t) ((cfg3.win 3).xinj (grid3.coords t) y)
    = Cert.Spec.proj (F := Ideal) (V c main_v76) (V c main_arg10) b3 (((cfg3.win 3).blk t).view.emb y)
  refine blk3_at' V c t b3 hb ((cfg3.win 3).xinj (grid3.coords t) y) (((cfg3.win 3).blk t).view.emb y) ?_ ?_
  · show win3_3.index t 0 * 5000 + 1 * (y 0).val = 5000 * t.val + (y 0).val; rw [e6]; omega
  · show win3_3.index t 1 * 128 + 1 * (y 1).val = (y 1).val; rw [e7]; omega

/-- An index of the output array is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v78).slice (win3_3.rect t)).set ↔ _
  rw [View.set_slice_whole, Rect.mem_set_unit]
  exact Iff.rfl

/-- Row r of the output array is written back by point r / 5000: the ten row blocks tile its 50000 rows. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [show cfg3.N = 10 from N_3]; omega⟩, rfl⟩
  obtain ⟨-, -, -, -, -, -, e6, e7⟩ := idx3 t
  refine ⟨t, flush3_3 t, ?_⟩
  rw [mem_blk3]
  intro a
  match a with
  | ⟨0, _⟩ => show win3_3.index t 0 * 5000 ≤ (i 0).val ∧ (i 0).val < win3_3.index t 0 * 5000 + 5000; rw [e6, ht]; omega
  | ⟨1, _⟩ => show win3_3.index t 1 * 128 ≤ (i 1).val ∧ (i 1).val < win3_3.index t 1 * 128 + 128; rw [e7]; omega

/-- THE PROJECTION'S REGION: after its ten points the output array holds the reference's projection of the input rows' array, the weights and the bias,
    given that the bias row's array holds the bias. -/
theorem dense3_val (c : Dev nD) (b3 : FVec Ideal Cert.ReferenceIdeal.S128 .f32)
    (hb : ∀ j : Fin 128, (V c main_v77 : S1x128.Idx → Elt Ideal .f32) (ix2 (0 : Fin 1) j) = b3 (ix1 j)) :
    (dat3 V c).arrAt 3 cfg3.N = Cert.Spec.proj (F := Ideal) (V c main_v76) (V c main_arg10) b3 := by
  refine (dat3 V c).arrAt_eq_of_cover 3 _ (fun t _ => flushed3_eq V c b3 hb t) ?_
  intro i
  exact cover3 i

end Region3

end Cert.KernelIdeal.Hand

end
-- ==== Proof.KI.Gather4Value.lean ====
import proofs.«418828_j78855599555023_1_alg».proof.Proof.KI.Gather4
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

theorem hz1 : (![0] : Fin 1 → Nat) = fun _ => 0 := funext fun a => by fin_cases a; rfl

/-- A load of the whole 128-row after a delivery of the whole row reads that delivery, whatever the row held before. -/
theorem readCov_whole_head {κ : Kind} {sp : Space} (v : View sig κ sp S128 .f32) (w : S128.Idx → Elt F .f32)
    (L : List (View.Piece (Elt F) S128 .f32)) (inb : ∀ a, (![0] : Fin 1 → Nat) a + S128.size a ≤ S128.size a) :
    v.readCov (⟨Rect.whole S128, w⟩ :: L) (Rect.unit (s := S128) ![0] S128.size inb).toLoadRect = w := by
  rw [View.readCov_eq_canon']
  have e : View.canon ((⟨Rect.whole S128, w⟩ : View.Piece (Elt F) S128 .f32) :: L) = w := View.canon_cons_unit_zero rfl _ w L
  rw [e]
  exact View.ld_unit_zero hz1 inb w

/-- The offsets of the 16 table words the body loads at point `t`: words 16t … 16t+15. -/
theorem off_word1 : ∀ t : Fin grid4.N, k4_off1 (grid4.coords t) 0 = 16 * t.val + 0 := (by decide +kernel : ∀ t : Fin grid4.N, _)
theorem off_word2 : ∀ t : Fin grid4.N, k4_off3 (grid4.coords t) 0 = 16 * t.val + 1 := (by decide +kernel : ∀ t : Fin grid4.N, _)
theorem off_word3 : ∀ t : Fin grid4.N, k4_off5 (grid4.coords t) 0 = 16 * t.val + 2 := (by decide +kernel : ∀ t : Fin grid4.N, _)
theorem off_word4 : ∀ t : Fin grid4.N, k4_off7 (grid4.coords t) 0 = 16 * t.val + 3 := (by decide +kernel : ∀ t : Fin grid4.N, _)
theorem off_word5 : ∀ t : Fin grid4.N, k4_off9 (grid4.coords t) 0 = 16 * t.val + 4 := (by decide +kernel : ∀ t : Fin grid4.N, _)
theorem off_word6 : ∀ t : Fin grid4.N, k4_off11 (grid4.coords t) 0 = 16 * t.val + 5 := (by decide +kernel : ∀ t : Fin grid4.N, _)
theorem off_word7 : ∀ t : Fin grid4.N, k4_off13 (grid4.coords t) 0 = 16 * t.val + 6 := (by decide +kernel : ∀ t : Fin grid4.N, _)
theorem off_word8 : ∀ t : Fin grid4.N, k4_off15 (grid4.coords t) 0 = 16 * t.val + 7 := (by decide +kernel : ∀ t : Fin grid4.N, _)
theorem off_word9 : ∀ t : Fin grid4.N, k4_off17 (grid4.coords t) 0 = 16 * t.val + 8 := (by decide +kernel : ∀ t : Fin grid4.N, _)
theorem off_word10 : ∀ t : Fin grid4.N, k4_off19 (grid4.coords t) 0 = 16 * t.val + 9 := (by decide +kernel : ∀ t : Fin grid4.N, _)
theorem off_word11 : ∀ t : Fin grid4.N, k4_off21 (grid4.coords t) 0 = 16 * t.val + 10 := (by decide +kernel : ∀ t : Fin grid4.N, _)
theorem off_word12 : ∀ t : Fin grid4.N, k4_off23 (grid4.coords t) 0 = 16 * t.val + 11 := (by decide +kernel : ∀ t : Fin grid4.N, _)
theorem off_word13 : ∀ t : Fin grid4.N, k4_off25 (grid4.coords t) 0 = 16 * t.val + 12 := (by decide +kernel : ∀ t : Fin grid4.N, _)
theorem off_word14 : ∀ t : Fin grid4.N, k4_off27 (grid4.coords t) 0 = 16 * t.val + 13 := (by decide +kernel : ∀ t : Fin grid4.N, _)
theorem off_word15 : ∀ t : Fin grid4.N, k4_off29 (grid4.coords t) 0 = 16 * t.val + 14 := (by decide +kernel : ∀ t : Fin grid4.N, _)
theorem off_word16 : ∀ t : Fin grid4.N, k4_off31 (grid4.coords t) 0 = 16 * t.val + 15 := (by decide +kernel : ∀ t : Fin grid4.N, _)

/-- Row `n` of the 50000x128 array, read as a 128-vector through its 1x128 slice with the unit axis dropped, is the array's row. -/
theorem row_read (c : Dev nD) (fh : HbBuf4 (F := F) c hbM4_0) (off : Fin 2 → Nat) (n : Fin 50000) (hoff : off 0 = n.val ∧ off 1 = 0)
    (inb : ∀ a, off a + S1x128.size a ≤ S50000x128.size a) (hs) (sq : S1x128.Squeezes S128) (j : S128.Idx) :
    View.read (Elt F) (((Memref.whole main_v78 : Memref sig .tc .hbm S50000x128 .f32).slice (Rect.unit (s := S50000x128) off S1x128.size inb) hs).squeeze S128 sq).view fh j
      = (fh : S50000x128.Idx → Elt F .f32) (ix2 n (j 0)) := by
  rw [View.read_apply]
  simp only [cast_eq]
  show (fh : S50000x128.Idx → Elt F .f32) _ = fh _
  refine congrArg _ ?_
  show ((View.whole main_v78).slice (Rect.unit off S1x128.size inb)).emb (Shape.reshapeEquiv _ j) = _
  rw [Shape.reshapeEquiv_eq_of_rowMajor _ (y := (ix2 (0 : Fin 1) (j 0) : S1x128.Idx)) (by
    rw [Shape.rowMajor_val_two, Shape.rowMajor_val_one]; show 0 * 128 + (j 0).val = (j 0).val; omega)]
  funext a; apply Fin.ext
  match a with
  | ⟨0, _⟩ => show off 0 + 1 * 0 = n.val; rw [hoff.1]; omega
  | ⟨1, _⟩ => show off 1 + 1 * (j 0).val = (j 0).val; rw [hoff.2]; omega

/-- The word the body loads at offset `n` of the table is the table's entry `n`. -/
theorem wd4_eq (c : Dev nD) (xt : HbBuf4 (F := F) c tbM4_0) (off1 : Fin 1 → Nat) (h1 : ∀ a, off1 a + S1.size a ≤ S4096.size a)
    (n : Fin 4096) (hoff1 : off1 0 = n.val) : wd4 c xt off1 h1 = (xt : S4096.Idx → Elt F .i32) (ix1 n) := by
  show (xt : S4096.Idx → Elt F .i32) _ = _
  refine congrArg _ ?_
  funext a; apply Fin.ext
  match a with
  | ⟨0, _⟩ => show off1 0 + 1 * 0 = n.val; omega

/-- A 128-vector cast to 1x1x128 reads, at (u, v, j), the vector at j. -/
theorem cast_row_apply (v : S128.Idx → Elt F .f32) (x : S1x1x128.Idx) :
    shapeCast S1x1x128 v shapeCasts_S128_S1x1x128 x = v (ix1 (x 2)) :=
  shapeCast_apply v shapeCasts_S128_S1x1x128 x (ix1 (x 2)) (by
    have e0 : S1x1x128.size 0 = 1 := (by decide)
    have e1 : S1x1x128.size 1 = 1 := (by decide)
    have h0 : (x 0).val = 0 := by have := (x 0).isLt; omega
    have h1 : (x 1).val = 0 := by have := (x 1).isLt; omega
    rw [Shape.rowMajor_val_three, Shape.rowMajor_val_one]
    show (x 2).val = ((x 0).val * 1 + (x 1).val) * 128 + (x 2).val
    rw [h0, h1]; omega)

/-- Word 16t+k of the table, as a row number of the array. -/
def rowAt (xt : S4096.Idx → Elt F .i32) (hx : ∀ j, (xt j : BitVec 32).toNat < 50000) (t : Fin grid4.N) (k : Fin 16) : Fin 50000 :=
  ⟨(xt (ix1 (⟨16 * t.val + k.val, by have := N_4; have := t.isLt; have := k.isLt; omega⟩ : Fin 4096)) : BitVec 32).toNat, hx _⟩

/-- The block point `t` leaves: row k of it is row (word 16t+k) of the array. -/
def Gblk (xt : S4096.Idx → Elt F .i32) (hx : ∀ j, (xt j : BitVec 32).toNat < 50000) (fh : S50000x128.Idx → Elt F .f32) (t : Fin grid4.N) :
    S16x1x128.Idx → Elt F .f32 := fun y => fh (ix2 (rowAt xt hx t (y 0)) (y 2))

/-- ONE PIECE: the payload stored at row k — the cast of the 128-vector delivered from the row the loaded word names — is
    the block's function at the piece's indices. -/
theorem piece_val (c : Dev nD) (t : Fin grid4.N) (xt : HbBuf4 (F := F) c tbM4_0) (hx : ∀ j, ((xt : S4096.Idx → Elt F .i32) j : BitVec 32).toNat < 50000)
    (fh : HbBuf4 (F := F) c hbM4_0) (k : Fin 16)
    (off1 : Fin 1 → Nat) (h1 : ∀ a, off1 a + S1.size a ≤ S4096.size a) (hoff1 : off1 0 = 16 * t.val + k.val)
    (off2 : Fin 2 → Nat) (hoff2 : off2 0 = (wd4 c xt off1 h1 : BitVec 32).toNat ∧ off2 1 = 0)
    (inb2 : ∀ a, off2 a + S1x128.size a ≤ S50000x128.size a) (hs) (sq : S1x128.Squeezes S128)
    (inb3 : ∀ a, (![k.val, 0, 0] : Fin 3 → Nat) a + S1x1x128.size a ≤ S16x1x128.size a) (x : S1x1x128.Idx) :
    shapeCast S1x1x128 (ReadAs.same.apply (View.read (Elt F) (((Memref.whole main_v78 : Memref sig .tc .hbm S50000x128 .f32).slice (Rect.unit (s := S50000x128) off2 S1x128.size inb2) hs).squeeze S128 sq).view fh)) shapeCasts_S128_S1x1x128 x
      = Gblk xt hx fh t ((Rect.unit (s := S16x1x128) ![k.val, 0, 0] S1x1x128.size inb3).emb x) := by
  have hn : 16 * t.val + k.val < 4096 := by have := N_4; have := t.isLt; have := k.isLt; omega
  have hw := wd4_eq c xt off1 h1 ⟨16 * t.val + k.val, hn⟩ hoff1
  rw [cast_row_apply]
  have hw' : (wd4 c xt off1 h1 : BitVec 32).toNat = ((xt : S4096.Idx → Elt F .i32) (ix1 (⟨16 * t.val + k.val, hn⟩ : Fin 4096)) : BitVec 32).toNat :=
    congrArg (fun w : BitVec 32 => w.toNat) hw
  have hrow' : ((xt : S4096.Idx → Elt F .i32) (ix1 (⟨16 * t.val + k.val, hn⟩ : Fin 4096)) : BitVec 32).toNat = (rowAt xt hx t k).val := rfl
  have hrow : off2 0 = (rowAt xt hx t k).val := (hoff2.1.trans hw').trans hrow'
  refine (row_read c fh off2 (rowAt xt hx t k) ⟨hrow, hoff2.2⟩ inb2 hs sq (ix1 (x 2))).trans ?_
  show (fh : S50000x128.Idx → Elt F .f32) _ = (fh : S50000x128.Idx → Elt F .f32) _
  refine congrArg _ ?_
  have e0 : ((Rect.unit (s := S16x1x128) ![k.val, 0, 0] S1x1x128.size inb3).emb x) 0 = k := by
    apply Fin.ext
    have es : S1x1x128.size 0 = 1 := (by decide)
    have h0 : (x 0).val = 0 := by have := (x 0).isLt; omega
    show k.val + 1 * (x 0).val = k.val; rw [h0]; omega
  have e2 : ((Rect.unit (s := S16x1x128) ![k.val, 0, 0] S1x1x128.size inb3).emb x) 2 = x 2 := by
    apply Fin.ext; show 0 + 1 * (x 2).val = (x 2).val; omega
  rw [e0, e2]

section Value
variable (V : (c : Dev nD) → (b : Ref sig .tc) → Buf (Elt F) ((c : Thread nD τ).loc b))
variable (tb : pre4.Contents (Elt F))

set_option maxHeartbeats 4000000 in
/-- THE BLOCK the body leaves at point `t`: its row k is row (word 16t+k of the table) of the array. Each of the 16 stored
    pieces is the block's function at the piece's own indices, and the pieces cover the block. -/
theorem out4_eq (c : Dev nD) (t : Fin grid4.N) (arg3 : Memref sig .tc .vmem S16x1x128 .f32) (harg3 : arg3.IsWhole)
    (arg4 : Memref sig .tc .vmem S128 .f32) (harg4 : arg4.IsWhole)
    (xt : HbBuf4 (F := F) c tbM4_0) (fh : HbBuf4 (F := F) c hbM4_0)
    (hT : ∀ (off : Fin 1 → Nat) (h : ∀ a, off a + S1.size a ≤ S4096.size a), (wd4 c xt off h : BitVec 32).toNat < 50000)
    (hx : ∀ j, ((xt : S4096.Idx → Elt F .i32) j : BitVec 32).toNat < 50000) :
    out4 c (grid4.coords t) arg3 harg3 arg4 harg4 xt fh hT = Gblk xt hx fh t := by
  unfold out4
  rw [View.read_writes_eq_canon _ _ _ (cover4 c _ _ _ _ _ _ _ _)]
  funext y
  refine View.canon_apply_of_pieces (Gblk xt hx fh t) _ ?_ y (cover4 c _ _ _ _ _ _ _ _ y)
  unfold kernelRun4
  dsimp only
  sl_unfold_run_names
  intro p hp x
  simp only [List.mem_cons, List.mem_nil_iff, or_false] at hp
  rcases hp with rfl | rfl | rfl | rfl | rfl | rfl | rfl | rfl | rfl | rfl | rfl | rfl | rfl | rfl | rfl | rfl
  · dsimp only
    rw [readCov_whole_head]
    exact piece_val c t xt hx fh ⟨15, by decide⟩ _ _ (off_word16 t) _ ⟨rfl, rfl⟩ _ (fun _ => rfl) squeezes_S1x128_S128 _ x
  · dsimp only
    rw [readCov_whole_head]
    exact piece_val c t xt hx fh ⟨14, by decide⟩ _ _ (off_word15 t) _ ⟨rfl, rfl⟩ _ (fun _ => rfl) squeezes_S1x128_S128 _ x
  · dsimp only
    rw [readCov_whole_head]
    exact piece_val c t xt hx fh ⟨13, by decide⟩ _ _ (off_word14 t) _ ⟨rfl, rfl⟩ _ (fun _ => rfl) squeezes_S1x128_S128 _ x
  · dsimp only
    rw [readCov_whole_head]
    exact piece_val c t xt hx fh ⟨12, by decide⟩ _ _ (off_word13 t) _ ⟨rfl, rfl⟩ _ (fun _ => rfl) squeezes_S1x128_S128 _ x
  · dsimp only
    rw [readCov_whole_head]
    exact piece_val c t xt hx fh ⟨11, by decide⟩ _ _ (off_word12 t) _ ⟨rfl, rfl⟩ _ (fun _ => rfl) squeezes_S1x128_S128 _ x
  · dsimp only
    rw [readCov_whole_head]
    exact piece_val c t xt hx fh ⟨10, by decide⟩ _ _ (off_word11 t) _ ⟨rfl, rfl⟩ _ (fun _ => rfl) squeezes_S1x128_S128 _ x
  · dsimp only
    rw [readCov_whole_head]
    exact piece_val c t xt hx fh ⟨9, by decide⟩ _ _ (off_word10 t) _ ⟨rfl, rfl⟩ _ (fun _ => rfl) squeezes_S1x128_S128 _ x
  · dsimp only
    rw [readCov_whole_head]
    exact piece_val c t xt hx fh ⟨8, by decide⟩ _ _ (off_word9 t) _ ⟨rfl, rfl⟩ _ (fun _ => rfl) squeezes_S1x128_S128 _ x
  · dsimp only
    rw [readCov_whole_head]
    exact piece_val c t xt hx fh ⟨7, by decide⟩ _ _ (off_word8 t) _ ⟨rfl, rfl⟩ _ (fun _ => rfl) squeezes_S1x128_S128 _ x
  · dsimp only
    rw [readCov_whole_head]
    exact piece_val c t xt hx fh ⟨6, by decide⟩ _ _ (off_word7 t) _ ⟨rfl, rfl⟩ _ (fun _ => rfl) squeezes_S1x128_S128 _ x
  · dsimp only
    rw [readCov_whole_head]
    exact piece_val c t xt hx fh ⟨5, by decide⟩ _ _ (off_word6 t) _ ⟨rfl, rfl⟩ _ (fun _ => rfl) squeezes_S1x128_S128 _ x
  · dsimp only
    rw [readCov_whole_head]
    exact piece_val c t xt hx fh ⟨4, by decide⟩ _ _ (off_word5 t) _ ⟨rfl, rfl⟩ _ (fun _ => rfl) squeezes_S1x128_S128 _ x
  · dsimp only
    rw [readCov_whole_head]
    exact piece_val c t xt hx fh ⟨3, by decide⟩ _ _ (off_word4 t) _ ⟨rfl, rfl⟩ _ (fun _ => rfl) squeezes_S1x128_S128 _ x
  · dsimp only
    rw [readCov_whole_head]
    exact piece_val c t xt hx fh ⟨2, by decide⟩ _ _ (off_word3 t) _ ⟨rfl, rfl⟩ _ (fun _ => rfl) squeezes_S1x128_S128 _ x
  · dsimp only
    rw [readCov_whole_head]
    exact piece_val c t xt hx fh ⟨1, by decide⟩ _ _ (off_word2 t) _ ⟨rfl, rfl⟩ _ (fun _ => rfl) squeezes_S1x128_S128 _ x
  · dsimp only
    rw [readCov_whole_head]
    exact piece_val c t xt hx fh ⟨0, by decide⟩ _ _ (off_word1 t) _ ⟨rfl, rfl⟩ _ (fun _ => rfl) squeezes_S1x128_S128 _ x

/-- The output window is written back at every point, whatever the table holds (its index map reads no word). -/
theorem flush4_0 (a : (pcfg4 (F := F)).Adm) : ∀ t : Fin (cfg4 a).N, ((cfg4 a).win 0).flush t = true :=
  (by decide +kernel : ∀ t : Fin grid4.N, Pipeline.Window.flushOf grid4 true cc4_transform_1 t = true)

/-- The output's block at point `t` is block (t, 0, 0). -/
theorem idx4 : ∀ t : Fin grid4.N, cc4_transform_1 (grid4.coords t) 0 = t.val ∧ cc4_transform_1 (grid4.coords t) 1 = 0 ∧ cc4_transform_1 (grid4.coords t) 2 = 0 :=
  (by decide +kernel : ∀ t : Fin grid4.N, _)

/-- THE ARRAY the region leaves: row i of the 4096x1x128 result is row (word i of the table) of the 50000x128 array. -/
def Garr (hT : TblInRange tb) (c : Dev nD) : S4096x1x128.Idx → Elt F .f32 :=
  fun i => (V c main_v78 : S50000x128.Idx → Elt F .f32) (ix2 ⟨((tb 0 : S4096.Idx → Elt F .i32) (ix1 (i 0)) : BitVec 32).toNat, hT _⟩ (i 2))

/-- WHAT POINT `t` WRITES BACK is block `t` of `Garr`. -/
theorem flushed4_eq (hT : TblInRange tb) (c : Dev nD) (t : Fin (cfg4 (adm4 tb)).N) :
    (dat4 V tb hT c).flushed 0 t = (((cfg4 (adm4 tb)).win 0).blk t).view.read (Elt F) (Garr V tb hT c) := by
  show ((cfg4 (adm4 tb)).win 0).cut (grid4.coords t) ((dat4 V tb hT c).after 0 t) = _
  rw [after4_0]
  unfold outsAt4
  rw [out4_eq c t _ _ _ _ (tb 0) (V c main_v78) (wd4_lt_of hT c) hT]
  obtain ⟨i0, i1, i2⟩ := idx4 t
  funext j
  revert j
  intro (j : S16x1x128.Idx)
  show (V c main_v78 : S50000x128.Idx → Elt F .f32) _ = (V c main_v78 : S50000x128.Idx → Elt F .f32) _
  refine congrArg _ ?_
  have hj0 : (j 0).val < 16 := (j 0).isLt
  have ht : t.val < 256 := by have := N_4; have := t.isLt; omega
  have e0 : (((((cfg4 (adm4 tb)).win 0).blk t).view.emb j : S4096x1x128.Idx) (0 : Fin 3)) = (⟨16 * t.val + (j 0).val, by omega⟩ : Fin 4096) := by
    apply Fin.ext
    show cc4_transform_1 (grid4.coords t) 0 * 16 + 1 * (j 0).val = 16 * t.val + (j 0).val
    rw [i0]; omega
  have e2 : (((((cfg4 (adm4 tb)).win 0).blk t).view.emb j : S4096x1x128.Idx) (2 : Fin 3)) = j 2 := by
    apply Fin.ext
    show cc4_transform_1 (grid4.coords t) 2 * 128 + 1 * (j 2).val = (j 2).val
    rw [i2]; omega
  show (ix2 (rowAt (tb 0) hT t (j 0)) (j 2) : S50000x128.Idx)
      = ix2 ⟨(((tb 0 : S4096.Idx → Elt F .i32) (ix1 (((((cfg4 (adm4 tb)).win 0).blk t).view.emb j : S4096x1x128.Idx) (0 : Fin 3)))) : BitVec 32).toNat, hT _⟩ (((((cfg4 (adm4 tb)).win 0).blk t).view.emb j : S4096x1x128.Idx) (2 : Fin 3))
  rw [e0, e2]
  rfl

/-- Every index of the result is in the block of the point that is its row divided by 16. -/
theorem cover4arr (i : S4096x1x128.Idx) :
    ∃ t : Fin (cfg4 (adm4 tb)).N, ((cfg4 (adm4 tb)).win 0).flush t = true ∧ i ∈ (((cfg4 (adm4 tb)).win 0).blk t).view.set := by
  have hi0 : (i 0).val < 4096 := (i 0).isLt
  have hi1 : (i 1).val < 1 := (i 1).isLt
  have hi2 : (i 2).val < 128 := (i 2).isLt
  let t : Fin grid4.N := ⟨(i 0).val / 16, by rw [N_4]; omega⟩
  obtain ⟨i0, i1, i2⟩ := idx4 t
  have key : ∀ r : Rect (main_v79 : Ref sig .tc).ty.shape, i ∈ ((View.whole main_v79).slice r).set ↔ i ∈ r.set :=
    fun r => by rw [View.set_slice_whole]
  refine ⟨t, flush4_0 (adm4 tb) t, ?_⟩
  refine (key (((cfg4 (adm4 tb)).win 0).rect t)).mpr (Rect.mem_set_unit.mpr ?_)
  intro a
  match a with
  | ⟨0, _⟩ => show cc4_transform_1 (grid4.coords t) 0 * 16 ≤ (i 0).val ∧ (i 0).val < cc4_transform_1 (grid4.coords t) 0 * 16 + 16; rw [i0]; show (i 0).val / 16 * 16 ≤ (i 0).val ∧ (i 0).val < (i 0).val / 16 * 16 + 16; omega
  | ⟨1, _⟩ => show cc4_transform_1 (grid4.coords t) 1 * 1 ≤ (i 1).val ∧ (i 1).val < cc4_transform_1 (grid4.coords t) 1 * 1 + 1; rw [i1]; omega
  | ⟨2, _⟩ => show cc4_transform_1 (grid4.coords t) 2 * 128 ≤ (i 2).val ∧ (i 2).val < cc4_transform_1 (grid4.coords t) 2 * 128 + 128; rw [i2]; omega

/-- THE RESULT ARRAY after the region is `Garr`. -/
theorem gather_arr (hT : TblInRange tb) (c : Dev nD) : (dat4 V tb hT c).arrAt 0 (cfg4 (adm4 tb)).N = Garr V tb hT c :=
  (dat4 V tb hT c).arrAt_eq_of_cover 0 (Garr V tb hT c) (fun t _ => flushed4_eq V tb hT c t) (cover4arr tb)

/-- Entry (i, 0, j) of the result is entry (word i of the table, j) of the array the rows are copied from. -/
theorem gather_val (hT : TblInRange tb) (c : Dev nD) (i : Fin 4096) (j : Fin 128) :
    ((dat4 V tb hT c).arrAt 0 (cfg4 (adm4 tb)).N : S4096x1x128.Idx → Elt F .f32) (ix3 i (0 : Fin 1) j)
      = (V c main_v78 : S50000x128.Idx → Elt F .f32) (ix2 ⟨((tb 0 : S4096.Idx → Elt F .i32) (ix1 i) : BitVec 32).toNat, hT _⟩ j) :=
  congrFun (gather_arr V tb hT c) (ix3 i (0 : Fin 1) j)

end Value

end Cert.KernelIdeal.Hand
end
-- ==== Proof.PickPre.lean ====
/-
  Two facts about the 4096 row indices of the network's last step.

  (1) The precondition ends in the conjunct "every index is at least 0 and below 50000", an and-reduction of
  the elementwise conjunction of two signed comparisons. Read back, it says of each index word that its
  unsigned value is below 50000 (and so its sign bit is clear).

  (2) The choice of rows: the reference adds 50000 to an index that is negative as a signed word and then
  gathers one whole row of the 50000 × 128 table per index, the start clamped into [0, 49999]. For an index
  whose unsigned value is below 50000 the word is not negative, the select keeps it, the clamp is the
  identity, and entry (i, j) of the result is entry (idx i, j) of the table.
-/
import proofs.«418828_j78855599555023_1_alg».proof.Proof.Spec
import proofs.«418828_j78855599555023_1_alg».proof.Proof.Gen.Pre_finite_inputs
import Idealize.ShloMosaic.Lib.ReduceAll
import Idealize.ShloMosaic.Lib.ValueIdx

noncomputable section

namespace Cert.PickPre

open Idealize.ShloMosaic Idealize.ShloMosaic.ValueIdx

/-! ## Words -/

/-- A 32-bit word that is at least 0 and below 50000 as a signed number has unsigned value below 50000. -/
theorem toNat_lt_of_signed (w : BitVec 32) (h0 : IntOp.cmpi .sge w (0#32) = 1#1) (h1 : IntOp.cmpi .slt w (50000#32) = 1#1) :
    w.toNat < 50000 := by
  rw [IntOp.cmpi_sge] at h0
  rw [IntOp.cmpi_slt] at h1
  have z : (0#32 : BitVec 32).toInt = 0 := by decide
  have c : (50000#32 : BitVec 32).toInt = 50000 := by decide
  rw [z] at h0
  rw [c] at h1
  have hw := w.isLt
  rw [BitVec.toInt_eq_toNat_cond] at h0 h1
  split at h0 <;> omega

/-- A word of unsigned value below 50000 reads the same signed. -/
theorem toInt_of_lt (w : BitVec 32) (h : w.toNat < 50000) : w.toInt = w.toNat := by
  rw [BitVec.toInt_eq_toNat_cond, if_pos (by omega)]

/-- Such a word is not negative: its sign bit is clear. -/
theorem msb_of_lt (w : BitVec 32) (h : w.toNat < 50000) : w.msb = false :=
  BitVec.msb_eq_false_iff_two_mul_lt.mpr (by omega)

/-- Such a word is not below zero in the signed order. -/
theorem not_slt_zero (w : BitVec 32) (h : w.toNat < 50000) : ¬ w.slt 0#32 = true := by
  rw [BitVec.slt_iff_toInt_lt, toInt_of_lt w h]
  have z : (0#32 : BitVec 32).toInt = 0 := by decide
  rw [z]; omega

/-- The comparison "below zero, signed" of such a word is the bit 0. -/
theorem cmpi_slt_zero_ne_one (w : BitVec 32) (h : w.toNat < 50000) : ¬ IntOp.cmpi .slt w (0#32) = 1#1 := by
  rw [IntOp.cmpi_slt, toInt_of_lt w h]
  have z : (0#32 : BitVec 32).toInt = 0 := by decide
  rw [z]; omega

/-! ## (1) The precondition's last conjunct, read back -/

section Pre

open Cert.Pre_finite_inputs Cert.Pre_finite_inputs.Facts

variable [Cert.Pre_finite_inputs.Facts] {F : FTy → Type} [FloatOps F]

instance : Subsingleton S_.Idx := ⟨fun a b => funext fun d => d.elim0⟩

/-- The last part of the predicate: if it is 1 then, at every position, the carried comparison bit is 1 and the
    index is below 50000 signed. -/
theorem part3_one (a3 : IVec S4096 32) (v48 : IVec S_ 1) (v50 : IVec S4096 1)
    (h : fn_part3 (F := F) a3 v48 v50 ix0 = 1#1) (j : S4096.Idx) :
    v50 j = 1#1 ∧ IntOp.cmpi .slt (a3 j) (50000#32) = 1#1 := by
  unfold fn_part3 at h
  dsimp only at h
  have h2 := (IntOp.andi_eq_one.1 h).2
  have h3 := Host.reduce_andi_all _ _ _ _ ix0 h2 j
  exact IntOp.andi_eq_one.1 h3

/-- THE INDEX RANGE. If the precondition holds of the twelve argument arrays, every one of the 4096 indices has
    unsigned value below 50000. -/
theorem idx_in_range (a0 : FVec F S50000x10 .f32) (a1 : IVec S2x800000 32) (a2 : FVec F S800000 .f32) (a3 : IVec S4096 32)
    (a4 : FVec F S10x64 .f32) (a5 : FVec F S64 .f32) (a6 : FVec F S64x64 .f32) (a7 : FVec F S64 .f32) (a8 : FVec F S64x64 .f32)
    (a9 : FVec F S64 .f32) (a10 : FVec F S64x128 .f32) (a11 : FVec F S128 .f32)
    (h : Cert.Pre_finite_inputs.fn (F := F) a0 a1 a2 a3 a4 a5 a6 a7 a8 a9 a10 a11 = fun _ => 1#1) (j : S4096.Idx) :
    (a3 j).toNat < 50000 := by
  have e := congrFun h ix0
  unfold Cert.Pre_finite_inputs.fn at e
  dsimp only at e
  unfold fn_part1 at e
  dsimp only at e
  unfold fn_part2 at e
  dsimp only at e
  obtain ⟨h0, h1⟩ := part3_one (F := F) a3 _ _ e j
  exact toNat_lt_of_signed (a3 j) h0 h1

/-- Each index's sign bit is clear. -/
theorem idx_msb (a0 : FVec F S50000x10 .f32) (a1 : IVec S2x800000 32) (a2 : FVec F S800000 .f32) (a3 : IVec S4096 32)
    (a4 : FVec F S10x64 .f32) (a5 : FVec F S64 .f32) (a6 : FVec F S64x64 .f32) (a7 : FVec F S64 .f32) (a8 : FVec F S64x64 .f32)
    (a9 : FVec F S64 .f32) (a10 : FVec F S64x128 .f32) (a11 : FVec F S128 .f32)
    (h : Cert.Pre_finite_inputs.fn (F := F) a0 a1 a2 a3 a4 a5 a6 a7 a8 a9 a10 a11 = fun _ => 1#1) (j : S4096.Idx) :
    (a3 j).msb = false :=
  msb_of_lt _ (idx_in_range a0 a1 a2 a3 a4 a5 a6 a7 a8 a9 a10 a11 h j)

/-- No index is below zero in the signed order. -/
theorem idx_not_slt (a0 : FVec F S50000x10 .f32) (a1 : IVec S2x800000 32) (a2 : FVec F S800000 .f32) (a3 : IVec S4096 32)
    (a4 : FVec F S10x64 .f32) (a5 : FVec F S64 .f32) (a6 : FVec F S64x64 .f32) (a7 : FVec F S64 .f32) (a8 : FVec F S64x64 .f32)
    (a9 : FVec F S64 .f32) (a10 : FVec F S64x128 .f32) (a11 : FVec F S128 .f32)
    (h : Cert.Pre_finite_inputs.fn (F := F) a0 a1 a2 a3 a4 a5 a6 a7 a8 a9 a10 a11 = fun _ => 1#1) (j : S4096.Idx) :
    ¬ (a3 j).slt 0#32 = true :=
  not_slt_zero _ (idx_in_range a0 a1 a2 a3 a4 a5 a6 a7 a8 a9 a10 a11 h j)

end Pre

/-! ## (2) The reference's choice of rows, read at an entry -/

section Pick

open Cert.ReferenceIdeal Cert.ReferenceIdeal.Facts₀ Cert.ReferenceIdeal.Facts

variable {F : FTy → Type} [FloatOps F] {α : Type}

/-- The indices laid out as a 4096 × 1 column: row i holds index i. -/
theorem col_apply (v : S4096.Idx → α) (i : Fin 4096) (k : Fin 1) :
    broadcastInDim S4096x1 ![0] bcast_S4096_S4096x1_0 v (ix2 i k) = v (ix1 i) := by
  simp only [broadcastInDim]
  congr 1
  funext a
  match a with
  | ⟨0, _⟩ =>
    apply Fin.ext
    split
    · next h1 => change (4096 : Nat) = 1 at h1; omega
    · rfl

/-- The gather of one row per start index: entry (i, j) of the result is the table at row "start index i, read signed and
    clamped into [0, 49999]", column j. -/
theorem gather_row (o : S50000x128.Idx → α) (si : IVec S4096x1 32) (i : Fin 4096) (j : Fin 128) :
    Host.gather gather_S50000x128_S4096x1_S4096x128_1_0_n_n_0_1_1128 o si (ix2 i j)
      = o (ix2 ⟨min (si (ix2 i (0 : Fin 1))).toInt.toNat 49999, by omega⟩ j) := by
  unfold Host.gather
  congr 1
  funext a
  refine Fin.ext ?_
  match a with
  | ⟨0, _⟩ =>
    show GatherDims.start _ (ix2 i j) si 0 + GatherDims.batchCoord _ (ix2 i j) 0 + GatherDims.offCoord _ (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S4096x1_S4096x128_1_0_n_n_0_1_1128.startIndexMap from List.mem_singleton.mpr rfl)]
    have hsi : gather_S50000x128_S4096x1_S4096x128_1_0_n_n_0_1_1128.siIdx (ix2 i j)
        ⟨List.idxOf (0 : Fin 2) gather_S50000x128_S4096x1_S4096x128_1_0_n_n_0_1_1128.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show GatherDims.start _ (ix2 i j) si 1 + GatherDims.batchCoord _ (ix2 i j) 1 + GatherDims.offCoord _ (ix2 i j) 1 = j.val
    rw [GatherDims.batchCoord_eq_zero _ _ _ List.not_mem_nil]
    unfold GatherDims.start
    rw [dif_neg (show ¬ (1 : Fin 2) ∈ gather_S50000x128_S4096x1_S4096x128_1_0_n_n_0_1_1128.startIndexMap from
      fun h => absurd (List.mem_singleton.mp h) (by decide))]
    simp only [Nat.add_zero, Nat.zero_add]
    unfold GatherDims.offCoord
    rw [dif_pos ((GatherDims.mem_sKept _ _).mpr ⟨(show ¬ (1 : Fin 2) ∈ gather_S50000x128_S4096x1_S4096x128_1_0_n_n_0_1_1128.collapsedSliceDims from
      fun h => absurd (List.mem_singleton.mp h) (by decide)), List.not_mem_nil⟩)]
    rfl

/-- An index below 50000 is not negative, so "add 50000 if negative" leaves it as it is. -/
theorem wrap_apply (idx : IVec S4096 32) (k : S4096.Idx) (hk : (idx k).toNat < 50000) :
    select (cmpi .slt idx (broadcastInDim S4096 ![] bcast_S_S4096 (constantI S_ 32 0#32)))
      (addi idx (broadcastInDim S4096 ![] bcast_S_S4096 (constantI S_ 32 50000#32))) idx k = idx k := by
  unfold select Scalar.select
  exact if_neg (cmpi_slt_zero_ne_one (idx k) hk)

/-- THE ROW CHOICE AT AN ENTRY: with every index below 50000, entry (i, j) of the chosen rows is entry (idx i, j) of
    the table. -/
theorem pick_apply (o : FVec F S50000x128 .f32) (idx : IVec S4096 32) (hidx : ∀ j, (idx j).toNat < 50000) (i : Fin 4096) (j : Fin 128) :
    Cert.Spec.pick o idx (ix2 i j) = o (ix2 ⟨(idx (ix1 i)).toNat, hidx _⟩ j) := by
  unfold Cert.Spec.pick
  refine (gather_row o _ i j).trans ?_
  refine congrArg (fun r : Fin 50000 => o (ix2 r j)) (Fin.ext ?_)
  dsimp only
  rw [col_apply, wrap_apply idx (ix1 i) (hidx _), toInt_of_lt _ (hidx _)]
  have := hidx (ix1 i)
  omega

end Pick

end Cert.PickPre

end
-- ==== Proof.KI.KernelVal.lean ====
/- The kernel program's result is the network. Region by region, what a region leaves in its output array is a piece of
   the network applied to what the region found: the encoder, the two layers' linear maps, the projection, and the choice
   of 4096 rows by index; between the regions the host stretches aggregate over the graph. Composed from the launch
   contents of the twelve arguments, entry (i, j) of the program's result is entry (i, j) of the network. -/
import proofs.«418828_j78855599555023_1_alg».proof.Proof.KI.HostChain
import proofs.«418828_j78855599555023_1_alg».proof.Proof.KI.Regs
import proofs.«418828_j78855599555023_1_alg».proof.Proof.KI.DenseVal
import proofs.«418828_j78855599555023_1_alg».proof.Proof.KI.Gather4Value
import proofs.«418828_j78855599555023_1_alg».proof.Proof.PickPre
import Idealize.ShloMosaic.Lib.ValueIdx

set_option maxRecDepth 4096

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! # The regions' outputs, composed -/

section Value
variable (m : (ℓ : Loc nD τ sig) → Buf (Elt Ideal) ℓ) (hT : TblInRange (tbl m)) (c : Dev nD)

/-- The zero word is the real number zero. -/
theorem zero_word : (constant S_ .f32 0x00000000#32 : FVec Ideal S_ .f32) ix0 = (0 : EReal) := Ideal.ofBits_zero_f32

/-- Region 0 leaves the encoder of the node features. -/
theorem enc_val : (outs m hT 2 main_v1 c : FVec Ideal S50000x64 .f32) = (Cert.Spec.enc (F := Ideal) (m ((c : Thread nD τ).loc main_arg0)) (m ((c : Thread nD τ).loc main_arg4)) (m ((c : Thread nD τ).loc main_arg5))) := by
  rw [outs_2 m hT c]
  refine (dense0_val (fun c b => V1 m c b) c (m ((c : Thread nD τ).loc main_arg5)) (fun j => V1_v0_at m c j)).trans ?_
  show Cert.Spec.enc (F := Ideal) (V1 m c main_arg0) (V1 m c main_arg4) _ = _
  rw [V1_arg0 m c, V1_arg4 m c]

/-- Region 1 leaves the first layer's linear map of the encoder's output. -/
theorem lin1_val : (outs m hT 8 main_v39 c : FVec Ideal S50000x64 .f32) = (Cert.Spec.lin (F := Ideal) (Cert.Spec.enc (F := Ideal) (m ((c : Thread nD τ).loc main_arg0)) (m ((c : Thread nD τ).loc main_arg4)) (m ((c : Thread nD τ).loc main_arg5))) (m ((c : Thread nD τ).loc main_arg6))) := by
  rw [outs_8 m hT c]
  refine (dense1_val (fun c b => V7 m (outs m hT) c b) c (fun j => (V7_v38_at m (outs m hT) c j).trans zero_word)).trans ?_
  show Cert.Spec.lin (F := Ideal) (V7 m (outs m hT) c main_v1) (V7 m (outs m hT) c main_arg6) = _
  rw [V7_v1 m (outs m hT) c, V7_arg6 m (outs m hT) c, enc_val m hT c]

/-- Region 2 finds the first layer's aggregation. -/
theorem agg1_val : (V11 m (outs m hT) c main_v56 : FVec Ideal S50000x64 .f32) = (Cert.Spec.agg (F := Ideal) (Cert.Spec.lin (F := Ideal) (Cert.Spec.enc (F := Ideal) (m ((c : Thread nD τ).loc main_arg0)) (m ((c : Thread nD τ).loc main_arg4)) (m ((c : Thread nD τ).loc main_arg5))) (m ((c : Thread nD τ).loc main_arg6))) (m ((c : Thread nD τ).loc main_arg1)) (m ((c : Thread nD τ).loc main_arg2)) (m ((c : Thread nD τ).loc main_arg7))) := by
  rw [V11_v56 m (outs m hT) c, lin1_val m hT c]

/-- Region 2 leaves the second layer's linear map of it. -/
theorem lin2_val : (outs m hT 12 main_v59 c : FVec Ideal S50000x64 .f32) = (Cert.Spec.lin (F := Ideal) (Cert.Spec.agg (F := Ideal) (Cert.Spec.lin (F := Ideal) (Cert.Spec.enc (F := Ideal) (m ((c : Thread nD τ).loc main_arg0)) (m ((c : Thread nD τ).loc main_arg4)) (m ((c : Thread nD τ).loc main_arg5))) (m ((c : Thread nD τ).loc main_arg6))) (m ((c : Thread nD τ).loc main_arg1)) (m ((c : Thread nD τ).loc main_arg2)) (m ((c : Thread nD τ).loc main_arg7))) (m ((c : Thread nD τ).loc main_arg8))) := by
  rw [outs_12 m hT c]
  refine (dense2_val (fun c b => V11 m (outs m hT) c b) c (fun j => (V11_v58_at m (outs m hT) c j).trans zero_word)).trans ?_
  show Cert.Spec.lin (F := Ideal) (V11 m (outs m hT) c main_v56) (V11 m (outs m hT) c main_arg8) = _
  rw [agg1_val m hT c, V11_arg8 m (outs m hT) c]

/-- Region 3 finds the node features after the two layers. -/
theorem hidden_val : (V15 m (outs m hT) c main_v76 : FVec Ideal S50000x64 .f32) = (Cert.Spec.hidden (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [V15_v76 m (outs m hT) c, lin2_val m hT c]; rfl

/-- Region 3 leaves their projection. -/
theorem proj_val : (outs m hT 16 main_v78 c : FVec Ideal S50000x128 .f32) = (Cert.Spec.proj (F := Ideal) (Cert.Spec.hidden (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) := by
  rw [outs_16 m hT c]
  refine (dense3_val (fun c b => V15 m (outs m hT) c b) c (m ((c : Thread nD τ).loc main_arg11)) (fun j => V15_v77_at m (outs m hT) c j)).trans ?_
  show Cert.Spec.proj (F := Ideal) (V15 m (outs m hT) c main_v76) (V15 m (outs m hT) c main_arg10) _ = _
  rw [hidden_val m hT c, V15_arg10 m (outs m hT) c]

/-- The index table region 4 reads is argument 3 as launched. -/
theorem tbl_eq (o : Outs (F := Ideal)) : (tbl m 0 : IVec S4096 32) = m ((c : Thread nD τ).loc main_arg3) :=
  (V16_tbl m o c 0).symm.trans (V16_arg3 m o c)

include hT in
/-- Every index of argument 3 is a row number. -/
theorem idx_lt (k : S4096.Idx) : ((m ((c : Thread nD τ).loc main_arg3) : IVec S4096 32) k).toNat < 50000 := by
  rw [← tbl_eq m c (outs m hT)]; exact hT k

/-- Entry (i, j) of the program's result is entry (i, j) of the network: region 4 copies row `idx i` of what region 3
    left, and the network's last step chooses the same row. -/
theorem kernel_val_at (i : Fin 4096) (j : Fin 128) :
    (V18 m (outs m hT) c main_v80 : FVec Ideal S4096x128 .f32) (ix2 i j) = (Cert.Spec.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (ix2 i j) := by
  refine (V18_v80_at m (outs m hT) c i j).trans ?_
  rw [outs_17 m hT c]
  refine (gather_val (fun c b => V16 m (outs m hT) c b) (tbl m) hT c i j).trans ?_
  show (V16 m (outs m hT) c main_v78 : FVec Ideal S50000x128 .f32) _ = _
  rw [V16_v78 m (outs m hT) c, proj_val m hT c]
  unfold Cert.Spec.net
  rw [Cert.PickPre.pick_apply _ _ (idx_lt m hT c) i j]
  exact congrArg (fun r : Fin 50000 => (Cert.Spec.proj (F := Ideal) (Cert.Spec.hidden (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) (ix2 r j))
    (Fin.ext (congrArg (fun t : IVec S4096 32 => (t (ix1 i)).toNat) (tbl_eq m c (outs m hT))))

/-- THE RESULT: the program's output array is the network of the twelve arguments as launched. -/
theorem kernel_val : (V18 m (outs m hT) c main_v80 : FVec Ideal S4096x128 .f32) = (Cert.Spec.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  funext fun ij => by
    rw [eq_ix2 (n0 := 4096) (n1 := 128) ij]
    exact kernel_val_at m hT c (ij 0) (ij 1)

end Value

end Cert.KernelIdeal.Hand

end
-- ==== Proof.PickPreAt.lean ====
/-
  The index range at each program's own argument array. Each program's precondition is the one predicate of its twelve
  argument arrays, on every device; its last conjunct bounds the 4096 row indices (argument 3). So under the precondition
  every index word of argument 3 has unsigned value below 50000 — for the kernel over bit patterns, for the kernel over
  the extended reals, and for the reference over the extended reals alike (the integer conjunct does not look at the
  float family).
-/
import proofs.«418828_j78855599555023_1_alg».proof.Defs
import proofs.«418828_j78855599555023_1_alg».proof.Proof.PickPre

noncomputable section

namespace Cert.PickPre

open Idealize.ShloMosaic Idealize.SL.Sem

variable [Cert.Pre_finite_inputs.Facts]

/-- The kernel over bit patterns: under its precondition every index word of its argument 3 is below 50000, on every device. -/
theorem kernel_idx_in_range (m : (ℓ : Loc Cert.Kernel.nD Cert.Kernel.τ Cert.Kernel.sig) → Buf (Elt Bits) ℓ) (h : Cert.Pre_Kernel m)
    (c : Dev Cert.Kernel.nD) (j : Cert.Kernel.S4096.Idx) :
    (m ((c.tc : Thread Cert.Kernel.nD Cert.Kernel.τ).loc Cert.Kernel.main_arg3) j : BitVec 32).toNat < 50000 :=
  idx_in_range (F := Bits) _ _ _ _ _ _ _ _ _ _ _ _ (h c) j

/-- The kernel over the extended reals: the same. -/
theorem kernelIdeal_idx_in_range (m : (ℓ : Loc Cert.KernelIdeal.nD Cert.KernelIdeal.τ Cert.KernelIdeal.sig) → Buf (Elt Ideal) ℓ) (h : Cert.Pre_KernelIdeal m)
    (c : Dev Cert.KernelIdeal.nD) (j : Cert.KernelIdeal.S4096.Idx) :
    (m ((c.tc : Thread Cert.KernelIdeal.nD Cert.KernelIdeal.τ).loc Cert.KernelIdeal.main_arg3) j : BitVec 32).toNat < 50000 :=
  idx_in_range (F := Ideal) _ _ _ _ _ _ _ _ _ _ _ _ (h c) j

/-- The reference over the extended reals: the same. -/
theorem referenceIdeal_idx_in_range (m : (ℓ : Loc Cert.ReferenceIdeal.nD Cert.ReferenceIdeal.τ Cert.ReferenceIdeal.sig) → Buf (Elt Ideal) ℓ) (h : Cert.Pre_ReferenceIdeal m)
    (c : Dev Cert.ReferenceIdeal.nD) (j : Cert.ReferenceIdeal.S4096.Idx) :
    (m ((c.tc : Thread Cert.ReferenceIdeal.nD Cert.ReferenceIdeal.τ).loc Cert.ReferenceIdeal.main_arg3) j : BitVec 32).toNat < 50000 :=
  idx_in_range (F := Ideal) _ _ _ _ _ _ _ _ _ _ _ _ (h c) j

end Cert.PickPre

end
-- ==== Proof.RefSpec.lean ====
/-
  The reference program's result, as its run states it (one composed term of the launch contents of the twelve
  arguments), is the network `Cert.Spec.net` of those arguments: the run's term repeats the edge coefficients and the
  index lists wherever an operation reads them, and the named pieces fold those repetitions.
-/
import proofs.«418828_j78855599555023_1_alg».proof.Proof.Gen.ReferenceIdeal.Run
import proofs.«418828_j78855599555023_1_alg».proof.Proof.Spec

noncomputable section

namespace Cert.RefSpec

open Idealize.ShloMosaic Idealize.ShloMosaic.TcCoe Idealize.SL.Sem Cert.ReferenceIdeal

variable {F : FTy → Type} [FloatOps F]

set_option maxRecDepth 16384 in
set_option maxHeartbeats 4000000 in
/-- The reference's result is the network of its arguments. -/
theorem res_eq (m : (ℓ : Loc nD τ sig) → Buf (Elt F) ℓ) (c : Dev nD) :
    Cert.ReferenceIdeal.Value.res_main_v120 m c
      = Cert.Spec.net (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v120 Cert.Spec.net Cert.Spec.pick Cert.Spec.proj Cert.Spec.hidden Cert.Spec.agg Cert.Spec.lin
    Cert.Spec.enc Cert.Spec.norm Cert.Spec.dinv Cert.Spec.deg Cert.Spec.wcat Cert.Spec.wrapIx Cert.Spec.srcIx Cert.Spec.dstIx
  rfl

end Cert.RefSpec

end
-- ==== Proof.lean ====
/-
  The certificate of `Cert.Claim`: a graph network — an affine encoder of the node features, two layers that
  transform the features linearly, pass them along the weighted edges (coefficient dinv(source) · weight · dinv(target)
  over the edges and a self-loop per node), add a bias and clip at zero, an affine projection, and the choice of 4096
  rows by index — computed by five kernel regions among host operations, against the same network computed by host
  operations alone.

  The precondition keeps every row index inside the 50000 rows; the kernel copies row index[j] at that raw offset, so
  its run exists only there, and there the reference's index arithmetic (an index below zero counted from the end, then
  clamped) is the identity. Over the extended reals the four dense regions are the reference's matrix products plus bias
  (a product into a zero accumulator is the plain sum over the contracted axis; adding a zero bias changes nothing; a change
  of float format is the identity), the host operations between the regions are the reference's own, and the gathered
  rows are the reference's chosen rows. The three frames follow from the programs' runs: every execution terminates and no
  argument array is ever written.
-/
import proofs.«418828_j78855599555023_1_alg».proof.Defs
import proofs.«418828_j78855599555023_1_alg».proof.Proof.Gen.Kernel
import proofs.«418828_j78855599555023_1_alg».proof.Proof.Gen.KernelIdeal
import proofs.«418828_j78855599555023_1_alg».proof.Proof.Gen.ReferenceIdeal
import proofs.«418828_j78855599555023_1_alg».proof.Proof.Gen.Pre_finite_inputs
import proofs.«418828_j78855599555023_1_alg».proof.Proof.K.Regs
import proofs.«418828_j78855599555023_1_alg».proof.Proof.KI.KernelVal
import proofs.«418828_j78855599555023_1_alg».proof.Proof.PickPreAt
import proofs.«418828_j78855599555023_1_alg».proof.Proof.RefSpec
import Idealize.ShloMosaic.Adequacy
import Idealize.ShloMosaic.Init

noncomputable section

namespace Cert.Proof

open Idealize.ShloMosaic Idealize.SL.Sem

/-- Under the precondition every word of the word-level program's index table is a row number. -/
theorem tbl_k (m : (ℓ : Loc Cert.Kernel.nD Cert.Kernel.τ Cert.Kernel.sig) → Buf (Elt Bits) ℓ) (h : Cert.Pre_Kernel m) :
    Cert.Kernel.Hand.TblInRange (Cert.Kernel.Hand.tbl m) :=
  fun j => Cert.PickPre.kernel_idx_in_range m h 0 j

/-- The same for the idealized program. -/
theorem tbl_ki (m : (ℓ : Loc Cert.KernelIdeal.nD Cert.KernelIdeal.τ Cert.KernelIdeal.sig) → Buf (Elt Ideal) ℓ) (h : Cert.Pre_KernelIdeal m) :
    Cert.KernelIdeal.Hand.TblInRange (Cert.KernelIdeal.Hand.tbl m) :=
  fun j => Cert.PickPre.kernelIdeal_idx_in_range m h 0 j

theorem frame_k : Cert.frame_Kernel := fun m g hpre => Cert.Kernel.Hand.frame_all m (tbl_k m hpre) g

theorem frame_ki : Cert.frame_KernelIdeal := fun m g hpre => Cert.KernelIdeal.Hand.frame_all m (tbl_ki m hpre) g

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result buffers. -/
theorem algebraic : Cert.algebraic_KernelIdeal_ReferenceIdeal := by
  intro m g m' g' hpre hagree
  refine ⟨_, Cert.KernelIdeal.Hand.run_val m (tbl_ki m hpre) g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8, h9, h10, h11⟩ := hagree c
  rw [Cert.RefSpec.res_eq, h0, h1, h2, h3, h4, h5, h6, h7, h8, h9, h10, h11]
  exact (Cert.KernelIdeal.Hand.kernel_val m (tbl_ki m hpre) c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
